-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x1600000 32) (main_arg2 : FVec F S1600000 .f32) (main_arg3 : IVec S50000 32) (main_arg4 : FVec F S128x128 .f32) (main_arg5 : FVec F S128 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S10000x128 : Shape := ⟨2, ![10000, 128]⟩
abbrev S1650000x128 : Shape := ⟨2, ![1650000, 128]⟩
abbrev S1x128 : Shape := ⟨2, ![1, 128]⟩
abbrev S50000x1 : Shape := ⟨2, ![50000, 1]⟩
abbrev S64x128 : Shape := ⟨2, ![64, 128]⟩
abbrev S10000x1 : Shape := ⟨2, ![10000, 1]⟩
abbrev S64x1 : Shape := ⟨2, ![64, 1]⟩
abbrev S10000x64 : Shape := ⟨2, ![10000, 64]⟩
abbrev S64x10000 : Shape := ⟨2, ![64, 10000]⟩
abbrev S64 : Shape := ⟨1, ![64]⟩

abbrev nBuf : Space → Nat
  | .hbm => 97
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S50000, .i32⟩
  | .hbm, ⟨13, _⟩ => ⟨S1650000, .i32⟩
  | .hbm, ⟨14, _⟩ => ⟨S1650000, .i32⟩
  | .hbm, ⟨15, _⟩ => ⟨S_, .f32⟩
  | .hbm, ⟨16, _⟩ => ⟨S50000, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000, .f32⟩
  | .hbm, ⟨56, _⟩ => ⟨S1650000, .f32⟩
  | .hbm, ⟨57, _⟩ => ⟨S50000x128, .f32⟩
  | .hbm, ⟨58, _⟩ => ⟨S_, .i32⟩
  | .hbm, ⟨59, _⟩ => ⟨S1650000, .i32⟩
  | .hbm, ⟨60, _⟩ => ⟨S1650000, .i1⟩
  | .hbm, ⟨61, _⟩ => ⟨S_, .i32⟩
  | .hbm, ⟨62, _⟩ => ⟨S1650000, .i32⟩
  | .hbm, ⟨63, _⟩ => ⟨S1650000, .i32⟩
  | .hbm, ⟨64, _⟩ => ⟨S1650000, .i32⟩
  | .hbm, ⟨65, _⟩ => ⟨S1650000x1, .i32⟩
  | .hbm, ⟨66, _⟩ => ⟨S1650000x128, .f32⟩
  | .hbm, ⟨67, _⟩ => ⟨S1650000x1, .f32⟩
  | .hbm, ⟨68, _⟩ => ⟨S1650000x128, .f32⟩
  | .hbm, ⟨69, _⟩ => ⟨S1650000x128, .f32⟩
  | .hbm, ⟨70, _⟩ => ⟨S_, .f32⟩
  | .hbm, ⟨71, _⟩ => ⟨S50000x128, .f32⟩
  | .hbm, ⟨72, _⟩ => ⟨S1650000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .i32⟩
  | .hbm, ⟨78, _⟩ => ⟨S1650000, .i32⟩
  | .hbm, ⟨79, _⟩ => ⟨S1650000, .i1⟩
  | .hbm, ⟨80, _⟩ => ⟨S_, .i32⟩
  | .hbm, ⟨81, _⟩ => ⟨S1650000, .i32⟩
  | .hbm, ⟨82, _⟩ => ⟨S1650000, .i32⟩
  | .hbm, ⟨83, _⟩ => ⟨S1650000, .i32⟩
  | .hbm, ⟨84, _⟩ => ⟨S1650000x1, .i32⟩
  | .hbm, ⟨85, _⟩ => ⟨S1650000x128, .f32⟩
  | .hbm, ⟨86, _⟩ => ⟨S1650000x1, .f32⟩
  | .hbm, ⟨87, _⟩ => ⟨S1650000x128, .f32⟩
  | .hbm, ⟨88, _⟩ => ⟨S1650000x128, .f32⟩
  | .hbm, ⟨89, _⟩ => ⟨S_, .f32⟩
  | .hbm, ⟨90, _⟩ => ⟨S50000x128, .f32⟩
  | .hbm, ⟨91, _⟩ => ⟨S1650000x1, .i32⟩
  | .hbm, ⟨92, _⟩ => ⟨S50000x128, .f32⟩
  | .hbm, ⟨93, _⟩ => ⟨S1x128, .f32⟩
  | .hbm, ⟨94, _⟩ => ⟨S50000x1, .i32⟩
  | .hbm, ⟨95, _⟩ => ⟨S50000x128, .f32⟩
  | .hbm, ⟨96, _⟩ => ⟨S64x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x1, .i32⟩
  | .local _ .vmem, ⟨19, _⟩ => ⟨S10000x1, .i32⟩
  | .local _ .vmem, ⟨20, _⟩ => ⟨S10000x128, .f32⟩
  | .local _ .vmem, ⟨21, _⟩ => ⟨S10000x128, .f32⟩
  | .local _ .vmem, ⟨22, _⟩ => ⟨S64x128, .f32⟩
  | .local _ .vmem, ⟨23, _⟩ => ⟨S64x128, .f32⟩
  | .local _ .vmem, ⟨24, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67_0 : Ref sig .tc := ⟨.hbm, 95, rfl⟩
abbrev main_v67_1 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc3_stg4_0 : Ref sig .tc := ⟨.vmem, 22, rfl⟩
abbrev cc3_scratch0 : Ref sig .tc := ⟨.vmem, 23, rfl⟩
abbrev cc3_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def k3_cond2 (i : grid3.Coords) : BitVec 1 :=
  let arg0 : BitVec 32 := BitVec.ofNat 32 (i 0).val
  let c4_i32 : BitVec 32 := 4#32
  let v33 : BitVec 1 := Scalar.cmpi .eq arg0 c4_i32
  let v34 : BitVec 32 := Scalar.extui v33
  let c0_i32_18 : BitVec 32 := 0#32
  let v35 : BitVec 1 := Scalar.cmpi .ne v34 c0_i32_18
  v35

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S64x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  transposes_S10000x64_p1_0_S64x10000 : S10000x64.Transposes [1, 0] S64x10000
  reduces_S10000x64_S64 : S10000x64.Reduces [0] S64
  shapeCasts_S64_S64x1 : S64.ShapeCasts S64x1
  broadcasts_S64x1_S64x128 : S64x1.Broadcasts S64x128
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x128_S128x128_S10000x128_1_0_0_1_n_n_wf : DotDims.WF S10000x128 S128x128 S10000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S64x10000_S10000x128_S64x128_1_0_0_1_n_n_wf : DotDims.WF S64x10000 S10000x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S50000x128.size a
  hwx2_2 : ∀ i : grid2.Coords, EltTy.bits .f32 = 32 ∨ (Rect.block (s := S50000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .i32 = 32 ∨ (Rect.block (s := S50000x1) S10000x1.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .f32 = 32 ∨ (Rect.block (s := S50000x128) S10000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x128.size a ≤ S64x128.size a
  hwx3_4 : ∀ i : grid3.Coords, EltTy.bits .f32 = 32 ∨ (Rect.block (s := S64x128) S64x128.size (cc3_transform_4 i) (hinb3_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S64x10000_S10000x128_S64x128_1_0_0_1_n_n : DotDims S64x10000 S10000x128 S64x128 where
  lhsContracting := [1]
  rhsContracting := [0]
  lhsNonContracting := [0]
  rhsNonContracting := [1]
  lhsBatch := []
  rhsBatch := []
  wf := dot_S64x10000_S10000x128_S64x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67_0) S10000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v67_1) S64x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S50000 : Shape := ⟨1, ![50000]⟩
abbrev S128x128 : Shape := ⟨2, ![128, 128]⟩
abbrev S128 : Shape := ⟨1, ![128]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S50000, .i32⟩
  | 13 => ⟨S1650000, .i32⟩
  | 14 => ⟨S1650000, .i32⟩
  | 15 => ⟨S_, .f32⟩
  | 16 => ⟨S50000, .f32⟩
  | 17 => ⟨S1650000, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S_, .f32⟩
  | 26 => ⟨S50000, .f32⟩
  | 27 => ⟨S50000, .i1⟩
  | 28 => ⟨S_, .f32⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000, .f32⟩
  | 56 => ⟨S1650000, .f32⟩
  | 57 => ⟨S50000x128, .f32⟩
  | 58 => ⟨S_, .i32⟩
  | 59 => ⟨S1650000, .i32⟩
  | 60 => ⟨S1650000, .i1⟩
  | 61 => ⟨S_, .i32⟩
  | 62 => ⟨S1650000, .i32⟩
  | 63 => ⟨S1650000, .i32⟩
  | 64 => ⟨S1650000, .i32⟩
  | 65 => ⟨S1650000x1, .i32⟩
  | 66 => ⟨S1650000x128, .f32⟩
  | 67 => ⟨S1650000x1, .f32⟩
  | 68 => ⟨S1650000x128, .f32⟩
  | 69 => ⟨S1650000x128, .f32⟩
  | 70 => ⟨S_, .f32⟩
  | 71 => ⟨S50000x128, .f32⟩
  | 72 => ⟨S1650000x1, .i32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000, .i32⟩
  | 81 => ⟨S1650000, .i32⟩
  | 82 => ⟨S1650000, .i32⟩
  | 83 => ⟨S_, .f32⟩
  | 84 => ⟨S50000, .f32⟩
  | 85 => ⟨S1650000, .f32⟩
  | 86 => ⟨S_, .f32⟩
  | 87 => ⟨S50000, .f32⟩
  | 88 => ⟨S1650000x1, .i32⟩
  | 89 => ⟨S50000, .f32⟩
  | 90 => ⟨S_, .f32⟩
  | 91 => ⟨S50000, .f32⟩
  | 92 => ⟨S50000, .i1⟩
  | 93 => ⟨S_, .f32⟩
  | 94 => ⟨S50000, .f32⟩
  | 95 => ⟨S50000, .i1⟩
  | 96 => ⟨S_, .f32⟩
  | 97 => ⟨S_, .f32⟩
  | 98 => ⟨S50000, .f32⟩
  | 99 => ⟨S50000, .f32⟩
  | 100 => ⟨S50000, .f32⟩
  | 101 => ⟨S_, .f32⟩
  | 102 => ⟨S_, .f32⟩
  | 103 => ⟨S50000, .f32⟩
  | 104 => ⟨S50000, .f32⟩
  | 105 => ⟨S_, .i32⟩
  | 106 => ⟨S1650000, .i32⟩
  | 107 => ⟨S1650000, .i1⟩
  | 108 => ⟨S_, .i32⟩
  | 109 => ⟨S1650000, .i32⟩
  | 110 => ⟨S1650000, .i32⟩
  | 111 => ⟨S1650000, .i32⟩
  | 112 => ⟨S1650000x1, .i32⟩
  | 113 => ⟨S1650000, .f32⟩
  | 114 => ⟨S1650000, .f32⟩
  | 115 => ⟨S_, .i32⟩
  | 116 => ⟨S1650000, .i32⟩
  | 117 => ⟨S1650000, .i1⟩
  | 118 => ⟨S_, .i32⟩
  | 119 => ⟨S1650000, .i32⟩
  | 120 => ⟨S1650000, .i32⟩
  | 121 => ⟨S1650000, .i32⟩
  | 122 => ⟨S1650000x1, .i32⟩
  | 123 => ⟨S1650000, .f32⟩
  | 124 => ⟨S1650000, .f32⟩
  | 125 => ⟨S50000x128, .f32⟩
  | 126 => ⟨S_, .i32⟩
  | 127 => ⟨S1650000, .i32⟩
  | _ => ⟨S50000x128, .f32⟩

abbrev hbmTy0_1 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000x128, .f32⟩
  | 7 => ⟨S1650000x1, .f32⟩
  | 8 => ⟨S1650000x128, .f32⟩
  | 9 => ⟨S1650000x128, .f32⟩
  | 10 => ⟨S_, .f32⟩
  | 11 => ⟨S50000x128, .f32⟩
  | 12 => ⟨S1650000x1, .i32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S_, .f32⟩
  | 21 => ⟨S64x128, .f32⟩
  | 22 => ⟨S50000x1, .i32⟩
  | 23 => ⟨S64x128, .f32⟩
  | 24 => ⟨S_, .f32⟩
  | 25 => ⟨S50000, .f32⟩
  | 26 => ⟨S_, .f32⟩
  | 27 => ⟨S64, .f32⟩
  | 28 => ⟨S50000x1, .i32⟩
  | 29 => ⟨S64, .f32⟩
  | 30 => ⟨S_, .f32⟩
  | 31 => ⟨S64, .f32⟩
  | 32 => ⟨S64, .f32⟩
  | 33 => ⟨S64x1, .f32⟩
  | 34 => ⟨S64x128, .f32⟩
  | 35 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_call3_v0 : Ref sig .tc := ⟨.hbm, 97, rfl⟩
abbrev main_call3_v1 : Ref sig .tc := ⟨.hbm, 98, rfl⟩
abbrev main_v65 : Ref sig .tc := ⟨.hbm, 99, rfl⟩
abbrev main_v66 : Ref sig .tc := ⟨.hbm, 100, rfl⟩
abbrev main_cst_16 : Ref sig .tc := ⟨.hbm, 101, rfl⟩
abbrev main_call4_v0 : Ref sig .tc := ⟨.hbm, 102, rfl⟩
abbrev main_call4_v1 : Ref sig .tc := ⟨.hbm, 103, rfl⟩
abbrev main_v67 : Ref sig .tc := ⟨.hbm, 104, rfl⟩
abbrev main_c_17 : Ref sig .tc := ⟨.hbm, 105, rfl⟩
abbrev main_v68 : Ref sig .tc := ⟨.hbm, 106, rfl⟩
abbrev main_v69 : Ref sig .tc := ⟨.hbm, 107, rfl⟩
abbrev main_c_18 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_c_19 : Ref sig .tc := ⟨.hbm, 115, rfl⟩
abbrev main_v76 : Ref sig .tc := ⟨.hbm, 116, rfl⟩
abbrev main_v77 : Ref sig .tc := ⟨.hbm, 117, rfl⟩
abbrev main_c_20 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_21 : Ref sig .tc := ⟨.hbm, 126, rfl⟩
abbrev main_v85 : Ref sig .tc := ⟨.hbm, 127, rfl⟩
abbrev main_v86 : Ref sig .tc := ⟨.hbm, 128, rfl⟩
abbrev main_c_22 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_23 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_call5_cst : Ref sig .tc := ⟨.hbm, 145, rfl⟩
abbrev main_call5_v0 : Ref sig .tc := ⟨.hbm, 146, rfl⟩
abbrev main_v101 : Ref sig .tc := ⟨.hbm, 147, rfl⟩
abbrev main_cst_24 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_25 : Ref sig .tc := ⟨.hbm, 152, rfl⟩
abbrev main_v105 : Ref sig .tc := ⟨.hbm, 153, rfl⟩
abbrev main_cst_26 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_cst_27 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Spec.lean ====
/- The host computation that the kernel's program and the reference share, as named functions of the arguments, spelt
   operation for operation as the reference's composed run spells them: the two index vectors with the self loops
   appended, the edge weights with ones appended, the degrees (a segment sum of the weights by target), their inverse
   square roots where positive, the symmetric normalisation of each edge, one graph convolution's aggregation (rows of a
   product taken at the sources, scaled, summed by target), bias with rectifier, and the mean pool by graph id. The
   reference's two results are compositions of these. -/
import proofs.«404703_j87608742904438_2_alg».proof.Proof.Gen.ReferenceIdeal
import proofs.«404703_j87608742904438_2_alg».proof.Proof.Gen.ReferenceIdeal.Run

set_option maxRecDepth 8192

noncomputable section

namespace Cert.Spec

open Idealize.ShloMosaic Idealize.ShloMosaic.TcCoe Cert.ReferenceIdeal Cert.ReferenceIdeal.Facts₀

variable {F : FTy → Type} [FloatOps F]

/-- Sources, then each node once (its self loop). -/
def rowIx (ei : IVec S2x1600000 32) : IVec S1650000 32 :=
  (concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0)
/-- Targets, then each node once. -/
def colIx (ei : IVec S2x1600000 32) : IVec S1650000 32 :=
  (concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0)
/-- The edge weights, then a one per self loop. -/
def wts (ew : FVec F S1600000 .f32) : FVec F S1650000 .f32 :=
  (concatenate S1650000 0 [⟨S1600000, ew⟩, ⟨S50000, (broadcastInDim S50000 ![] bcast_S_S50000 (constant S_ .f32 0x3F800000#32))⟩] concatenates_S1600000_S50000_S1650000_d0)
/-- The weighted in-degree of each node. -/
def deg (ei : IVec S2x1600000 32) (ew : FVec F S1600000 .f32) : FVec F S50000 .f32 :=
  (Host.scatterAdd scatter_S50000_S1650000x1_S1650000_n_0_0_1 (broadcastInDim S50000 ![] bcast_S_S50000 (constant S_ .f32 0x00000000#32)) (broadcastInDim S1650000x1 ![0] bcast_S1650000_S1650000x1_0 (colIx ei)) (wts ew))
/-- Its inverse square root where it is positive, zero elsewhere. -/
def dis (ei : IVec S2x1600000 32) (ew : FVec F S1600000 .f32) : FVec F S50000 .f32 :=
  (select (cmpf .ogt (deg ei ew) (broadcastInDim S50000 ![] bcast_S_S50000 (constant S_ .f32 0x00000000#32))) (Host.rsqrt (select (cmpf .ogt (deg ei ew) (broadcastInDim S50000 ![] bcast_S_S50000 (constant S_ .f32 0x00000000#32))) (deg ei ew) (broadcastInDim S50000 ![] bcast_S_S50000 (id (constant S_ .f32 0x3F800000#32))))) (broadcastInDim S50000 ![] bcast_S_S50000 (id (constant S_ .f32 0x00000000#32))))
/-- An index vector with negative entries wrapped, as a column. -/
def nIx (v : IVec S1650000 32) : IVec S1650000x1 32 :=
  (broadcastInDim S1650000x1 ![0] bcast_S1650000_S1650000x1_0 (select (cmpi .slt v (broadcastInDim S1650000 ![] bcast_S_S1650000 (constantI S_ 32 0#32))) (addi v (broadcastInDim S1650000 ![] bcast_S_S1650000 (constantI S_ 32 50000#32))) v))
/-- The normalisation of each edge: dis at its source, times its weight, times dis at its target. -/
def norm (ei : IVec S2x1600000 32) (ew : FVec F S1600000 .f32) : FVec F S1650000 .f32 :=
  (mulf (mulf (Host.gather gather_S50000_S1650000x1_S1650000_n_0_n_n_0_1_1 (dis ei ew) (nIx (rowIx ei))) (wts ew)) (Host.gather gather_S50000_S1650000x1_S1650000_n_0_n_n_0_1_1 (dis ei ew) (nIx (colIx ei))))
/-- One aggregation over given index vectors and edge scales: the rows of `xw` at the sources `row`, each scaled by its
    edge's `nrm`, summed into the targets `col`. -/
def aggOf (xw : FVec F S50000x128 .f32) (row col : IVec S1650000 32) (nrm : FVec F S1650000 .f32) : FVec F S50000x128 .f32 :=
  (Host.scatterAdd scatter_S50000x128_S1650000x1_S1650000x128_1_0_0_1 (broadcastInDim S50000x128 ![] bcast_S_S50000x128 (constant S_ .f32 0x00000000#32)) (broadcastInDim S1650000x1 ![0] bcast_S1650000_S1650000x1_0 col) (mulf (Host.gather gather_S50000x128_S1650000x1_S1650000x128_1_0_n_n_0_1_1128 xw (nIx row)) (broadcastInDim S1650000x128 ![0, 1] bcast_S1650000x1_S1650000x128_0_1 (broadcastInDim S1650000x1 ![0] bcast_S1650000_S1650000x1_0 nrm))))
/-- One aggregation of the graph: `aggOf` at the graph's index vectors and normalisation. -/
def agg (xw : FVec F S50000x128 .f32) (ei : IVec S2x1600000 32) (ew : FVec F S1600000 .f32) : FVec F S50000x128 .f32 :=
  aggOf xw (rowIx ei) (colIx ei) (norm ei ew)
/-- A bias vector as a 1×128 row. -/
def biasRow (b : FVec F S128 .f32) : FVec F S1x128 .f32 :=
  broadcastInDim S1x128 ![1] bcast_S128_S1x128_1 b
/-- The larger of zero and the sum of the entries with the bias row. -/
def relu (a : FVec F S50000x128 .f32) (b : FVec F S1x128 .f32) : FVec F S50000x128 .f32 :=
  maximumf (addf a (broadcastInDim S50000x128 ![0, 1] bcast_S1x128_S50000x128_0_1 b)) (broadcastInDim S50000x128 ![] bcast_S_S50000x128 (constant S_ .f32 0x00000000#32))
/-- The dense product of the 50000 rows with a 128×128 weight. -/
def dense (l : FVec F S50000x128 .f32) (r : FVec F S128x128 .f32) : FVec F S50000x128 .f32 :=
  Host.dotGeneral dot_S50000x128_S128x128_S50000x128_1_0_0_1_n_n none l r
/-- The graph ids as a column. -/
def idsCol (bt : IVec S50000 32) : IVec S50000x1 32 :=
  broadcastInDim S50000x1 ![0] bcast_S50000_S50000x1_0 bt
/-- The mean of the rows of `h` per graph id: the segment sum of the rows over the segment count, at least one. -/
def pool (h : FVec F S50000x128 .f32) (ids : IVec S50000x1 32) : FVec F S64x128 .f32 :=
  Host.divf (Host.scatterAdd scatter_S64x128_S50000x1_S50000x128_1_0_0_1 (broadcastInDim S64x128 ![] bcast_S_S64x128 (constant S_ .f32 0x00000000#32)) ids h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) ids (broadcastInDim S50000 ![] bcast_S_S50000 (constant S_ .f32 0x3F800000#32))) (broadcastInDim S64 ![] bcast_S_S64 (constant S_ .f32 0x3F800000#32)))))

/-- The two layers. -/
def h1 (x : FVec F S50000x128 .f32) (ei : IVec S2x1600000 32) (ew : FVec F S1600000 .f32) (w1 : FVec F S128x128 .f32) (b1 : FVec F S128 .f32) : FVec F S50000x128 .f32 :=
  relu (agg (dense x w1) ei ew) (biasRow b1)
def h2 (x : FVec F S50000x128 .f32) (ei : IVec S2x1600000 32) (ew : FVec F S1600000 .f32) (w1 : FVec F S128x128 .f32) (b1 : FVec F S128 .f32)
    (w2 : FVec F S128x128 .f32) (b2 : FVec F S128 .f32) : FVec F S50000x128 .f32 :=
  relu (agg (dense (h1 x ei ew w1 b1) w2) ei ew) (biasRow b2)

variable (m : (ℓ : Loc nD τ sig) → Buf (Elt F) ℓ) (c : Dev nD)

/-- The reference's first result is the second layer. -/
theorem ref_h2 : Value.res_main_v101 m c
    = h2 (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7)) := by
  unfold Value.res_main_v101 h2 h1 relu agg aggOf dense biasRow norm nIx dis deg wts colIx rowIx
  rfl

/-- The reference's second result is the mean pool of the first. -/
theorem ref_pool : Value.res_main_v113 m c
    = pool (Value.res_main_v101 m c) (idsCol (m ((c.tc : Thread nD τ).loc main_arg3))) := by
  unfold Value.res_main_v113 Value.res_main_v101 pool idsCol
  rfl

end Cert.Spec

end
-- ==== Proof.KI.R0.lean ====
/- Region 0 of the program: the first dense product. At each of the five grid points the body reads a block of
   10000 rows of the feature matrix and the whole 128×128 weight, and stores their matrix product (into a zero
   accumulator) over the whole output block. Stated at a parameter `V`, the buffer contents when the region is entered. -/
import proofs.«404703_j87608742904438_2_alg».proof.Proof.Gen.KernelIdeal.Launch
import proofs.«404703_j87608742904438_2_alg».proof.Proof.Gen.KernelIdeal.Skeleton
import proofs.«404703_j87608742904438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether it was fetched there or the index map
    did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in each 10000×128 buffer: all of it. -/
abbrev rA0 : Rect S10000x128 := Rect.unit (s := S10000x128) ![0, 0] S10000x128.size inb_S10000x128_S10000x128_0_0
abbrev rW0 : Rect S128x128 := Rect.unit (s := S128x128) ![0, 0] S128x128.size inb_S128x128_S128x128_0_0

/-- What the body leaves in the output block: the product of the row block and the weight. -/
def out0_2 (x0 : Vec F S10000x128 .f32) (x1 : Vec F S128x128 .f32) : Vec F S10000x128 .f32 :=
  View.canon [⟨rA0, k0_pay1 (View.ld x0 rA0) (View.ld x1 rW0)⟩]

theorem cover0_2 (p0 : Vec F S10000x128 .f32) (y : S10000x128.Idx) :
    ∃ pc ∈ ([⟨rA0, p0⟩] : List (View.Piece (Elt F) S10000x128 .f32)), y ∈ pc.1.set :=
  View.cover_of_tiled [⟨rA0, p0⟩] S10000x128.size (by rfl) y

set_option maxHeartbeats 1000000 in
/-- The body on whole staging buffers: the inputs come back as they were, the output holds `out0_2` of them. -/
theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of the program: bias and rectifier of the first layer. At each of the five grid points the body reads a block of the aggregated messages,
   10000 rows, and the 1×128 bias row, and stores the larger of zero and their sum (the bias broadcast along the rows;
   no accumulator) over the whole output block. Stated at a parameter `V`, the buffer contents when the region is entered. -/
import proofs.«404703_j87608742904438_2_alg».proof.Proof.Gen.KernelIdeal.Launch
import proofs.«404703_j87608742904438_2_alg».proof.Proof.Gen.KernelIdeal.Skeleton
import proofs.«404703_j87608742904438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether it was fetched there or the index map
    did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches in each 10000×128 buffer: all of it. -/
abbrev rA1 : Rect S10000x128 := Rect.unit (s := S10000x128) ![0, 0] S10000x128.size inb_S10000x128_S10000x128_0_0
abbrev rW1 : Rect S1x128 := Rect.unit (s := S1x128) ![0, 0] S1x128.size inb_S1x128_S1x128_0_0

/-- What the body leaves in the output block: the rectified sum of the row block and the bias row. -/
def out1_2 (x0 : Vec F S10000x128 .f32) (x1 : Vec F S1x128 .f32) : Vec F S10000x128 .f32 :=
  View.canon [⟨rA1, k1_pay1 (View.ld x0 rA1) (View.ld x1 rW1)⟩]

theorem cover1_2 (p0 : Vec F S10000x128 .f32) (y : S10000x128.Idx) :
    ∃ pc ∈ ([⟨rA1, p0⟩] : List (View.Piece (Elt F) S10000x128 .f32)), y ∈ pc.1.set :=
  View.cover_of_tiled [⟨rA1, p0⟩] S10000x128.size (by rfl) y

set_option maxHeartbeats 1000000 in
/-- The body on whole staging buffers: the inputs come back as they were, the output holds `out1_2` of them. -/
theorem sound_kernel1 (c : Dev nD) (E : Set ℕ) (i : grid1.Coords) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of the program: the second dense product. At each of the five grid points the body reads a block of
   10000 rows of the hidden layer and the whole 128×128 weight, and stores their matrix product (into a zero
   accumulator) over the whole output block. Stated at a parameter `V`, the buffer contents when the region is entered. -/
import proofs.«404703_j87608742904438_2_alg».proof.Proof.Gen.KernelIdeal.Launch
import proofs.«404703_j87608742904438_2_alg».proof.Proof.Gen.KernelIdeal.Skeleton
import proofs.«404703_j87608742904438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether it was fetched there or the index map
    did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches in each 10000×128 buffer: all of it. -/
abbrev rA2 : Rect S10000x128 := Rect.unit (s := S10000x128) ![0, 0] S10000x128.size inb_S10000x128_S10000x128_0_0
abbrev rW2 : Rect S128x128 := Rect.unit (s := S128x128) ![0, 0] S128x128.size inb_S128x128_S128x128_0_0

/-- What the body leaves in the output block: the product of the row block and the weight. -/
def out2_2 (x0 : Vec F S10000x128 .f32) (x1 : Vec F S128x128 .f32) : Vec F S10000x128 .f32 :=
  View.canon [⟨rA2, k2_pay1 (View.ld x0 rA2) (View.ld x1 rW2)⟩]

theorem cover2_2 (p0 : Vec F S10000x128 .f32) (y : S10000x128.Idx) :
    ∃ pc ∈ ([⟨rA2, p0⟩] : List (View.Piece (Elt F) S10000x128 .f32)), y ∈ pc.1.set :=
  View.cover_of_tiled [⟨rA2, p0⟩] S10000x128.size (by rfl) y

set_option maxHeartbeats 1000000 in
/-- The body on whole staging buffers: the inputs come back as they were, the output holds `out2_2` of them. -/
theorem sound_kernel2 (c : Dev nD) (E : Set ℕ) (i : grid2.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3Defs.lean ====
/- Region 3 of the program, the values: bias, rectifier and the mean pool of the second layer. At grid point t the body
   reads a block of 10000 rows of the aggregated messages, the bias row and the block's 10000 graph ids; it stores the
   rectified sums as the block of the first result, adds to a 64×128 scratch the sums of the block's rows per graph id
   (a one-hot matrix product) and to a 64×1 scratch the block's row counts per graph id, both scratches zeroed at the
   first point, and at the last point stores the quotient of the sums by the counts (at least one) as the second result.
   Here: what each buffer holds after a point, as pure functions of what the point reads. -/
import proofs.«404703_j87608742904438_2_alg».proof.Proof.Gen.KernelIdeal.Launch
import proofs.«404703_j87608742904438_2_alg».proof.Proof.Gen.KernelIdeal.Skeleton
import proofs.«404703_j87608742904438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of each buffer the body touches. -/
abbrev rA3 : Rect S10000x128 := Rect.unit (s := S10000x128) ![0, 0] S10000x128.size inb_S10000x128_S10000x128_0_0
abbrev rB3 : Rect S1x128 := Rect.unit (s := S1x128) ![0, 0] S1x128.size inb_S1x128_S1x128_0_0
abbrev rT3 : Rect S10000x1 := Rect.unit (s := S10000x1) ![0, 0] S10000x1.size inb_S10000x1_S10000x1_0_0
abbrev rS3 : Rect S64x128 := Rect.unit (s := S64x128) ![0, 0] S64x128.size inb_S64x128_S64x128_0_0
abbrev rC3 : Rect S64x1 := Rect.unit (s := S64x1) ![0, 0] S64x1.size inb_S64x1_S64x1_0_0

/-- The block of the first result: the rectified sum of the row block and the bias row. -/
def hOut3 (x : Vec F S10000x128 .f32) (b : Vec F S1x128 .f32) : Vec F S10000x128 .f32 :=
  View.canon [⟨rA3, k3_pay4 (View.ld x rA3) (View.ld b rB3)⟩]

/-- The sums scratch after a point, from what it held before. -/
def sumsNext (x : Vec F S10000x128 .f32) (b : Vec F S1x128 .f32) (bt : Vec F S10000x1 .i32) (S : Vec F S64x128 .f32) : Vec F S64x128 .f32 :=
  View.canon [⟨rS3, k3_pay6 (View.ld x rA3) (View.ld b rB3) (View.ld bt rT3) (View.ld S rS3)⟩]

/-- The counts scratch after a point, from what it held before. -/
def cntsNext (bt : Vec F S10000x1 .i32) (C : Vec F S64x1 .f32) : Vec F S64x1 .f32 :=
  View.canon [⟨rC3, k3_pay7 (View.ld bt rT3) (View.ld C rC3)⟩]

/-- The two scratches as the first point resets them: zeros. -/
def sums0 : Vec F S64x128 .f32 := View.canon [⟨rS3, k3_pay2 (F := F)⟩]
def cnts0 : Vec F S64x1 .f32 := View.canon [⟨rC3, k3_pay3 (F := F)⟩]

/-- The second result as the last point stores it: the sums divided by the counts, at least one. -/
def pooledOut (S : Vec F S64x128 .f32) (C : Vec F S64x1 .f32) : Vec F S64x128 .f32 :=
  View.canon [⟨rS3, k3_pay1 (View.ld S rS3) (View.ld C rC3)⟩]

/-- The sums scratch after point `n`: the fold of `sumsNext` over the blocks 0 … n, from zeros. -/
def sumsAt (c : Dev nD) : (n : ℕ) → n < cfg3.N → Vec F S64x128 .f32
  | 0, h => sumsNext (iblk3 V c 0 ⟨0, h⟩) (iblk3 V c 1 ⟨0, h⟩) (iblk3 V c 2 ⟨0, h⟩) sums0
  | n + 1, h => sumsNext (iblk3 V c 0 ⟨n + 1, h⟩) (iblk3 V c 1 ⟨n + 1, h⟩) (iblk3 V c 2 ⟨n + 1, h⟩) (sumsAt c n (Nat.lt_of_succ_lt h))

/-- The counts scratch after point `n`. -/
def cntsAt (c : Dev nD) : (n : ℕ) → n < cfg3.N → Vec F S64x1 .f32
  | 0, h => cntsNext (iblk3 V c 2 ⟨0, h⟩) cnts0
  | n + 1, h => cntsNext (iblk3 V c 2 ⟨n + 1, h⟩) (cntsAt c n (Nat.lt_of_succ_lt h))

theorem sumsAt_zero (c : Dev nD) (h : 0 < cfg3.N) :
    sumsAt V c 0 h = sumsNext (iblk3 V c 0 ⟨0, h⟩) (iblk3 V c 1 ⟨0, h⟩) (iblk3 V c 2 ⟨0, h⟩) sums0 := rfl
theorem sumsAt_succ (c : Dev nD) (n : ℕ) (h : n + 1 < cfg3.N) :
    sumsAt V c (n + 1) h = sumsNext (iblk3 V c 0 ⟨n + 1, h⟩) (iblk3 V c 1 ⟨n + 1, h⟩) (iblk3 V c 2 ⟨n + 1, h⟩) (sumsAt V c n (Nat.lt_of_succ_lt h)) := rfl
theorem cntsAt_zero (c : Dev nD) (h : 0 < cfg3.N) :
    cntsAt V c 0 h = cntsNext (iblk3 V c 2 ⟨0, h⟩) cnts0 := rfl
theorem cntsAt_succ (c : Dev nD) (n : ℕ) (h : n + 1 < cfg3.N) :
    cntsAt V c (n + 1) h = cntsNext (iblk3 V c 2 ⟨n + 1, h⟩) (cntsAt V c n (Nat.lt_of_succ_lt h)) := rfl

end Cert.KernelIdeal.Hand

end
-- ==== Proof.KI.R3.lean ====
/- Region 3 of the program, the run: the body's triple at each of its three kinds of grid point (the first, which zeroes
   the two scratch accumulators; the middle ones; the last, which also stores the pooled means), the region's proof data
   with the accumulators tracked from point to point, and the body obligation. -/
import proofs.«404703_j87608742904438_2_alg».proof.Proof.KI.R3Defs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first branch condition: the grid coordinate is zero. -/
abbrev cond3_0 (i : grid3.Coords) : Prop := (Scalar.cmpi .ne (Scalar.extui (Scalar.cmpi .eq (BitVec.ofNat 32 (i 0).val) 0#32)) 0#32) = 1#1
/-- It holds exactly at the first point. -/
theorem hcond3_0 : ∀ t : Fin cfg3.N, cond3_0 (grid3.coords t) ↔ t.val = 0 :=
  (by decide +kernel : ∀ t : Fin grid3.N, cond3_0 (grid3.coords t) ↔ t.val = 0)
/-- The body's second branch condition: the grid coordinate is four. -/
abbrev cond3_1 (i : grid3.Coords) : Prop := k3_cond2 i = 1#1
/-- It holds exactly at the last point. -/
theorem hcond3_1 : ∀ t : Fin cfg3.N, cond3_1 (grid3.coords t) ↔ t.val = 4 :=
  (by decide +kernel : ∀ t : Fin grid3.N, cond3_1 (grid3.coords t) ↔ t.val = 4)

/-- Two zero offsets, however spelt. -/
theorem zoff3 : (![0, 0] : Fin 2 → Nat) = fun _ => 0 := funext fun a => by fin_cases a <;> rfl

/-- A load through the whole of a buffer reads its contents. -/
theorem ldA3 (X : Vec F S10000x128 .f32) : View.ld X rA3 = X := View.ld_unit_zero zoff3 _ X
theorem ldS3 (X : Vec F S64x128 .f32) : View.ld X rS3 = X := View.ld_unit_zero zoff3 _ X
theorem ldC3 (X : Vec F S64x1 .f32) : View.ld X rC3 = X := View.ld_unit_zero zoff3 _ X

/-- One store through the whole of a buffer leaves its payload. -/
theorem sumsNext_pay (x : Vec F S10000x128 .f32) (b : Vec F S1x128 .f32) (bt : Vec F S10000x1 .i32) (S : Vec F S64x128 .f32) :
    sumsNext x b bt S = k3_pay6 (View.ld x rA3) (View.ld b rB3) (View.ld bt rT3) (View.ld S rS3) :=
  View.canon_unit_zero zoff3 _ _
theorem cntsNext_pay (bt : Vec F S10000x1 .i32) (C : Vec F S64x1 .f32) :
    cntsNext bt C = k3_pay7 (View.ld bt rT3) (View.ld C rC3) :=
  View.canon_unit_zero zoff3 _ _
theorem sums0_pay : sums0 (F := F) = k3_pay2 (F := F) := View.canon_unit_zero zoff3 _ _
theorem cnts0_pay : cnts0 (F := F) = k3_pay3 (F := F) := View.canon_unit_zero zoff3 _ _

/-- The last store through the whole of a buffer covers it, whatever was stored before. -/
theorem cover3_A (p0 : Vec F S10000x128 .f32) (L : List (View.Piece (Elt F) S10000x128 .f32)) (y : S10000x128.Idx) :
    ∃ pc ∈ ((⟨rA3, p0⟩ :: L : List (View.Piece (Elt F) S10000x128 .f32))), y ∈ pc.1.set :=
  ⟨_, List.mem_cons.mpr (Or.inl rfl), View.mem_set_unit_zero (S := S10000x128) zoff3 inb_S10000x128_S10000x128_0_0 y⟩
theorem cover3_S (p0 : Vec F S64x128 .f32) (L : List (View.Piece (Elt F) S64x128 .f32)) (y : S64x128.Idx) :
    ∃ pc ∈ ((⟨rS3, p0⟩ :: L : List (View.Piece (Elt F) S64x128 .f32))), y ∈ pc.1.set :=
  ⟨_, List.mem_cons.mpr (Or.inl rfl), View.mem_set_unit_zero (S := S64x128) zoff3 inb_S64x128_S64x128_0_0 y⟩
theorem cover3_C (p0 : Vec F S64x1 .f32) (L : List (View.Piece (Elt F) S64x1 .f32)) (y : S64x1.Idx) :
    ∃ pc ∈ ((⟨rC3, p0⟩ :: L : List (View.Piece (Elt F) S64x1 .f32))), y ∈ pc.1.set :=
  ⟨_, List.mem_cons.mpr (Or.inl rfl), View.mem_set_unit_zero (S := S64x1) zoff3 inb_S64x1_S64x1_0_0 y⟩

set_option maxHeartbeats 1000000 in
/-- The first point: the accumulators, whatever they held, are zeroed and advanced from zeros; the first result's block is
    stored; the inputs and the second result's buffer come back as they were. -/
theorem sound_kernel3_A (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x1 .i32) (harg3 : arg3.IsWhole) (arg4 : Memref sig .tc .vmem S10000x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x1 .f32) (harg7 : arg7.IsWhole) (hc0 : cond3_0 i) (hc1 : ¬cond3_1 i)
    (x : Vec F S10000x128 .f32) (b : Vec F S1x128 .f32) (bt : Vec F S10000x1 .i32) (P : Vec F S64x128 .f32) (K : PUnit → sProp 𝕄) :
    iprop(owns (c : Thread nD τ) arg1 fullShare x ∗ owns (c : Thread nD τ) arg2 fullShare b ∗ owns (c : Thread nD τ) arg3 fullShare bt
        ∗ (∃ d, owns (c : Thread nD τ) arg4 fullShare d) ∗ owns (c : Thread nD τ) arg5 fullShare P
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare b ∗ owns (c : Thread nD τ) arg3 fullShare bt
            ∗ owns (c : Thread nD τ) arg4 fullShare (hOut3 x b) ∗ owns (c : Thread nD τ) arg5 fullShare P
            ∗ owns (c : Thread nD τ) arg6 fullShare (sumsNext x b bt sums0) ∗ owns (c : Thread nD τ) arg7 fullShare (cntsNext bt cnts0)) -∗ K ⟨⟩))
      ⊢ wp frame (wpE (defs₀ (F := F)) Variants.none c none) E (cc3__bias_relu_pool_kernel i arg1 harg1 arg2 harg2 arg3 harg3 arg4 harg4 arg5 harg5 arg6 harg6 arg7 harg7) K := by
  simp only [cc3__bias_relu_pool_kernel_eq_skeleton]; unfold cc3__bias_relu_pool_kernel_skel
  simp only [k3_part1_eq_skeleton]; unfold k3_part1_skel
  unfold owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_A _ _)
  isplitl [H5]
  · iexists f5; isplitr; · ipureintro; rfl
    iexact H5
  isplitl [H6]
  · iexists _; isplitr
    swap; · iexact H6
    ipureintro
    refine (View.read_writes_eq_canon _ _ _ (cover3_S _ _)).trans ?_
    sl_unfold_words
    refine (View.canon_cons_unit_zero zoff3 _ _ _).trans ?_
    refine Eq.trans ?_ (sumsNext_pay _ _ _ _).symm
    exact congrArg (k3_pay6 _ _ _) ((View.readCov_unit_zero _ zoff3 _ _).trans ((ldS3 _).trans sums0_pay).symm)
  iexists _; isplitr
  swap; · iexact H7
  ipureintro
  refine (View.read_writes_eq_canon _ _ _ (cover3_C _ _)).trans ?_
  sl_unfold_words
  refine (View.canon_cons_unit_zero zoff3 _ _ _).trans ?_
  refine Eq.trans ?_ (cntsNext_pay _ _).symm
  exact congrArg (k3_pay7 _) ((View.readCov_unit_zero _ zoff3 _ _).trans ((ldC3 _).trans cnts0_pay).symm)

set_option maxHeartbeats 1000000 in
/-- A middle point: the accumulators are advanced from what they held; the first result's block is stored; the inputs and
    the second result's buffer come back as they were. -/
theorem sound_kernel3_B (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x1 .i32) (harg3 : arg3.IsWhole) (arg4 : Memref sig .tc .vmem S10000x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : ¬cond3_1 i)
    (x : Vec F S10000x128 .f32) (b : Vec F S1x128 .f32) (bt : Vec F S10000x1 .i32) (P : Vec F S64x128 .f32) (S : Vec F S64x128 .f32) (C : Vec F S64x1 .f32) (K : PUnit → sProp 𝕄) :
    iprop(owns (c : Thread nD τ) arg1 fullShare x ∗ owns (c : Thread nD τ) arg2 fullShare b ∗ owns (c : Thread nD τ) arg3 fullShare bt
        ∗ (∃ d, owns (c : Thread nD τ) arg4 fullShare d) ∗ owns (c : Thread nD τ) arg5 fullShare P
        ∗ owns (c : Thread nD τ) arg6 fullShare S ∗ owns (c : Thread nD τ) arg7 fullShare C
        ∗ (iprop(owns (c : Thread nD τ) arg1 fullShare x ∗ owns (c : Thread nD τ) arg2 fullShare b ∗ owns (c : Thread nD τ) arg3 fullShare bt
            ∗ owns (c : Thread nD τ) arg4 fullShare (hOut3 x b) ∗ owns (c : Thread nD τ) arg5 fullShare P
            ∗ owns (c : Thread nD τ) arg6 fullShare (sumsNext x b bt S) ∗ owns (c : Thread nD τ) arg7 fullShare (cntsNext bt C)) -∗ K ⟨⟩))
      ⊢ wp frame (wpE (defs₀ (F := F)) Variants.none c none) E (cc3__bias_relu_pool_kernel i arg1 harg1 arg2 harg2 arg3 harg3 arg4 harg4 arg5 harg5 arg6 harg6 arg7 harg7) K := by
  simp only [cc3__bias_relu_pool_kernel_eq_skeleton]; unfold cc3__bias_relu_pool_kernel_skel
  simp only [k3_part1_eq_skeleton]; unfold k3_part1_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  subst hf1; subst hf2; subst hf3; subst hf5; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_A _ _)
  isplitl [H5]
  · iexists f5; isplitr; · ipureintro; rfl
    iexact H5
  isplitl [H6]
  · iexists _; isplitr
    swap; · iexact H6
    ipureintro
    exact View.read_writes_eq_canon _ _ _ (cover3_S _ _)
  iexists _; isplitr
  swap; · iexact H7
  ipureintro
  exact View.read_writes_eq_canon _ _ _ (cover3_C _ _)

set_option maxHeartbeats 1000000 in
/-- The last point: as a middle point, and the quotient of the advanced accumulators is stored over the second result's
    buffer, whatever it held. -/
theorem sound_kernel3_C (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x1 .i32) (harg3 : arg3.IsWhole) (arg4 : Memref sig .tc .vmem S10000x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : cond3_1 i)
    (x : Vec F S10000x128 .f32) (b : Vec F S1x128 .f32) (bt : Vec F S10000x1 .i32) (S : Vec F S64x128 .f32) (C : Vec F S64x1 .f32) (K : PUnit → sProp 𝕄) :
    iprop(owns (c : Thread nD τ) arg1 fullShare x ∗ owns (c : Thread nD τ) arg2 fullShare b ∗ owns (c : Thread nD τ) arg3 fullShare bt
        ∗ (∃ d, owns (c : Thread nD τ) arg4 fullShare d) ∗ (∃ d, owns (c : Thread nD τ) arg5 fullShare d)
        ∗ owns (c : Thread nD τ) arg6 fullShare S ∗ owns (c : Thread nD τ) arg7 fullShare C
        ∗ (iprop(owns (c : Thread nD τ) arg1 fullShare x ∗ owns (c : Thread nD τ) arg2 fullShare b ∗ owns (c : Thread nD τ) arg3 fullShare bt
            ∗ owns (c : Thread nD τ) arg4 fullShare (hOut3 x b) ∗ owns (c : Thread nD τ) arg5 fullShare (pooledOut (sumsNext x b bt S) (cntsNext bt C))
            ∗ owns (c : Thread nD τ) arg6 fullShare (sumsNext x b bt S) ∗ owns (c : Thread nD τ) arg7 fullShare (cntsNext bt C)) -∗ K ⟨⟩))
      ⊢ wp frame (wpE (defs₀ (F := F)) Variants.none c none) E (cc3__bias_relu_pool_kernel i arg1 harg1 arg2 harg2 arg3 harg3 arg4 harg4 arg5 harg5 arg6 harg6 arg7 harg7) K := by
  simp only [cc3__bias_relu_pool_kernel_eq_skeleton]; unfold cc3__bias_relu_pool_kernel_skel
  simp only [k3_part1_eq_skeleton]; unfold k3_part1_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1; subst hf2; subst hf3; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_A _ _)
  isplitl [H5]
  · iexists _; isplitr
    swap; · iexact H5
    ipureintro
    refine (View.read_writes_eq_canon _ _ _ (cover3_S _ _)).trans ?_
    sl_unfold_words
    unfold pooledOut
    refine congrArg₂ (fun p q => View.canon [(⟨rS3, k3_pay1 p q⟩ : View.Piece (Elt F) S64x128 .f32)]) ?_ ?_
    · exact ((View.readCov_unit_zero _ zoff3 _ _).trans (sumsNext_pay _ _ _ _).symm).trans (ldS3 _).symm
    · exact ((View.readCov_unit_zero _ zoff3 _ _).trans (cntsNext_pay _ _).symm).trans (ldC3 _).symm
  isplitl [H6]
  · iexists _; isplitr
    swap; · iexact H6
    ipureintro
    sl_unfold_words
    exact View.read_writes_eq_canon _ _ _ (cover3_S _ _)
  iexists _; isplitr
  swap; · iexact H7
  ipureintro
  sl_unfold_words
  exact View.read_writes_eq_canon _ _ _ (cover3_C _ _)

/-- An input window's staging buffer holds its block at every point, whether it was fetched there or the index map
    did not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The two scratch accumulators, whole scoped buffers of the kernel's own. -/
abbrev scS3 : Memref sig .tc .vmem S64x128 .f32 := Memref.whole cc3_scratch0
abbrev scC3 : Memref sig .tc .vmem S64x1 .f32 := Memref.whole cc3_scratch1

/-- The staging buffers of the other three regions — scoped, idle while this region runs, each at some contents — beside `T`. -/
def idle3 (c : Dev nD) (T : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ T)

/-- The region invariant before point `n`: before the first the class's (every scoped buffer at anything); afterwards the
    sums and counts accumulators at what the point before left. -/
def Phi3 (c : Dev nD) : (n : ℕ) → n ≤ cfg3.N → sProp 𝕄
  | 0, _ => Pipeline.ΦA spec3 c
  | n + 1, hn => iprop(idle3 c iprop(owns (c : Thread nD τ) scS3 fullShare (sumsAt V c n hn) ∗ owns (c : Thread nD τ) scC3 fullShare (cntsAt V c n hn)) ∗ (∃ r, prngReg c r))

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => hOut3 (iblk3 V c 0 t) (iblk3 V c 1 t)
    | ⟨4, _⟩ => pooledOut (sumsAt V c t.val t.isLt) (cntsAt V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = hOut3 (iblk3 V c 0 t) (iblk3 V c 1 t) := by dsimp only [dat3]
theorem after3_4 (c : Dev nD) (t : Fin cfg3.N) :
    (dat3 V c).after 4 t = pooledOut (sumsAt V c t.val t.isLt) (cntsAt V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The inputs and the first result are live at every point; the second result is idle, and not written back, at every
    point but the last, where it is live. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-- The class's invariant with the other regions' staging buffers listed and the two accumulators owned as memrefs. -/
theorem PhiA3_eq (c : Dev nD) :
    (Pipeline.ΦA spec3 c : sProp 𝕄)
      = iprop(idle3 c iprop((∃ d, owns (c : Thread nD τ) scS3 fullShare d) ∗ (∃ d, owns (c : Thread nD τ) scC3 fullShare d)) ∗ (∃ r, prngReg c r)) := by
  unfold Pipeline.ΦA idle3; rw [scopedRest3_eq]; simp only [scS3, scC3, owns_whole]; try rfl

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(idle3 c iprop(owns (c : Thread nD τ) scS3 fullShare (sumsAt V c n hn) ∗ owns (c : Thread nD τ) scC3 fullShare (cntsAt V c n hn)) ∗ (∃ r, prngReg c r)) := rfl

theorem Phi3_pos (c : Dev nD) (n : ℕ) (h : n ≤ cfg3.N) (hz : n ≠ 0) :
    Phi3 V c n h = iprop(idle3 c iprop(owns (c : Thread nD τ) scS3 fullShare (sumsAt V c (n - 1) (by omega)) ∗ owns (c : Thread nD τ) scC3 fullShare (cntsAt V c (n - 1) (by omega))) ∗ (∃ r, prngReg c r)) := by
  cases n with
  | zero => exact absurd rfl hz
  | succ n => rfl

theorem Phi3_castSucc (c : Dev nD) (t : Fin cfg3.N) :
    (dat3 V c).Φ t.castSucc = Phi3 V c t.val (Nat.le_of_lt t.isLt) := by
  dsimp only [dat3]; simp only [Fin.coe_castSucc]

/-- The accumulators after a point, from what they held before it. -/
theorem sumsAt_first (c : Dev nD) (t : Fin cfg3.N) (hz : t.val = 0) :
    sumsAt V c t.val t.isLt = sumsNext (iblk3 V c 0 t) (iblk3 V c 1 t) (iblk3 V c 2 t) sums0 := by
  obtain ⟨n, hn⟩ := t
  cases n with
  | zero => rfl
  | succ n => exact absurd hz (Nat.succ_ne_zero n)
theorem cntsAt_first (c : Dev nD) (t : Fin cfg3.N) (hz : t.val = 0) :
    cntsAt V c t.val t.isLt = cntsNext (iblk3 V c 2 t) cnts0 := by
  obtain ⟨n, hn⟩ := t
  cases n with
  | zero => rfl
  | succ n => exact absurd hz (Nat.succ_ne_zero n)
theorem sumsAt_pos (c : Dev nD) (t : Fin cfg3.N) (hz : t.val ≠ 0) :
    sumsAt V c t.val t.isLt = sumsNext (iblk3 V c 0 t) (iblk3 V c 1 t) (iblk3 V c 2 t) (sumsAt V c (t.val - 1) (Nat.lt_of_le_of_lt (Nat.sub_le _ _) t.isLt)) := by
  obtain ⟨n, hn⟩ := t
  cases n with
  | zero => exact absurd rfl hz
  | succ n => rfl
theorem cntsAt_pos (c : Dev nD) (t : Fin cfg3.N) (hz : t.val ≠ 0) :
    cntsAt V c t.val t.isLt = cntsNext (iblk3 V c 2 t) (cntsAt V c (t.val - 1) (Nat.lt_of_le_of_lt (Nat.sub_le _ _) t.isLt)) := by
  obtain ⟨n, hn⟩ := t
  cases n with
  | zero => exact absurd rfl hz
  | succ n => rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (hOut3 (iblk3 V c 0 t) (iblk3 V c 1 t)) := by
  unfold Dat.leavesExact; rw [liveAt3_3 t, after3_3]

set_option maxHeartbeats 4000000 in
/-- The body at any point: the inputs' buffers hold their blocks; the first point finds the accumulators at anything and
    zeroes them, the later ones find them at what the point before left; every point leaves them advanced; the second
    result's buffer is handed back untouched at every point but the last, which stores the quotient into it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3]
  have hN : t.val < 5 := lt_of_lt_of_eq t.isLt (show cfg3.N = 5 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 4 t (idleAt3_4 t hc1) (noFlush3_4 t hc1)]
    rw [sumsAt_first V c t h0, cntsAt_first V c t h0]
    rw [Phi3_castSucc V c t, Phi3_zero V c _ _ h0, PhiA3_eq]
    unfold idle3
    iintro ⟨⟨⟨I0, I1, I2, I3, I4, I5, I6, I7, I8, I9, I10, I11, I12, I13, I14, ⟨%dS, HS⟩, ⟨%dC, HC⟩⟩, Hg⟩, Ho, ⟨%d0, H0⟩, ⟨%d1, H1⟩, ⟨%d2, H2⟩, ⟨%d3, H3⟩, ⟨%d4, H4⟩⟩
    iapply (sound_kernel3_A c Set.univ (grid3.coords t) _ _ _ _ _ _ _ _ _ _ _ _ _ _ hc0 hc1 (iblk3 V c 0 t) (iblk3 V c 1 t) (iblk3 V c 2 t) ((dat3 V c).before 4 t d4) _)
    isplitl [H0]; · iexact H0
    isplitl [H1]; · iexact H1
    isplitl [H2]; · iexact H2
    isplitl [H3]; · iexists _; iexact H3
    isplitl [H4]; · iexact H4
    isplitl [HS]; · iexists _; iexact HS
    isplitl [HC]; · iexists _; iexact HC
    iintro ⟨H0, H1, H2, H3, H4, HS, HC⟩
    isplitl [I0 I1 I2 I3 I4 I5 I6 I7 I8 I9 I10 I11 I12 I13 I14 HS HC Hg]
    · isplitr [Hg]
      swap; · iexact Hg
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [I11]; · iexact I11
      isplitl [I12]; · iexact I12
      isplitl [I13]; · iexact I13
      isplitl [I14]; · iexact I14
      isplitl [HS]; · iexact HS
      iexact HC
    isplitl [Ho]; · iexact Ho
    isplitl [H0]; · iexact H0
    isplitl [H1]; · iexact H1
    isplitl [H2]; · iexact H2
    isplitl [H3]; · iexact H3
    iexists _; iexact H4
  · by_cases h4 : t.val = 4
    · have hc0 : ¬cond3_0 (grid3.coords t) := fun h => h0 ((hcond3_0 t).mp h)
      have hc1 : cond3_1 (grid3.coords t) := (hcond3_1 t).mpr h4
      rw [show (dat3 V c).leavesExact 4 t = owns (c : Thread nD τ) (st3_4 t) fullShare ((dat3 V c).after 4 t) from by
        unfold Dat.leavesExact; rw [liveAt3_4 t hc1], after3_4]
      rw [sumsAt_pos V c t h0, cntsAt_pos V c t h0]
      rw [Phi3_castSucc V c t, Phi3_pos V c _ _ h0]
      unfold idle3
      iintro ⟨⟨⟨I0, I1, I2, I3, I4, I5, I6, I7, I8, I9, I10, I11, I12, I13, I14, HS, HC⟩, Hg⟩, Ho, ⟨%d0, H0⟩, ⟨%d1, H1⟩, ⟨%d2, H2⟩, ⟨%d3, H3⟩, ⟨%d4, H4⟩⟩
      iapply (sound_kernel3_C c Set.univ (grid3.coords t) _ _ _ _ _ _ _ _ _ _ _ _ _ _ hc0 hc1 (iblk3 V c 0 t) (iblk3 V c 1 t) (iblk3 V c 2 t) (sumsAt V c (t.val - 1) (Nat.lt_of_le_of_lt (Nat.sub_le _ _) t.isLt)) (cntsAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      isplitl [HC]; · iexact HC
      iintro ⟨H0, H1, H2, H3, H4, HS, HC⟩
      isplitl [I0 I1 I2 I3 I4 I5 I6 I7 I8 I9 I10 I11 I12 I13 I14 HS HC Hg]
      · isplitr [Hg]
        swap; · iexact Hg
        isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [I11]; · iexact I11
        isplitl [I12]; · iexact I12
        isplitl [I13]; · iexact I13
        isplitl [I14]; · iexact I14
        isplitl [HS]; · iexact HS
        iexact HC
      isplitl [Ho]; · iexact Ho
      isplitl [H0]; · iexact H0
      isplitl [H1]; · iexact H1
      isplitl [H2]; · iexact H2
      isplitl [H3]; · iexact H3
      iexact H4
    · have hc0 : ¬cond3_0 (grid3.coords t) := fun h => h0 ((hcond3_0 t).mp h)
      have hc1 : ¬cond3_1 (grid3.coords t) := fun h => h4 ((hcond3_1 t).mp h)
      rw [Dat.leavesExact_idle (dat3 V c) 4 t (idleAt3_4 t hc1) (noFlush3_4 t hc1)]
      rw [sumsAt_pos V c t h0, cntsAt_pos V c t h0]
      rw [Phi3_castSucc V c t, Phi3_pos V c _ _ h0]
      unfold idle3
      iintro ⟨⟨⟨I0, I1, I2, I3, I4, I5, I6, I7, I8, I9, I10, I11, I12, I13, I14, HS, HC⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ _ _ hc0 hc1 (iblk3 V c 0 t) (iblk3 V c 1 t) (iblk3 V c 2 t) ((dat3 V c).before 4 t d4) (sumsAt V c (t.val - 1) (Nat.lt_of_le_of_lt (Nat.sub_le _ _) t.isLt)) (cntsAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      isplitl [HC]; · iexact HC
      iintro ⟨H0, H1, H2, H3, H4, HS, HC⟩
      isplitl [I0 I1 I2 I3 I4 I5 I6 I7 I8 I9 I10 I11 I12 I13 I14 HS HC Hg]
      · isplitr [Hg]
        swap; · iexact Hg
        isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [I11]; · iexact I11
        isplitl [I12]; · iexact I12
        isplitl [I13]; · iexact I13
        isplitl [I14]; · iexact I14
        isplitl [HS]; · iexact HS
        iexact HC
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem Phi3_in (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the class's back: the accumulators' contents are forgotten. -/
theorem Phi3_out (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 5 := N_3; omega), PhiA3_eq]
  unfold idle3
  iintro ⟨⟨I0, I1, I2, I3, I4, I5, I6, I7, I8, I9, I10, I11, I12, I13, I14, HS, HC⟩, Hg⟩
  isplitr [Hg]
  swap; · iexact Hg
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I12]; · iexact I12
  isplitl [I13]; · iexact I13
  isplitl [I14]; · iexact I14
  isplitl [HS]; · iexists _; iexact HS
  iexists _; iexact HC

end Cert.KernelIdeal.Hand

end
-- ==== Proof.KI.Run.lean ====
/- The launch of the whole program. Its eleven items in order are five host stretches, the first dense product
   (region 0), a host stretch, the first bias-and-rectify (region 1), the second dense product (region 2, entered
   directly from region 1's exit), a host stretch, and the second bias-and-rectify with the mean pool (region 3).
   Between two items each core holds every unscoped buffer whole at a known valuation: the launch memory, then what each
   host stretch computes from the one before, then — across a region — the region's arrays at what its write-backs leave
   and every other buffer as it was. The run threads these valuations through the items and ends with every unscoped
   buffer read off the last one. -/
import proofs.«404703_j87608742904438_2_alg».proof.Proof.KI.R0
import proofs.«404703_j87608742904438_2_alg».proof.Proof.KI.R1
import proofs.«404703_j87608742904438_2_alg».proof.Proof.KI.R2
import proofs.«404703_j87608742904438_2_alg».proof.Proof.KI.R3
import proofs.«404703_j87608742904438_2_alg».proof.Proof.Gen.KernelIdeal.Regions
import proofs.«404703_j87608742904438_2_alg».proof.Proof.Gen.KernelIdeal.Launch

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/
/-- Core `c`'s unscoped buffers at launch. -/
abbrev W0 (m : (ℓ : Loc nD τ sig) → Buf (Elt F) ℓ) (ρ : Dev nD → PrngReg) : Dev nD → Valuation τ sig (Elt F) := fun c => Gen.V0 m c
/-- Core `c`'s unscoped buffers after the first host stretch. -/
abbrev W1 (m : (ℓ : Loc nD τ sig) → Buf (Elt F) ℓ) (ρ : Dev nD → PrngReg) : Dev nD → Valuation τ sig (Elt F) := fun c => Gen.V1 m c
/-- Core `c`'s unscoped buffers after the second host stretch. -/
abbrev W2 (m : (ℓ : Loc nD τ sig) → Buf (Elt F) ℓ) (ρ : Dev nD → PrngReg) : Dev nD → Valuation τ sig (Elt F) := fun c => Gen.V2 m c
/-- Core `c`'s unscoped buffers after the third host stretch. -/
abbrev W3 (m : (ℓ : Loc nD τ sig) → Buf (Elt F) ℓ) (ρ : Dev nD → PrngReg) : Dev nD → Valuation τ sig (Elt F) := fun c => Gen.V3 m c
/-- Core `c`'s unscoped buffers after the fourth host stretch. -/
abbrev W4 (m : (ℓ : Loc nD τ sig) → Buf (Elt F) ℓ) (ρ : Dev nD → PrngReg) : Dev nD → Valuation τ sig (Elt F) := fun c => Gen.V4 m c
/-- Core `c`'s unscoped buffers after the fifth host stretch (region 0's entry). -/
abbrev W5 (m : (ℓ : Loc nD τ sig) → Buf (Elt F) ℓ) (ρ : Dev nD → PrngReg) : Dev nD → Valuation τ sig (Elt F) := fun c => Gen.V5 m c
/-- The same read at the TensorCore's references. -/
abbrev V5 (m : (ℓ : Loc nD τ sig) → Buf (Elt F) ℓ) (ρ : Dev nD → PrngReg) : (c : Dev nD) → (b : Ref sig .tc) → Buf (Elt F) ((c : Thread nD τ).loc b) := fun c b => W5 m ρ c b
/-- After region 0: its arrays at what the pipeline leaves (the inputs as entered, each output's write-backs folded),
    every other buffer as entered. -/
def W6 (m : (ℓ : Loc nD τ sig) → Buf (Elt F) ℓ) (ρ : Dev nD → PrngReg) (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 (m : (ℓ : Loc nD τ sig) → Buf (Elt F) ℓ) (ρ : Dev nD → PrngReg) : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the host stretch `1` (region 1's entry). -/
abbrev W7 (m : (ℓ : Loc nD τ sig) → Buf (Elt F) ℓ) (ρ : Dev nD → PrngReg) : Dev nD → Valuation τ sig (Elt F) := fun c => StableHlo.after hostOps1 (W6 m ρ c)
/-- The same read at the TensorCore's references. -/
abbrev V7 (m : (ℓ : Loc nD τ sig) → Buf (Elt F) ℓ) (ρ : Dev nD → PrngReg) : (c : Dev nD) → (b : Ref sig .tc) → Buf (Elt F) ((c : Thread nD τ).loc b) := fun c b => W7 m ρ c b
/-- After region 1: its arrays at what the pipeline leaves (the inputs as entered, each output's write-backs folded),
    every other buffer as entered. -/
def W8 (m : (ℓ : Loc nD τ sig) → Buf (Elt F) ℓ) (ρ : Dev nD → PrngReg) (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 (m : (ℓ : Loc nD τ sig) → Buf (Elt F) ℓ) (ρ : Dev nD → PrngReg) : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After region 2: its arrays at what the pipeline leaves (the inputs as entered, each output's write-backs folded),
    every other buffer as entered. -/
def W9 (m : (ℓ : Loc nD τ sig) → Buf (Elt F) ℓ) (ρ : Dev nD → PrngReg) (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references. -/
abbrev V9 (m : (ℓ : Loc nD τ sig) → Buf (Elt F) ℓ) (ρ : Dev nD → PrngReg) : (c : Dev nD) → (b : Ref sig .tc) → Buf (Elt F) ((c : Thread nD τ).loc b) := fun c b => W9 m ρ c b
/-- At region 2's exit each of its arrays holds what the pipeline leaves and every other buffer what it held at entry. -/
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)
/-- After the host stretch `3` (region 3's entry). -/
abbrev W10 (m : (ℓ : Loc nD τ sig) → Buf (Elt F) ℓ) (ρ : Dev nD → PrngReg) : Dev nD → Valuation τ sig (Elt F) := fun c => StableHlo.after hostOps3 (W9 m ρ c)
/-- The same read at the TensorCore's references. -/
abbrev V10 (m : (ℓ : Loc nD τ sig) → Buf (Elt F) ℓ) (ρ : Dev nD → PrngReg) : (c : Dev nD) → (b : Ref sig .tc) → Buf (Elt F) ((c : Thread nD τ).loc b) := fun c b => W10 m ρ c b
/-- After region 3: its arrays at what the pipeline leaves (the inputs as entered, each output's write-backs folded),
    every other buffer as entered. -/
def W11 (m : (ℓ : Loc nD τ sig) → Buf (Elt F) ℓ) (ρ : Dev nD → PrngReg) (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- The same read at the TensorCore's references. -/
abbrev V11 (m : (ℓ : Loc nD τ sig) → Buf (Elt F) ℓ) (ρ : Dev nD → PrngReg) : (c : Dev nD) → (b : Ref sig .tc) → Buf (Elt F) ((c : Thread nD τ).loc b) := fun c b => W11 m ρ c b
/-- At region 3's exit each of its arrays holds what the pipeline leaves and every other buffer what it held at entry. -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V8 m ρ) c
  | ⟨3, _⟩ => fun c => dat3 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at what the stretch computes from `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- REGION 0 over the thread state: entered from every unscoped buffer at `W5`, left at `W6`. Its arrays are split
    out of the unscoped buffers at entry and put back at the exit contents; the generator register goes into the region
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split
    out of the unscoped buffers at entry and put back at the exit contents; the generator register goes into the region
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers at entry and put back at the exit contents; the generator register goes into the region
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W10`, left at `W11`. Its arrays are split
    out of the unscoped buffers at entry and put back at the exit contents; the generator register goes into the region
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ A : sProp 𝕄, iprop((∃ r, prngReg c r) ∗ A
          ∗ Pipeline.scopedRest (Ix := Unit) (Name := ℕ) (U := UR sig nD τ) (Lvl := ℕ) (Val := Elt F) spec3 c)
        ⊢ (Pipeline.ΦA spec3 c : sProp 𝕄) := by
      intro A; unfold Pipeline.ΦA
      iintro ⟨Hp, -, Hr⟩
      isplitl [Hr]; · iexact Hr
      iexact Hp
    exact (h _).trans (Phi3_in (V10 m ρ) c)
  hout c := by
    have h : (Pipeline.ΦA spec3 c : sProp 𝕄) ⊢ iprop((∃ r, prngReg c r) ∗ BI.emp
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    rw [Pipeline.ownSems0_none]
    exact (Phi3_out (V10 m ρ) c).trans h
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eleven items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ),
    .host (hseg hostOps3 hostOps3_sub hostOps3_fresh (W9 m ρ)),
    .region (reg3 m ρ) ]

set_option backward.isDefEq.respectTransparency.types false in
/-- THE RUN: from any memory with zero counters, every weakly fair execution of the program on the TensorCores terminates,
    nothing faulting, and in every final state each core's unscoped buffers hold the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

/-! ## The arguments end as launched

No host stretch writes an argument and no region has one as an output: at an argument's buffer the valuations walk back
to the launch memory, through an input window's array where a region reads the argument. -/

/-- A reference none of the five host stretches before region 0 writes holds its launch contents at region 0's entry. -/
theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (Gen.V5_of m c r h4).trans <| (Gen.V4_of m c r h3).trans <| (Gen.V3_of m c r h2).trans <| (Gen.V2_of m c r h1).trans <|
    (Gen.V1_of m c r h0).trans rfl

/-- `main_arg0` reaches the end as launched. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := StableHlo.after_of_writes_sub hostOps3 _ hostOps3_writes (by decide)
    _ = W8 m ρ c (Proc.devRef .tc main_arg0) := (W9_of_ne m ρ c main_arg0 (by decide))
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := ((W6_arr m ρ c 0).trans (((dat0 (V5 m ρ) c).arrAt_in 0 rfl _).trans (A_eq0 (V5 m ρ) c 0)))
    _ = m ((c : Thread nD τ).loc main_arg0) := W5_launch m ρ c main_arg0 (by decide) (by decide) (by decide) (by decide) (by decide)
/-- `main_arg1` reaches the end as launched. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := StableHlo.after_of_writes_sub hostOps3 _ hostOps3_writes (by decide)
    _ = W8 m ρ c (Proc.devRef .tc main_arg1) := (W9_of_ne m ρ c main_arg1 (by decide))
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := (W6_of_ne m ρ c main_arg1 (by decide))
    _ = m ((c : Thread nD τ).loc main_arg1) := W5_launch m ρ c main_arg1 (by decide) (by decide) (by decide) (by decide) (by decide)
/-- `main_arg2` reaches the end as launched. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_writes_sub hostOps3 _ hostOps3_writes (by decide)
    _ = W8 m ρ c (Proc.devRef .tc main_arg2) := (W9_of_ne m ρ c main_arg2 (by decide))
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := (W6_of_ne m ρ c main_arg2 (by decide))
    _ = m ((c : Thread nD τ).loc main_arg2) := W5_launch m ρ c main_arg2 (by decide) (by decide) (by decide) (by decide) (by decide)
/-- `main_arg3` reaches the end as launched. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := StableHlo.after_of_writes_sub hostOps3 _ hostOps3_writes (by decide)
    _ = W8 m ρ c (Proc.devRef .tc main_arg3) := (W9_of_ne m ρ c main_arg3 (by decide))
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := (W6_of_ne m ρ c main_arg3 (by decide))
    _ = m ((c : Thread nD τ).loc main_arg3) := W5_launch m ρ c main_arg3 (by decide) (by decide) (by decide) (by decide) (by decide)
/-- `main_arg4` reaches the end as launched. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := StableHlo.after_of_writes_sub hostOps3 _ hostOps3_writes (by decide)
    _ = W8 m ρ c (Proc.devRef .tc main_arg4) := (W9_of_ne m ρ c main_arg4 (by decide))
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := ((W6_arr m ρ c 1).trans (((dat0 (V5 m ρ) c).arrAt_in 1 rfl _).trans (A_eq0 (V5 m ρ) c 1)))
    _ = m ((c : Thread nD τ).loc main_arg4) := W5_launch m ρ c main_arg4 (by decide) (by decide) (by decide) (by decide) (by decide)
/-- `main_arg5` reaches the end as launched. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := StableHlo.after_of_writes_sub hostOps3 _ hostOps3_writes (by decide)
    _ = W8 m ρ c (Proc.devRef .tc main_arg5) := (W9_of_ne m ρ c main_arg5 (by decide))
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := (W6_of_ne m ρ c main_arg5 (by decide))
    _ = m ((c : Thread nD τ).loc main_arg5) := W5_launch m ρ c main_arg5 (by decide) (by decide) (by decide) (by decide) (by decide)
/-- `main_arg6` reaches the end as launched. -/
theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_writes_sub hostOps3 _ hostOps3_writes (by decide)
    _ = W8 m ρ c (Proc.devRef .tc main_arg6) := ((W9_arr m ρ c 1).trans (((dat2 (V8 m ρ) c).arrAt_in 1 rfl _).trans (A_eq2 (V8 m ρ) c 1)))
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := (W6_of_ne m ρ c main_arg6 (by decide))
    _ = m ((c : Thread nD τ).loc main_arg6) := W5_launch m ρ c main_arg6 (by decide) (by decide) (by decide) (by decide) (by decide)
/-- `main_arg7` reaches the end as launched. -/
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := StableHlo.after_of_writes_sub hostOps3 _ hostOps3_writes (by decide)
    _ = W8 m ρ c (Proc.devRef .tc main_arg7) := (W9_of_ne m ρ c main_arg7 (by decide))
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := (W6_of_ne m ρ c main_arg7 (by decide))
    _ = m ((c : Thread nD τ).loc main_arg7) := W5_launch m ρ c main_arg7 (by decide) (by decide) (by decide) (by decide) (by decide)

/-! ## The two results, and what each region finds in the arrays an earlier region wrote -/

/-- The second layer's activations: region 3's fourth array at what its write-backs leave. -/
theorem W11_out0 (c : Dev nD) : W11 m ρ c (Proc.devRef .tc main_v67_0) = (dat3 (V10 m ρ) c).arrAt 3 cfg3.N := W11_arr m ρ c 3
/-- The pooled means: region 3's fifth array at what its write-backs leave. -/
theorem W11_out1 (c : Dev nD) : W11 m ρ c (Proc.devRef .tc main_v67_1) = (dat3 (V10 m ρ) c).arrAt 4 cfg3.N := W11_arr m ρ c 4

/-- After region 0 the first product sits in `main_v35`. -/
theorem V6_v35 (c : Dev nD) : V6 m ρ c main_v35 = (dat0 (V5 m ρ) c).arrAt 2 cfg0.N := W6_arr m ρ c 2
/-- The host stretch after region 0 leaves it there. -/
theorem V7_v35 (c : Dev nD) : V7 m ρ c main_v35 = (dat0 (V5 m ρ) c).arrAt 2 cfg0.N :=
  (StableHlo.after_of_writes_sub hostOps1 _ hostOps1_writes (by decide)).trans (W6_arr m ρ c 2)
/-- Region 2 finds region 1's output in its first array, -/
theorem V8_v50 (c : Dev nD) : V8 m ρ c main_v50 = (dat1 (V7 m ρ) c).arrAt 2 cfg1.N := W8_arr m ρ c 2
/-- and the second weight as launched in its second. -/
theorem V8_arg6 (c : Dev nD) : V8 m ρ c main_arg6 = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = m ((c : Thread nD τ).loc main_arg6) := W5_launch m ρ c main_arg6 (by decide) (by decide) (by decide) (by decide) (by decide)
/-- After region 2 the second product sits in `main_v51`. -/
theorem V9_v51 (c : Dev nD) : V9 m ρ c main_v51 = (dat2 (V8 m ρ) c).arrAt 2 cfg2.N := W9_arr m ρ c 2
/-- Region 0 finds the features and the first weight as launched. -/
theorem V5_arg0 (c : Dev nD) : V5 m ρ c main_arg0 = m ((c : Thread nD τ).loc main_arg0) :=
  W5_launch m ρ c main_arg0 (by decide) (by decide) (by decide) (by decide) (by decide)
theorem V5_arg4 (c : Dev nD) : V5 m ρ c main_arg4 = m ((c : Thread nD τ).loc main_arg4) :=
  W5_launch m ρ c main_arg4 (by decide) (by decide) (by decide) (by decide) (by decide)

end Cert.KernelIdeal.Hand

end
-- ==== Proof.KI.Frame.lean ====
/- The two statements the certificate cites about the program's run, both read off the last valuation of the run:
   every argument array ends holding its launch contents, and the two result arrays end holding what region 3's
   write-backs leave in them. -/
import proofs.«404703_j87608742904438_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- THE FRAME: from any memory with zero counters, every weakly fair execution of the program terminates, nothing
    faulting, and every final state has the eight argument arrays as launched. -/
theorem frame_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

/-- THE VALUES: the same run ends with the two result arrays at the last valuation's contents, beside the arguments as launched. -/
theorem value_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v67_0) = W11 m ρ c (Proc.devRef .tc main_v67_0)
      ∧ r.2.mem ((c.tc : Thread nD τ).loc main_v67_1) = W11 m ρ c (Proc.devRef .tc main_v67_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v67_0 (by decide)), h c _ (mem_uc main_v67_1 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

end Cert.KernelIdeal.Hand

end
-- ==== Proof.KI.Host.lean ====
/- The kernel program's host stretches read as the shared host functions: what the stretches before region 0 leave in the
   index vectors and the edge normalisation, and what the stretch before region 1 and the stretch before region 3 compute
   from the buffers they find (one aggregation each, the bias as a row, the graph ids as a column). -/
import proofs.«404703_j87608742904438_2_alg».proof.Proof.Gen.KernelIdeal.Regions
import proofs.«404703_j87608742904438_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.SL.Sem
open Cert.KernelIdeal.Gen

variable {F : FTy → Type} [FloatOps F]
variable (m : (ℓ : Loc nD τ sig) → Buf (Elt F) ℓ) (c : Dev nD)

/-! ## A recast that only adds a unit axis is a broadcast -/

/-- A vector of 128 entries recast as a single row is that vector broadcast along the row. -/
theorem shapeCast_row_eq_bcast {α : Type} (b : S128.Idx → α) (h : S128.ShapeCasts S1x128) (h' : S128.BroadcastsInDim S1x128 ![1]) :
    shapeCast S1x128 b h = broadcastInDim S1x128 ![1] h' b := by
  funext j
  obtain ⟨p, q, rfl⟩ : ∃ (p : Fin 1) (q : Fin 128), j = ValueIdx.ix2 p q := ⟨j 0, j 1, ValueIdx.eq_ix2 j⟩
  rw [ValueIdx.shapeCast_a_1a_apply]
  exact (broadcastInDim_apply _ h' b _ (ValueIdx.ix1 q) (fun a => by match a with | ⟨0, _⟩ => rfl)).symm

/-- A vector of 50000 entries recast as a single column is that vector broadcast down the column. -/
theorem shapeCast_col_eq_bcast {α : Type} (b : S50000.Idx → α) (h : S50000.ShapeCasts S50000x1) (h' : S50000.BroadcastsInDim S50000x1 ![0]) :
    shapeCast S50000x1 b h = broadcastInDim S50000x1 ![0] h' b := by
  funext j
  obtain ⟨p, q, rfl⟩ : ∃ (p : Fin 50000) (q : Fin 1), j = ValueIdx.ix2 p q := ⟨j 0, j 1, ValueIdx.eq_ix2 j⟩
  rw [shapeCast_apply b h _ (ValueIdx.ix1 p) (by
    have hq : q.val = 0 := by omega
    rw [Shape.rowMajor_val_two, Shape.rowMajor_val_one]
    show p.val = p.val * 1 + q.val
    rw [hq, Nat.mul_one, Nat.add_zero])]
  exact (broadcastInDim_apply _ h' b _ (ValueIdx.ix1 p) (fun a => by match a with | ⟨0, _⟩ => rfl)).symm

/-! ## Before region 0: the graph's index vectors and normalisation -/

/-! ### One stretch at a time, from any contents `W` -/

set_option maxHeartbeats 1000000 in
/-- The first stretch leaves the sources with the self loops appended, … -/
theorem s0_v5 (W : Valuation τ sig (Elt F)) : (StableHlo.after hostOps0 W main_v5 : IVec S1650000 32)
    = Cert.Spec.rowIx (W main_arg1) := by
  show StableHlo.after hostOps0 W (Proc.devRef .tc main_v5) = _
  after_results
  unfold Cert.Spec.rowIx
  rfl
set_option maxHeartbeats 1000000 in
/-- … the targets with the self loops appended, … -/
theorem s0_v6 (W : Valuation τ sig (Elt F)) : (StableHlo.after hostOps0 W main_v6 : IVec S1650000 32)
    = Cert.Spec.colIx (W main_arg1) := by
  show StableHlo.after hostOps0 W (Proc.devRef .tc main_v6) = _
  after_results
  unfold Cert.Spec.colIx
  rfl
set_option maxHeartbeats 1000000 in
/-- … the weights with a one per self loop, … -/
theorem s0_v8 (W : Valuation τ sig (Elt F)) : (StableHlo.after hostOps0 W main_v8 : FVec F S1650000 .f32)
    = Cert.Spec.wts (W main_arg2) := by
  show StableHlo.after hostOps0 W (Proc.devRef .tc main_v8) = _
  after_results
  unfold Cert.Spec.wts
  rfl
set_option maxHeartbeats 1000000 in
/-- … the degrees, … -/
theorem s0_v11 (W : Valuation τ sig (Elt F)) : (StableHlo.after hostOps0 W main_v11 : FVec F S50000 .f32)
    = Cert.Spec.deg (W main_arg1) (W main_arg2) := by
  show StableHlo.after hostOps0 W (Proc.devRef .tc main_v11) = _
  after_results
  unfold Cert.Spec.deg Cert.Spec.colIx Cert.Spec.wts
  rfl
set_option maxHeartbeats 1000000 in
/-- … the test that a degree is positive, twice, … -/
theorem s0_v13 (W : Valuation τ sig (Elt F)) : (StableHlo.after hostOps0 W main_v13 : IVec S50000 1)
    = cmpf .ogt (Cert.Spec.deg (W main_arg1) (W main_arg2)) (broadcastInDim S50000 ![] bcast_S_S50000 (constant S_ .f32 0x00000000#32)) := by
  show StableHlo.after hostOps0 W (Proc.devRef .tc main_v13) = _
  after_results
  unfold Cert.Spec.deg Cert.Spec.colIx Cert.Spec.wts
  rfl
set_option maxHeartbeats 1000000 in
theorem s0_v15 (W : Valuation τ sig (Elt F)) : (StableHlo.after hostOps0 W main_v15 : IVec S50000 1)
    = cmpf .ogt (Cert.Spec.deg (W main_arg1) (W main_arg2)) (broadcastInDim S50000 ![] bcast_S_S50000 (constant S_ .f32 0x00000000#32)) := by
  show StableHlo.after hostOps0 W (Proc.devRef .tc main_v15) = _
  after_results
  unfold Cert.Spec.deg Cert.Spec.colIx Cert.Spec.wts
  rfl
set_option maxHeartbeats 1000000 in
/-- … and the constant one. -/
theorem s0_cst3 (W : Valuation τ sig (Elt F)) : (StableHlo.after hostOps0 W main_cst_3 : FVec F S_ .f32)
    = constant S_ .f32 0x3F800000#32 := by
  show StableHlo.after hostOps0 W (Proc.devRef .tc main_cst_3) = _
  after_results
set_option maxHeartbeats 1000000 in
/-- The second stretch keeps a degree where the test holds and puts the constant elsewhere. -/
theorem s1_v16 (W : Valuation τ sig (Elt F)) : (StableHlo.after hostOps0_1 W main_v16 : FVec F S50000 .f32)
    = select (W main_v15) (W main_v11) (broadcastInDim S50000 ![] bcast_S_S50000 (id (W main_cst_3))) := by
  show StableHlo.after hostOps0_1 W (Proc.devRef .tc main_v16) = _
  after_results
  rfl
set_option maxHeartbeats 1000000 in
/-- The third stretch takes the inverse square root, and makes the constant zero. -/
theorem s2_v17 (W : Valuation τ sig (Elt F)) : (StableHlo.after hostOps0_2 W main_v17 : FVec F S50000 .f32)
    = Host.rsqrt (W main_v16) := by
  show StableHlo.after hostOps0_2 W (Proc.devRef .tc main_v17) = _
  after_results
set_option maxHeartbeats 1000000 in
theorem s2_cst4 (W : Valuation τ sig (Elt F)) : (StableHlo.after hostOps0_2 W main_cst_4 : FVec F S_ .f32)
    = constant S_ .f32 0x00000000#32 := by
  show StableHlo.after hostOps0_2 W (Proc.devRef .tc main_cst_4) = _
  after_results
set_option maxHeartbeats 1000000 in
/-- The fourth stretch keeps the root where the test holds and puts the constant elsewhere. -/
theorem s3_v18 (W : Valuation τ sig (Elt F)) : (StableHlo.after hostOps0_3 W main_v18 : FVec F S50000 .f32)
    = select (W main_v13) (W main_v17) (broadcastInDim S50000 ![] bcast_S_S50000 (id (W main_cst_4))) := by
  show StableHlo.after hostOps0_3 W (Proc.devRef .tc main_v18) = _
  after_results
  rfl
set_option maxHeartbeats 1000000 in
/-- The fifth stretch scales each edge's weight by the two gathered factors. -/
theorem s4_v34 (W : Valuation τ sig (Elt F)) : (StableHlo.after hostOps0_4 W main_v34 : FVec F S1650000 .f32)
    = mulf (mulf (Host.gather gather_S50000_S1650000x1_S1650000_n_0_n_n_0_1_1 (W main_v18) (Cert.Spec.nIx (W main_v5))) (W main_v8))
        (Host.gather gather_S50000_S1650000x1_S1650000_n_0_n_n_0_1_1 (W main_v18) (Cert.Spec.nIx (W main_v6))) := by
  show StableHlo.after hostOps0_4 W (Proc.devRef .tc main_v34) = _
  after_results
  unfold Cert.Spec.nIx
  rfl

/-! ### The stretches chained: what no later stretch writes is carried along -/

theorem V4_v5 : (Gen.V4 m c main_v5 : IVec S1650000 32) = Cert.Spec.rowIx (m ((c.tc : Thread nD τ).loc main_arg1)) :=
  (Gen.V4_of m c main_v5 (by decide)).trans <| (Gen.V3_of m c main_v5 (by decide)).trans <| (Gen.V2_of m c main_v5 (by decide)).trans <|
    s0_v5 (Gen.V0 m c)
theorem V4_v6 : (Gen.V4 m c main_v6 : IVec S1650000 32) = Cert.Spec.colIx (m ((c.tc : Thread nD τ).loc main_arg1)) :=
  (Gen.V4_of m c main_v6 (by decide)).trans <| (Gen.V3_of m c main_v6 (by decide)).trans <| (Gen.V2_of m c main_v6 (by decide)).trans <|
    s0_v6 (Gen.V0 m c)
theorem V4_v8 : (Gen.V4 m c main_v8 : FVec F S1650000 .f32) = Cert.Spec.wts (m ((c.tc : Thread nD τ).loc main_arg2)) :=
  (Gen.V4_of m c main_v8 (by decide)).trans <| (Gen.V3_of m c main_v8 (by decide)).trans <| (Gen.V2_of m c main_v8 (by decide)).trans <|
    s0_v8 (Gen.V0 m c)
/-- The inverse square roots of the degrees, where positive, as the fourth stretch leaves them. -/
theorem V4_v18 : (Gen.V4 m c main_v18 : FVec F S50000 .f32)
    = Cert.Spec.dis (m ((c.tc : Thread nD τ).loc main_arg1)) (m ((c.tc : Thread nD τ).loc main_arg2)) := by
  have h13 : (Gen.V3 m c main_v13 : IVec S50000 1) = _ :=
    (Gen.V3_of m c main_v13 (by decide)).trans <| (Gen.V2_of m c main_v13 (by decide)).trans <| s0_v13 (Gen.V0 m c)
  have h17 : (Gen.V3 m c main_v17 : FVec F S50000 .f32) = _ := s2_v17 (Gen.V2 m c)
  have h16 : (Gen.V2 m c main_v16 : FVec F S50000 .f32) = _ := s1_v16 (Gen.V1 m c)
  have h15 : (Gen.V1 m c main_v15 : IVec S50000 1) = _ := s0_v15 (Gen.V0 m c)
  have h11 : (Gen.V1 m c main_v11 : FVec F S50000 .f32) = _ := s0_v11 (Gen.V0 m c)
  have hc3 : (Gen.V1 m c main_cst_3 : FVec F S_ .f32) = _ := s0_cst3 (Gen.V0 m c)
  have hc4 : (Gen.V3 m c main_cst_4 : FVec F S_ .f32) = _ := s2_cst4 (Gen.V2 m c)
  refine (s3_v18 (Gen.V3 m c)).trans ?_
  rw [h13, h17, h16, h15, h11, hc3, hc4]
  rfl

theorem V5_row : (Gen.V5 m c main_v5 : IVec S1650000 32) = Cert.Spec.rowIx (m ((c.tc : Thread nD τ).loc main_arg1)) := by
  exact (Gen.V5_of m c main_v5 (by decide)).trans (V4_v5 m c)
theorem V5_col : (Gen.V5 m c main_v6 : IVec S1650000 32) = Cert.Spec.colIx (m ((c.tc : Thread nD τ).loc main_arg1)) := by
  exact (Gen.V5_of m c main_v6 (by decide)).trans (V4_v6 m c)
theorem V5_norm : (Gen.V5 m c main_v34 : FVec F S1650000 .f32)
    = Cert.Spec.norm (m ((c.tc : Thread nD τ).loc main_arg1)) (m ((c.tc : Thread nD τ).loc main_arg2)) := by
  refine (s4_v34 (Gen.V4 m c)).trans ?_
  rw [V4_v18, V4_v5, V4_v6, V4_v8]
  rfl

/-! ## The stretch before region 1, from any contents `U` -/

variable (U : Valuation τ sig (Elt F))

set_option maxHeartbeats 1000000 in
theorem after1_v48 : (StableHlo.after hostOps1 U main_v48 : FVec F S50000x128 .f32)
    = Cert.Spec.aggOf (U main_v35) (U main_v5) (U main_v6) (U main_v34) := by
  show StableHlo.after hostOps1 U (Proc.devRef .tc main_v48) = _
  after_results
  unfold Cert.Spec.aggOf Cert.Spec.nIx
  rfl
set_option maxHeartbeats 1000000 in
theorem after1_v49 : (StableHlo.after hostOps1 U main_v49 : FVec F S1x128 .f32) = Cert.Spec.biasRow (U main_arg5) := by
  show StableHlo.after hostOps1 U (Proc.devRef .tc main_v49) = _
  after_results
  exact shapeCast_row_eq_bcast _ _ _

/-! ## The stretch before region 3, from any contents `U` -/

set_option maxHeartbeats 1000000 in
theorem after3_v64 : (StableHlo.after hostOps3 U main_v64 : FVec F S50000x128 .f32)
    = Cert.Spec.aggOf (U main_v51) (U main_v5) (U main_v6) (U main_v34) := by
  show StableHlo.after hostOps3 U (Proc.devRef .tc main_v64) = _
  after_results
  unfold Cert.Spec.aggOf Cert.Spec.nIx
  rfl
set_option maxHeartbeats 1000000 in
theorem after3_v65 : (StableHlo.after hostOps3 U main_v65 : FVec F S1x128 .f32) = Cert.Spec.biasRow (U main_arg7) := by
  show StableHlo.after hostOps3 U (Proc.devRef .tc main_v65) = _
  after_results
  exact shapeCast_row_eq_bcast _ _ _
set_option maxHeartbeats 1000000 in
theorem after3_v66 : (StableHlo.after hostOps3 U main_v66 : IVec S50000x1 32) = Cert.Spec.idsCol (U main_arg3) := by
  show StableHlo.after hostOps3 U (Proc.devRef .tc main_v66) = _
  after_results
  exact shapeCast_col_eq_bcast _ _ _

end Cert.KernelIdeal.Hand

end
-- ==== Proof.KI.Val0.lean ====
/- The first dense product as one array: after the five grid points of region 0 its result array is the matrix product
   of the feature matrix and the weight, over the extended reals — block t of the result is the product of block t of
   the rows with the whole weight, and the blocks tile the 50000 rows. -/
import proofs.«404703_j87608742904438_2_alg».proof.Proof.KI.R0
import proofs.«404703_j87608742904438_2_alg».proof.Proof.Gen.ReferenceIdeal
import proofs.«404703_j87608742904438_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (V : (c : Dev nD) → (b : Ref sig .tc) → Buf (Elt Ideal) ((c : Thread nD τ).loc b))

/-- The zero offsets of a whole-buffer rectangle, however spelt. -/
theorem zeroOff0 : (![0, 0] : Fin 2 → Nat) = fun _ => 0 := funext fun a => by fin_cases a <;> rfl

/-! ## The block product at an index

The body's matrix product of a 10000×128 row block `x` and the 128×128 weight `w`, into a zero accumulator, is at
entry (r, q) the sum over k of `x (r, k) * w (k, q)`: the contraction has one axis, of extent 128. -/

theorem mm0_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm0_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem mm0_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem mm0_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `i 0`, column `k` of the row block. -/
abbrev mm0_lidx (i : S10000x128.Idx) (k : Fin 128) : S10000x128.Idx := fun a => match a with
  | ⟨0, _⟩ => ⟨(i 0).val, (i 0).isLt⟩
  | ⟨1, _⟩ => ⟨k.val, k.isLt⟩
/-- Row `k`, column `i 1` of the weight. -/
abbrev mm0_ridx (i : S10000x128.Idx) (k : Fin 128) : S128x128.Idx := fun a => match a with
  | ⟨0, _⟩ => ⟨k.val, k.isLt⟩
  | ⟨1, _⟩ => ⟨(i 1).val, (i 1).isLt⟩

/-- The body's payload at an entry of the block: the sum over the contraction's 128 terms. -/
theorem pay0_apply (x : Vec Ideal S10000x128 .f32) (w : Vec Ideal S128x128 .f32) (i : S10000x128.Idx) :
    k0_pay1 (F := Ideal) x w i = ∑ k : Fin 128, x (mm0_lidx i k) * w (mm0_ridx i k) := by
  unfold k0_pay1
  show FloatOps.matmul (F := Ideal) dot_S10000x128_S128x128_S10000x128_1_0_0_1_n_n none x w (constant (F := Ideal) S10000x128 .f32 0x00000000#32) i = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = mm0_lidx i k := funext fun a => Fin.ext (by
    match a with
    | ⟨0, _⟩ => exact mm0_lhs_0 _ _
    | ⟨1, _⟩ => exact (mm0_lhs_1 _ _).trans hk)
  have er : dot_S10000x128_S128x128_S10000x128_1_0_0_1_n_n.rhsIdx i ((ValueIdx.contrEquiv1 dot_S10000x128_S128x128_S10000x128_1_0_0_1_n_n 128 rfl rfl).symm k) = mm0_ridx i k := funext fun a => Fin.ext (by
    match a with
    | ⟨0, _⟩ => exact (mm0_rhs_0 _ _).trans hk
    | ⟨1, _⟩ => exact mm0_rhs_1 _ _)
  rw [el, er]

/-! ## The whole-array product and its blocks -/

/-- The host's matrix product of a 50000×128 array and the weight: the one function every block of the result is read off. -/
abbrev prod0 (A : FVec Ideal S50000x128 .f32) (W : FVec Ideal S128x128 .f32) : FVec Ideal S50000x128 .f32 :=
  Host.dotGeneral (F := Ideal) (φ₁ := .f32) (φ₂ := .f32) Cert.ReferenceIdeal.dot_S50000x128_S128x128_S50000x128_1_0_0_1_n_n none A W

/-- At entry (r, q) it is the sum over k of `A (r, k) * W (k, q)`. -/
theorem prod0_apply (A : FVec Ideal S50000x128 .f32) (W : FVec Ideal S128x128 .f32) (i : S50000x128.Idx) :
    prod0 A W i = ∑ k : Fin 128, A (Cert.ReferenceIdeal.Read.lidx_main_v35 i k) * W (Cert.ReferenceIdeal.Read.ridx_main_v35 i k) :=
  Cert.ReferenceIdeal.Read.val_main_v35_apply A W i

/-- The index maps over the grid: the row block and the result block move together, point `t` at block `t`; the
    weight's block stays at the origin. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- An entry of a block product is the entry of the whole-array product at the block's place: if `x` is rows
    `10000 n …` of `A` and `w` is `W`, then entry `y` of the block is entry `i` of the product when `i` is `y` moved
    down by `10000 n` rows. -/
theorem block_entry0 (A : FVec Ideal S50000x128 .f32) (W : FVec Ideal S128x128 .f32)
    (x : Vec Ideal S10000x128 .f32) (w : Vec Ideal S128x128 .f32) (n : Nat) (y : S10000x128.Idx) (i : S50000x128.Idx)
    (hx : ∀ (y' : S10000x128.Idx) (i' : S50000x128.Idx), (i' 0).val = n * 10000 + (y' 0).val → (i' 1).val = (y' 1).val → x y' = A i')
    (hw : ∀ y' : S128x128.Idx, w y' = W y')
    (hi0 : (i 0).val = n * 10000 + (y 0).val) (hi1 : (i 1).val = (y 1).val) :
    k0_pay1 (F := Ideal) x w y = prod0 A W i := by
  rw [pay0_apply, prod0_apply]
  refine Finset.sum_congr rfl fun k _ => ?_
  rw [hx (mm0_lidx y k) (Cert.ReferenceIdeal.Read.lidx_main_v35 i k) hi0 rfl, hw]
  have er : mm0_ridx y k = Cert.ReferenceIdeal.Read.ridx_main_v35 i k := funext fun a => Fin.ext (by
    match a with
    | ⟨0, _⟩ => rfl
    | ⟨1, _⟩ => exact hi1.symm)
  rw [er]

/-- What point `t` writes back is block `t` of the whole-array product. -/
theorem flushed0_eq (c : Dev nD) (t : Fin cfg0.N) :
    (dat0 (F := Ideal) V c).flushed 2 t
      = ((cfg0.win 2).blk t).view.read (Elt Ideal) (prod0 (V c main_arg0 : FVec Ideal S50000x128 .f32) (V c main_arg4 : FVec Ideal S128x128 .f32)) := by
  show (cfg0.win 2).cut (grid0.coords t) ((dat0 (F := Ideal) V c).after 2 t) = _
  rw [after0_2]
  unfold out0_2
  rw [View.canon_unit_zero zeroOff0]
  simp only [View.ld_unit_zero (S := S10000x128) zeroOff0, View.ld_unit_zero (S := S128x128) zeroOff0]
  obtain ⟨e0, e1, e2, e3, e4, e5⟩ := idx_facts0 t
  funext j
  refine block_entry0 _ _ _ _ t.val _ _ (fun y' i' h0 h1 => ?_) (fun y' => ?_) ?_ ?_
  · show V c main_arg0 (((cfg0.win 0).blk t).view.emb y') = V c main_arg0 i'
    refine congrArg _ (funext fun a => Fin.ext ?_)
    match a with
    | ⟨0, _⟩ => show win0_0.index t (0 : Fin 2) * 10000 + 1 * (y' 0).val = (i' 0).val; omega
    | ⟨1, _⟩ => show win0_0.index t (1 : Fin 2) * 128 + 1 * (y' 1).val = (i' 1).val; omega
  · show V c main_arg4 (((cfg0.win 1).blk t).view.emb y') = V c main_arg4 y'
    refine congrArg _ (funext fun a => Fin.ext ?_)
    match a with
    | ⟨0, _⟩ => show win0_1.index t (0 : Fin 2) * 128 + 1 * (y' 0).val = (y' 0).val; omega
    | ⟨1, _⟩ => show win0_1.index t (1 : Fin 2) * 128 + 1 * (y' 1).val = (y' 1).val; omega
  · show win0_2.index t (0 : Fin 2) * 10000 + 1 * (j 0).val = t.val * 10000 + (j 0).val; omega
  · show win0_2.index t (1 : Fin 2) * 128 + 1 * (j 1).val = (j 1).val; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- The blocks tile the rows: row `r` is in the block of point `r / 10000`. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  let t : Fin cfg0.N := ⟨(i 0).val / 10000, by rw [hN]; omega⟩
  obtain ⟨e0, e1, e2, e3, e4, e5⟩ := idx_facts0 t
  have e4' : win0_2.index t (0 : Fin 2) = (i 0).val / 10000 := e4
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- Region 0's result array after the run is the host's matrix product of the two arrays it reads. -/
theorem final0 (c : Dev nD) :
    ((dat0 (F := Ideal) V c).arrAt 2 cfg0.N : FVec Ideal S50000x128 .f32)
      = Host.dotGeneral (F := Ideal) (φ₁ := .f32) (φ₂ := .f32) Cert.ReferenceIdeal.dot_S50000x128_S128x128_S50000x128_1_0_0_1_n_n none
          (V c main_arg0 : FVec Ideal S50000x128 .f32) (V c main_arg4 : FVec Ideal S128x128 .f32) := by
  exact (dat0 (F := Ideal) V c).arrAt_eq_of_cover 2 (prod0 (V c main_arg0 : FVec Ideal S50000x128 .f32) (V c main_arg4 : FVec Ideal S128x128 .f32))
    (fun t _ => flushed0_eq V c t) (cover0)

end Cert.KernelIdeal.Hand

end
-- ==== Proof.KI.Val1.lean ====
/- Bias and rectifier of the first layer as one array: after region 1 its result array is, entry by entry, the larger of
   zero and the sum of the aggregated messages and the bias row. -/
import proofs.«404703_j87608742904438_2_alg».proof.Proof.KI.R1
import proofs.«404703_j87608742904438_2_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (V : (c : Dev nD) → (b : Ref sig .tc) → Buf (Elt Ideal) ((c : Thread nD τ).loc b))

/-- The zero offsets of a whole-buffer rectangle, however spelt. -/
theorem zeroOff1 : (![0, 0] : Fin 2 → Nat) = fun _ => 0 := funext fun a => by fin_cases a <;> rfl

/-! ## The rectified biased sum at an index -/

/-- Column `q` of the one-row bias. -/
abbrev biasIdx1 (q : Fin 128) : S1x128.Idx := fun a => match a with
  | ⟨0, _⟩ => ⟨0, Nat.zero_lt_one⟩
  | ⟨1, _⟩ => ⟨q.val, q.isLt⟩

/-- The body's payload at an entry of the block: the larger of zero and the entry plus the bias of its column. -/
theorem pay1_apply (x : Vec Ideal S10000x128 .f32) (w : Vec Ideal S1x128 .f32) (y : S10000x128.Idx) :
    k1_pay1 (F := Ideal) x w y = max (x y + w (biasIdx1 ⟨(y 1).val, (y 1).isLt⟩)) (Ideal.ofBits .f32 0x00000000#32) := by
  unfold k1_pay1
  simp only [shapeCast_self]
  show max (x y + broadcastTo S10000x128 w broadcasts_S1x128_S10000x128 y) _ = _
  rw [broadcastTo_apply w broadcasts_S1x128_S10000x128 y (biasIdx1 ⟨(y 1).val, (y 1).isLt⟩) (fun a => by
    match a with
    | ⟨0, _⟩ => rfl
    | ⟨1, _⟩ => rfl)]
  rfl

/-- The whole-array function: the larger of zero and the array plus the bias row broadcast along the rows, in the
    host's spelling. -/
abbrev relu1 (A : FVec Ideal S50000x128 .f32) (b : FVec Ideal S1x128 .f32) : FVec Ideal S50000x128 .f32 :=
  maximumf (F := Ideal) (φ := .f32) (addf (F := Ideal) (φ := .f32) A
      (broadcastInDim S50000x128 ![0, 1] Cert.ReferenceIdeal.Facts₀.bcast_S1x128_S50000x128_0_1 b))
    (broadcastInDim S50000x128 ![] Cert.ReferenceIdeal.Facts₀.bcast_S_S50000x128 (constant (F := Ideal) S_ .f32 0x00000000#32))

/-- At entry (r, q): the larger of zero and `A (r, q) + b (0, q)`. -/
theorem relu1_apply (A : FVec Ideal S50000x128 .f32) (b : FVec Ideal S1x128 .f32) (i : S50000x128.Idx) :
    relu1 A b i = max (A i + b (biasIdx1 ⟨(i 1).val, (i 1).isLt⟩)) (Ideal.ofBits .f32 0x00000000#32) := by
  show max (A i + broadcastInDim S50000x128 ![0, 1] Cert.ReferenceIdeal.Facts₀.bcast_S1x128_S50000x128_0_1 b i)
      (broadcastInDim S50000x128 ![] Cert.ReferenceIdeal.Facts₀.bcast_S_S50000x128 (constant (F := Ideal) S_ .f32 0x00000000#32) i) = _
  rw [broadcastInDim_apply ![0, 1] Cert.ReferenceIdeal.Facts₀.bcast_S1x128_S50000x128_0_1 b i (biasIdx1 ⟨(i 1).val, (i 1).isLt⟩) (fun a => by
    match a with
    | ⟨0, _⟩ => rfl
    | ⟨1, _⟩ => rfl)]
  rfl

/-- The index maps over the grid: the input block and the result block move together, point `t` at block `t`; the
    bias row's block stays at the origin. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- An entry of a block's payload is the entry of the whole-array function at the block's place: if `x` is rows
    `10000 n …` of `A` and `w` is `b`, then entry `y` of the block is entry `i` of the array when `i` is `y` moved
    down by `10000 n` rows. -/
theorem block_entry1 (A : FVec Ideal S50000x128 .f32) (b : FVec Ideal S1x128 .f32)
    (x : Vec Ideal S10000x128 .f32) (w : Vec Ideal S1x128 .f32) (n : Nat) (y : S10000x128.Idx) (i : S50000x128.Idx)
    (hx : ∀ (y' : S10000x128.Idx) (i' : S50000x128.Idx), (i' 0).val = n * 10000 + (y' 0).val → (i' 1).val = (y' 1).val → x y' = A i')
    (hw : ∀ y' : S1x128.Idx, w y' = b y')
    (hi0 : (i 0).val = n * 10000 + (y 0).val) (hi1 : (i 1).val = (y 1).val) :
    k1_pay1 (F := Ideal) x w y = relu1 A b i := by
  rw [pay1_apply, relu1_apply, hx y i hi0 hi1, hw]
  have eq : (⟨(y 1).val, (y 1).isLt⟩ : Fin 128) = ⟨(i 1).val, (i 1).isLt⟩ := Fin.ext hi1.symm
  rw [eq]

/-- What point `t` writes back is block `t` of the whole-array function. -/
theorem flushed1_eq (c : Dev nD) (t : Fin cfg1.N) :
    (dat1 (F := Ideal) V c).flushed 2 t
      = ((cfg1.win 2).blk t).view.read (Elt Ideal) (relu1 (V c main_v48 : FVec Ideal S50000x128 .f32) (V c main_v49 : FVec Ideal S1x128 .f32)) := by
  show (cfg1.win 2).cut (grid1.coords t) ((dat1 (F := Ideal) V c).after 2 t) = _
  rw [after1_2]
  unfold out1_2
  rw [View.canon_unit_zero zeroOff1]
  simp only [View.ld_unit_zero (S := S10000x128) zeroOff1, View.ld_unit_zero (S := S1x128) zeroOff1]
  obtain ⟨e0, e1, e2, e3, e4, e5⟩ := idx_facts1 t
  funext j
  refine block_entry1 _ _ _ _ t.val _ _ (fun y' i' h0 h1 => ?_) (fun y' => ?_) ?_ ?_
  · show V c main_v48 (((cfg1.win 0).blk t).view.emb y') = V c main_v48 i'
    refine congrArg _ (funext fun a => Fin.ext ?_)
    match a with
    | ⟨0, _⟩ => show win1_0.index t (0 : Fin 2) * 10000 + 1 * (y' 0).val = (i' 0).val; omega
    | ⟨1, _⟩ => show win1_0.index t (1 : Fin 2) * 128 + 1 * (y' 1).val = (i' 1).val; omega
  · show V c main_v49 (((cfg1.win 1).blk t).view.emb y') = V c main_v49 y'
    refine congrArg _ (funext fun a => Fin.ext ?_)
    match a with
    | ⟨0, _⟩ => show win1_1.index t (0 : Fin 2) * 1 + 1 * (y' 0).val = (y' 0).val; omega
    | ⟨1, _⟩ => show win1_1.index t (1 : Fin 2) * 128 + 1 * (y' 1).val = (y' 1).val; omega
  · show win1_2.index t (0 : Fin 2) * 10000 + 1 * (j 0).val = t.val * 10000 + (j 0).val; omega
  · show win1_2.index t (1 : Fin 2) * 128 + 1 * (j 1).val = (j 1).val; omega

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v50).slice (win1_2.rect t)).set ↔ _
  rw [View.set_slice_whole, Rect.mem_set_unit]
  exact Iff.rfl

/-- The blocks tile the rows: row `r` is in the block of point `r / 10000`. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨e0, e1, e2, e3, e4, e5⟩ := idx_facts1 t
  have e4' : win1_2.index t (0 : Fin 2) = (i 0).val / 10000 := e4
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- Region 1's result array after the run, in the host's spelling of the same operations. -/
theorem final1 (c : Dev nD) :
    ((dat1 (F := Ideal) V c).arrAt 2 cfg1.N : FVec Ideal S50000x128 .f32)
      = maximumf (F := Ideal) (φ := .f32) (addf (F := Ideal) (φ := .f32) (V c main_v48 : FVec Ideal S50000x128 .f32)
            (broadcastInDim S50000x128 ![0, 1] Cert.ReferenceIdeal.Facts₀.bcast_S1x128_S50000x128_0_1 (V c main_v49 : FVec Ideal S1x128 .f32)))
          (broadcastInDim S50000x128 ![] Cert.ReferenceIdeal.Facts₀.bcast_S_S50000x128 (constant (F := Ideal) S_ .f32 0x00000000#32)) := by
  exact (dat1 (F := Ideal) V c).arrAt_eq_of_cover 2 (relu1 (V c main_v48 : FVec Ideal S50000x128 .f32) (V c main_v49 : FVec Ideal S1x128 .f32))
    (fun t _ => flushed1_eq V c t) cover1

end Cert.KernelIdeal.Hand

end
-- ==== Proof.KI.Val2.lean ====
/- The second dense product as one array: after the five grid points of region 2 its result array is the matrix product
   of the hidden layer and the weight, over the extended reals — block t of the result is the product of block t of
   the rows with the whole weight, and the blocks tile the 50000 rows. -/
import proofs.«404703_j87608742904438_2_alg».proof.Proof.KI.R2
import proofs.«404703_j87608742904438_2_alg».proof.Proof.Gen.ReferenceIdeal
import proofs.«404703_j87608742904438_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (V : (c : Dev nD) → (b : Ref sig .tc) → Buf (Elt Ideal) ((c : Thread nD τ).loc b))

/-- The zero offsets of a whole-buffer rectangle, however spelt. -/
theorem zeroOff2 : (![0, 0] : Fin 2 → Nat) = fun _ => 0 := funext fun a => by fin_cases a <;> rfl

/-! ## The block product at an index

The body's matrix product of a 10000×128 row block `x` and the 128×128 weight `w`, into a zero accumulator, is at
entry (r, q) the sum over k of `x (r, k) * w (k, q)`: the contraction has one axis, of extent 128. -/

theorem mm2_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem mm2_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem mm2_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem mm2_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Row `i 0`, column `k` of the row block. -/
abbrev mm2_lidx (i : S10000x128.Idx) (k : Fin 128) : S10000x128.Idx := fun a => match a with
  | ⟨0, _⟩ => ⟨(i 0).val, (i 0).isLt⟩
  | ⟨1, _⟩ => ⟨k.val, k.isLt⟩
/-- Row `k`, column `i 1` of the weight. -/
abbrev mm2_ridx (i : S10000x128.Idx) (k : Fin 128) : S128x128.Idx := fun a => match a with
  | ⟨0, _⟩ => ⟨k.val, k.isLt⟩
  | ⟨1, _⟩ => ⟨(i 1).val, (i 1).isLt⟩

/-- The body's payload at an entry of the block: the sum over the contraction's 128 terms. -/
theorem pay2_apply (x : Vec Ideal S10000x128 .f32) (w : Vec Ideal S128x128 .f32) (i : S10000x128.Idx) :
    k2_pay1 (F := Ideal) x w i = ∑ k : Fin 128, x (mm2_lidx i k) * w (mm2_ridx i k) := by
  unfold k2_pay1
  show FloatOps.matmul (F := Ideal) dot_S10000x128_S128x128_S10000x128_1_0_0_1_n_n none (shapeCast S10000x128 x shapeCasts_S10000x128_S10000x128) w (constant (F := Ideal) S10000x128 .f32 0x00000000#32) i = _
  rw [shapeCast_self]
  show FloatOps.matmul (F := Ideal) dot_S10000x128_S128x128_S10000x128_1_0_0_1_n_n none x w (constant (F := Ideal) S10000x128 .f32 0x00000000#32) i = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx i ((ValueIdx.contrEquiv1 dot_S10000x128_S128x128_S10000x128_1_0_0_1_n_n 128 rfl rfl).symm k) = mm2_lidx i k := funext fun a => Fin.ext (by
    match a with
    | ⟨0, _⟩ => exact mm2_lhs_0 _ _
    | ⟨1, _⟩ => exact (mm2_lhs_1 _ _).trans hk)
  have er : dot_S10000x128_S128x128_S10000x128_1_0_0_1_n_n.rhsIdx i ((ValueIdx.contrEquiv1 dot_S10000x128_S128x128_S10000x128_1_0_0_1_n_n 128 rfl rfl).symm k) = mm2_ridx i k := funext fun a => Fin.ext (by
    match a with
    | ⟨0, _⟩ => exact (mm2_rhs_0 _ _).trans hk
    | ⟨1, _⟩ => exact mm2_rhs_1 _ _)
  rw [el, er]

/-! ## The whole-array product and its blocks -/

/-- The host's matrix product of a 50000×128 array and the weight: the one function every block of the result is read off. -/
abbrev prod2 (A : FVec Ideal S50000x128 .f32) (W : FVec Ideal S128x128 .f32) : FVec Ideal S50000x128 .f32 :=
  Host.dotGeneral (F := Ideal) (φ₁ := .f32) (φ₂ := .f32) Cert.ReferenceIdeal.dot_S50000x128_S128x128_S50000x128_1_0_0_1_n_n none A W

/-- At entry (r, q) it is the sum over k of `A (r, k) * W (k, q)`. -/
theorem prod2_apply (A : FVec Ideal S50000x128 .f32) (W : FVec Ideal S128x128 .f32) (i : S50000x128.Idx) :
    prod2 A W i = ∑ k : Fin 128, A (Cert.ReferenceIdeal.Read.lidx_main_v35 i k) * W (Cert.ReferenceIdeal.Read.ridx_main_v35 i k) :=
  Cert.ReferenceIdeal.Read.val_main_v35_apply A W i

/-- The index maps over the grid: the row block and the result block move together, point `t` at block `t`; the
    weight's block stays at the origin. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- An entry of a block product is the entry of the whole-array product at the block's place: if `x` is rows
    `10000 n …` of `A` and `w` is `W`, then entry `y` of the block is entry `i` of the product when `i` is `y` moved
    down by `10000 n` rows. -/
theorem block_entry2 (A : FVec Ideal S50000x128 .f32) (W : FVec Ideal S128x128 .f32)
    (x : Vec Ideal S10000x128 .f32) (w : Vec Ideal S128x128 .f32) (n : Nat) (y : S10000x128.Idx) (i : S50000x128.Idx)
    (hx : ∀ (y' : S10000x128.Idx) (i' : S50000x128.Idx), (i' 0).val = n * 10000 + (y' 0).val → (i' 1).val = (y' 1).val → x y' = A i')
    (hw : ∀ y' : S128x128.Idx, w y' = W y')
    (hi0 : (i 0).val = n * 10000 + (y 0).val) (hi1 : (i 1).val = (y 1).val) :
    k2_pay1 (F := Ideal) x w y = prod2 A W i := by
  rw [pay2_apply, prod2_apply]
  refine Finset.sum_congr rfl fun k _ => ?_
  rw [hx (mm2_lidx y k) (Cert.ReferenceIdeal.Read.lidx_main_v35 i k) hi0 rfl, hw]
  have er : mm2_ridx y k = Cert.ReferenceIdeal.Read.ridx_main_v35 i k := funext fun a => Fin.ext (by
    match a with
    | ⟨0, _⟩ => rfl
    | ⟨1, _⟩ => exact hi1.symm)
  rw [er]

/-- What point `t` writes back is block `t` of the whole-array product. -/
theorem flushed2_eq (c : Dev nD) (t : Fin cfg2.N) :
    (dat2 (F := Ideal) V c).flushed 2 t
      = ((cfg2.win 2).blk t).view.read (Elt Ideal) (prod2 (V c main_v50 : FVec Ideal S50000x128 .f32) (V c main_arg6 : FVec Ideal S128x128 .f32)) := by
  show (cfg2.win 2).cut (grid2.coords t) ((dat2 (F := Ideal) V c).after 2 t) = _
  rw [after2_2]
  unfold out2_2
  rw [View.canon_unit_zero zeroOff2]
  simp only [View.ld_unit_zero (S := S10000x128) zeroOff2, View.ld_unit_zero (S := S128x128) zeroOff2]
  obtain ⟨e0, e1, e2, e3, e4, e5⟩ := idx_facts2 t
  funext j
  refine block_entry2 _ _ _ _ t.val _ _ (fun y' i' h0 h1 => ?_) (fun y' => ?_) ?_ ?_
  · show V c main_v50 (((cfg2.win 0).blk t).view.emb y') = V c main_v50 i'
    refine congrArg _ (funext fun a => Fin.ext ?_)
    match a with
    | ⟨0, _⟩ => show win2_0.index t (0 : Fin 2) * 10000 + 1 * (y' 0).val = (i' 0).val; omega
    | ⟨1, _⟩ => show win2_0.index t (1 : Fin 2) * 128 + 1 * (y' 1).val = (i' 1).val; omega
  · show V c main_arg6 (((cfg2.win 1).blk t).view.emb y') = V c main_arg6 y'
    refine congrArg _ (funext fun a => Fin.ext ?_)
    match a with
    | ⟨0, _⟩ => show win2_1.index t (0 : Fin 2) * 128 + 1 * (y' 0).val = (y' 0).val; omega
    | ⟨1, _⟩ => show win2_1.index t (1 : Fin 2) * 128 + 1 * (y' 1).val = (y' 1).val; omega
  · show win2_2.index t (0 : Fin 2) * 10000 + 1 * (j 0).val = t.val * 10000 + (j 0).val; omega
  · show win2_2.index t (1 : Fin 2) * 128 + 1 * (j 1).val = (j 1).val; omega

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v51).slice (win2_2.rect t)).set ↔ _
  rw [View.set_slice_whole, Rect.mem_set_unit]
  exact Iff.rfl

/-- The blocks tile the rows: row `r` is in the block of point `r / 10000`. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 5 := N_2
  let t : Fin cfg2.N := ⟨(i 0).val / 10000, by rw [hN]; omega⟩
  obtain ⟨e0, e1, e2, e3, e4, e5⟩ := idx_facts2 t
  have e4' : win2_2.index t (0 : Fin 2) = (i 0).val / 10000 := e4
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- Region 2's result array after the run is the host's matrix product of the two arrays it reads. -/
theorem final2 (c : Dev nD) :
    ((dat2 (F := Ideal) V c).arrAt 2 cfg2.N : FVec Ideal S50000x128 .f32)
      = Host.dotGeneral (F := Ideal) (φ₁ := .f32) (φ₂ := .f32) Cert.ReferenceIdeal.dot_S50000x128_S128x128_S50000x128_1_0_0_1_n_n none
          (V c main_v50 : FVec Ideal S50000x128 .f32) (V c main_arg6 : FVec Ideal S128x128 .f32) := by
  exact (dat2 (F := Ideal) V c).arrAt_eq_of_cover 2 (prod2 (V c main_v50 : FVec Ideal S50000x128 .f32) (V c main_arg6 : FVec Ideal S128x128 .f32))
    (fun t _ => flushed2_eq V c t) (cover2)

end Cert.KernelIdeal.Hand

end
-- ==== Proof.KI.Val3H.lean ====
/- Region 3's first result, entry by entry: the body's rectified block read at an index, and the host's spelling of the
   rectified sum read at an index. Both are the larger of an entry of the aggregated messages plus the bias entry of
   its column, and zero. -/
import proofs.«404703_j87608742904438_2_alg».proof.Proof.KI.R3
import proofs.«404703_j87608742904438_2_alg».proof.Proof.Gen.ReferenceIdeal
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

/-- Both spellings of the offsets of a whole-buffer rectangle. -/
theorem hz3 : (![0, 0] : Fin 2 → Nat) = fun _ => 0 := funext fun a => by fin_cases a <;> rfl

/-- The rectified sum of a matrix of 50000 rows and a bias row laid along every row, in the host's spelling. -/
def relu2 (A : FVec Ideal S50000x128 .f32) (B : FVec Ideal S1x128 .f32) : FVec Ideal S50000x128 .f32 :=
  maximumf (F := Ideal) (φ := .f32) (addf (F := Ideal) (φ := .f32) A
            (broadcastInDim S50000x128 ![0, 1] Cert.ReferenceIdeal.Facts₀.bcast_S1x128_S50000x128_0_1 B))
          (broadcastInDim S50000x128 ![] Cert.ReferenceIdeal.Facts₀.bcast_S_S50000x128 (constant (F := Ideal) S_ .f32 0x00000000#32))

/-- Entry (r, q) of it: the larger of A(r, q) + B(0, q) and zero. -/
theorem relu2_apply (A : FVec Ideal S50000x128 .f32) (B : FVec Ideal S1x128 .f32) (r : Fin 50000) (q : Fin 128) :
    relu2 A B (ix2 r q) = max (A (ix2 r q) + B (ix2 (0 : Fin 1) q)) (Ideal.ofBits .f32 0x00000000#32) := by
  unfold relu2
  rw [maximumf_apply, addf_apply, broadcastInDim_oneRow_apply, broadcastInDim_scalar_apply, constant_apply]

/-- Entry (p, q) of the body's rectified block: the larger of x(p, q) + b(0, q) and zero. -/
theorem pay4_apply (x : Vec Ideal S10000x128 .f32) (b : Vec Ideal S1x128 .f32) (p : Fin 10000) (q : Fin 128) :
    k3_pay4 x b (ix2 p q) = max (x (ix2 p q) + b (ix2 (0 : Fin 1) q)) (Ideal.ofBits .f32 0x00000000#32) := by
  unfold k3_pay4
  rw [maximumf_apply, addf_apply, broadcast_apply, shapeCast_self, shapeCast_self, broadcastTo_1b_ab_apply]
  rfl

variable (V : (c : Dev nD) → (b : Ref sig .tc) → Buf (Elt Ideal) ((c : Thread nD τ).loc b))

/-- The block indices of region 3's five windows at point t, decided over the grid: the row blocks move with the point,
    the bias row and the pooled result sit at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 ∧ t.val < 5 :=
  (by decide +kernel : ∀ t : Fin grid3.N, _)

/-- Row p of the block of aggregated messages at point t is row 10000 t + p of the array. -/
theorem blk0_apply (c : Dev nD) (t : Fin cfg3.N) (p : Fin 10000) (q : Fin 128) (h : 10000 * t.val + p.val < 50000) :
    (iblk3 V c 0 t : Vec Ideal S10000x128 .f32) (ix2 p q)
      = (V c main_v64 : FVec Ideal S50000x128 .f32) (ix2 (⟨10000 * t.val + p.val, h⟩ : Fin 50000) q) := by
  obtain ⟨e00, e01, e10, e11, e20, e21, e30, e31, e40, e41, ht⟩ := idx_facts3 t
  show V c main_v64 (((cfg3.win 0).blk t).view.emb (ix2 p q)) = _
  refine congrArg (V c main_v64) (funext fun a => Fin.ext ?_)
  match a with
  | ⟨0, _⟩ => show win3_0.index t (0 : Fin 2) * 10000 + 1 * p.val = 10000 * t.val + p.val; omega
  | ⟨1, _⟩ => show win3_0.index t (1 : Fin 2) * 128 + 1 * q.val = q.val; omega

/-- The bias block at every point is the bias row. -/
theorem blk1_apply (c : Dev nD) (t : Fin cfg3.N) (q : Fin 128) :
    (iblk3 V c 1 t : Vec Ideal S1x128 .f32) (ix2 (0 : Fin 1) q) = (V c main_v65 : FVec Ideal S1x128 .f32) (ix2 (0 : Fin 1) q) := by
  obtain ⟨e00, e01, e10, e11, e20, e21, e30, e31, e40, e41, ht⟩ := idx_facts3 t
  show V c main_v65 (((cfg3.win 1).blk t).view.emb (ix2 (0 : Fin 1) q)) = _
  refine congrArg (V c main_v65) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- Entry p of the block of graph ids at point t is the id of row 10000 t + p. -/
theorem blk2_apply (c : Dev nD) (t : Fin cfg3.N) (p : Fin 10000) (h : 10000 * t.val + p.val < 50000) :
    (iblk3 V c 2 t : Vec Ideal S10000x1 .i32) (ix2 p (0 : Fin 1))
      = (V c main_v66 : IVec S50000x1 32) (ix2 (⟨10000 * t.val + p.val, h⟩ : Fin 50000) (0 : Fin 1)) := by
  obtain ⟨e00, e01, e10, e11, e20, e21, e30, e31, e40, e41, ht⟩ := idx_facts3 t
  show V c main_v66 (((cfg3.win 2).blk t).view.emb (ix2 p (0 : Fin 1))) = _
  refine congrArg (V c main_v66) (funext fun a => Fin.ext ?_)
  match a with
  | ⟨0, _⟩ => show win3_2.index t (0 : Fin 2) * 10000 + 1 * p.val = 10000 * t.val + p.val; omega
  | ⟨1, _⟩ => show win3_2.index t (1 : Fin 2) * 1 + 1 * 0 = 0; omega

set_option maxHeartbeats 400000 in
/-- What point t writes back of the first result is block t of the rectified sum of the whole arrays. -/
theorem flushed3h_eq (c : Dev nD) (t : Fin cfg3.N) :
    (dat3 V c).flushed 3 t = ((cfg3.win 3).blk t).view.read (Elt Ideal) (relu2 (V c main_v64) (V c main_v65)) := by
  show (cfg3.win 3).cut (grid3.coords t) ((dat3 V c).after 3 t) = _
  rw [after3_3]
  unfold hOut3
  rw [View.canon_unit_zero hz3]
  simp only [View.ld_unit_zero (S := S10000x128) hz3, View.ld_unit_zero (S := S1x128) hz3]
  obtain ⟨e00, e01, e10, e11, e20, e21, e30, e31, e40, e41, ht⟩ := idx_facts3 t
  funext j
  obtain ⟨p, q, rfl⟩ : ∃ (p : Fin 10000) (q : Fin 128), j = ix2 p q := ⟨j 0, j 1, eq_ix2 j⟩
  show k3_pay4 (iblk3 V c 0 t) (iblk3 V c 1 t) (ix2 p q) = relu2 (V c main_v64) (V c main_v65) (((cfg3.win 3).blk t).view.emb (ix2 p q))
  have hp : 10000 * t.val + p.val < 50000 := by have := p.isLt; omega
  have hr : ((cfg3.win 3).blk t).view.emb (ix2 p q) = ix2 (⟨10000 * t.val + p.val, hp⟩ : Fin 50000) q := by
    funext a; apply Fin.ext
    match a with
    | ⟨0, _⟩ => show win3_3.index t (0 : Fin 2) * 10000 + 1 * p.val = 10000 * t.val + p.val; omega
    | ⟨1, _⟩ => show win3_3.index t (1 : Fin 2) * 128 + 1 * q.val = q.val; omega
  refine (pay4_apply (iblk3 V c 0 t) (iblk3 V c 1 t) p q).trans ?_
  refine Eq.trans ?_ (congrArg (relu2 (V c main_v64) (V c main_v65)) hr).symm
  rw [relu2_apply, blk0_apply V c t p q hp, blk1_apply V c t q]

/-- An index of the first result is in point t's block iff each coordinate is in the block's range on its axis. -/
theorem mem_blk3h (t : Fin cfg3.N) (i : S50000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v67_0).slice (win3_3.rect t)).set ↔ _
  rw [View.set_slice_whole, Rect.mem_set_unit]
  exact Iff.rfl

/-- The five blocks of 10000 rows tile the first result: row r is in the block of point r / 10000. -/
theorem cover3h (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  let t : Fin cfg3.N := ⟨(i 0).val / 10000, by rw [show cfg3.N = 5 from N_3]; omega⟩
  obtain ⟨e00, e01, e10, e11, e20, e21, e30, e31, e40, e41, ht⟩ := idx_facts3 t
  have htv : t.val = (i 0).val / 10000 := rfl
  refine ⟨t, flush3_3 t, ?_⟩
  rw [mem_blk3h]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 128 ≤ (i 1).val ∧ (i 1).val < win3_3.index t (1 : Fin 2) * 128 + 128; omega

/-- Region 3's first result array after the run: the rectified sum, entry by entry. -/
theorem final3h_relu2 (c : Dev nD) :
    ((dat3 (F := Ideal) V c).arrAt 3 cfg3.N : FVec Ideal S50000x128 .f32) = relu2 (V c main_v64) (V c main_v65) :=
  (dat3 V c).arrAt_eq_of_cover 3 (relu2 (V c main_v64) (V c main_v65)) (fun t _ => flushed3h_eq V c t) cover3h

end Cert.KernelIdeal.Hand

end
-- ==== Proof.KI.Val3Pay.lean ====
/- Region 3's pooling arithmetic, entry by entry over the extended reals. The body compares each of a block's 10000
   graph ids with the 64 column numbers, giving a 10000×64 matrix of ones and zeros; the sums scratch gains the product
   of its transpose with the rectified block (for graph id g and column d: the sum of the block's rows whose id is g),
   the counts scratch gains its column sums (the number of the block's rows whose id is g); both start from zeros, and
   the pooled result is the quotient of the sums by the counts, at least one. -/
import proofs.«404703_j87608742904438_2_alg».proof.Proof.KI.R3Defs
import Mathlib.Algebra.BigOperators.Fin
import Mathlib.Data.EReal.Basic
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

/-- Both spellings of the offsets of a whole-buffer rectangle. -/
theorem hzP : (![0, 0] : Fin 2 → Nat) = fun _ => 0 := funext fun a => by fin_cases a <;> rfl

/-- Entry (n, g) of the comparison matrix: one when row n's graph id is the word g, else zero. -/
theorem pay5_apply (bt : Vec Ideal S10000x1 .i32) (n : Fin 10000) (g : Fin 64) :
    k3_pay5 (F := Ideal) bt (ix2 n g) = if bt (ix2 n (0 : Fin 1)) = BitVec.ofNat 32 g.val then (1 : EReal) else 0 := by
  unfold k3_pay5
  rw [sitofp_apply, extui_apply]
  show FloatOps.sitofp .f32 ((IntOp.cmpi .eq (broadcastTo S10000x64 (shapeCast S10000x1 bt shapeCasts_S10000x1_S10000x1) broadcasts_S10000x1_S10000x64 (ix2 n g))
      (iota .tc S10000x64 32 [1] iota_S10000x64_d1_w32 (ix2 n g))).setWidth 32) = _
  rw [iota_single_apply, shapeCast_self,
    broadcastTo_apply bt broadcasts_S10000x1_S10000x64 (ix2 n g) (ix2 n (0 : Fin 1)) (fun a => by
      match a with
      | ⟨0, _⟩ => rfl
      | ⟨1, _⟩ => rfl)]
  show FloatOps.sitofp .f32 (BitVec.setWidth 32 (IntOp.cmpi .eq (bt (ix2 n (0 : Fin 1))) (BitVec.ofNat 32 g.val))) = _
  generalize bt (ix2 n (0 : Fin 1)) = a
  by_cases h : a = BitVec.ofNat 32 g.val
  · rw [if_pos h]
    have e : IntOp.cmpi .eq a (BitVec.ofNat 32 g.val) = 1#1 := by unfold IntOp.cmpi; simp [h]
    rw [e]
    show (((BitVec.setWidth 32 1#1).toInt : ℝ) : EReal) = 1
    rw [show (BitVec.setWidth 32 1#1).toInt = 1 by decide]
    norm_num
  · rw [if_neg h]
    have e : IntOp.cmpi .eq a (BitVec.ofNat 32 g.val) = 0#1 := by
      unfold IntOp.cmpi
      show BitVec.ofBool (a == BitVec.ofNat 32 g.val) = 0#1
      rw [beq_false_of_ne h]; rfl
    rw [e]
    show (((BitVec.setWidth 32 0#1).toInt : ℝ) : EReal) = 0
    rw [show (BitVec.setWidth 32 0#1).toInt = 0 by decide]
    norm_num

/-! ### The one-hot product's operand indices: output (g, d), contraction index q -/

theorem lhs_pool_0 (i : S64x128.Idx) (q : dot_S64x10000_S10000x128_S64x128_1_0_0_1_n_n.contr.Idx) :
    (dot_S64x10000_S10000x128_S64x128_1_0_0_1_n_n.lhsIdx i q 0).val = (i 0).val := by
  unfold DotDims.lhsIdx
  rw [dif_neg (show ¬(0 : Fin S64x10000.rank) ∈ dot_S64x10000_S10000x128_S64x128_1_0_0_1_n_n.lhsBatch by decide), dif_pos (show (0 : Fin S64x10000.rank) ∈ dot_S64x10000_S10000x128_S64x128_1_0_0_1_n_n.lhsNonContracting by decide)]
  rfl
theorem lhs_pool_1 (i : S64x128.Idx) (q : dot_S64x10000_S10000x128_S64x128_1_0_0_1_n_n.contr.Idx) :
    (dot_S64x10000_S10000x128_S64x128_1_0_0_1_n_n.lhsIdx i q 1).val = (q ⟨0, by decide⟩).val :=
  dot_S64x10000_S10000x128_S64x128_1_0_0_1_n_n.lhsIdx_val_of_single rfl i q
theorem rhs_pool_0 (i : S64x128.Idx) (q : dot_S64x10000_S10000x128_S64x128_1_0_0_1_n_n.contr.Idx) :
    (dot_S64x10000_S10000x128_S64x128_1_0_0_1_n_n.rhsIdx i q 0).val = (q ⟨0, by decide⟩).val :=
  dot_S64x10000_S10000x128_S64x128_1_0_0_1_n_n.rhsIdx_val_of_single rfl i q
theorem rhs_pool_1 (i : S64x128.Idx) (q : dot_S64x10000_S10000x128_S64x128_1_0_0_1_n_n.contr.Idx) :
    (dot_S64x10000_S10000x128_S64x128_1_0_0_1_n_n.rhsIdx i q 1).val = (i 1).val := by
  unfold DotDims.rhsIdx
  rw [dif_neg (show ¬(1 : Fin S10000x128.rank) ∈ dot_S64x10000_S10000x128_S64x128_1_0_0_1_n_n.rhsBatch by decide), dif_pos (show (1 : Fin S10000x128.rank) ∈ dot_S64x10000_S10000x128_S64x128_1_0_0_1_n_n.rhsNonContracting by decide)]
  rfl

set_option maxHeartbeats 400000 in
/-- The product of a 64×10000 matrix and a 10000×128 matrix into zeros, at (g, d): the sum over the 10000 rows. -/
theorem pool_matmul_apply (l : FVec Ideal S64x10000 .f32) (r : FVec Ideal S10000x128 .f32) (g : Fin 64) (d : Fin 128) :
    FloatOps.matmul dot_S64x10000_S10000x128_S64x128_1_0_0_1_n_n none l r (constant (F := Ideal) S64x128 .f32 0x00000000#32) (ix2 g d)
      = ∑ n : Fin 10000, l (ix2 g n) * r (ix2 n d) := by
  rw [Ideal.matmul_constant_zero_apply, ← Equiv.sum_comp (ValueIdx.contrEquiv1 dot_S64x10000_S10000x128_S64x128_1_0_0_1_n_n 10000 rfl rfl).symm]
  refine Finset.sum_congr rfl fun k _ => ?_
  have hk := ValueIdx.contrEquiv1_symm_val dot_S64x10000_S10000x128_S64x128_1_0_0_1_n_n 10000 rfl rfl k
  have el : dot_S64x10000_S10000x128_S64x128_1_0_0_1_n_n.lhsIdx (ix2 g d) ((ValueIdx.contrEquiv1 dot_S64x10000_S10000x128_S64x128_1_0_0_1_n_n 10000 rfl rfl).symm k) = ix2 g k := funext fun a => Fin.ext (by
    match a with
    | ⟨0, _⟩ => exact lhs_pool_0 _ _
    | ⟨1, _⟩ => exact (lhs_pool_1 _ _).trans hk)
  have er : dot_S64x10000_S10000x128_S64x128_1_0_0_1_n_n.rhsIdx (ix2 g d) ((ValueIdx.contrEquiv1 dot_S64x10000_S10000x128_S64x128_1_0_0_1_n_n 10000 rfl rfl).symm k) = ix2 k d := funext fun a => Fin.ext (by
    match a with
    | ⟨0, _⟩ => exact (rhs_pool_0 _ _).trans hk
    | ⟨1, _⟩ => exact rhs_pool_1 _ _)
  rw [el, er]

/-- Entry (g, d) of the sums scratch after a point: what it held plus, over the block's 10000 rows, the comparison
    entry of row n and graph id g times the rectified entry (n, d). -/
theorem pay6_apply (x : Vec Ideal S10000x128 .f32) (b : Vec Ideal S1x128 .f32) (bt : Vec Ideal S10000x1 .i32) (S : Vec Ideal S64x128 .f32)
    (g : Fin 64) (d : Fin 128) :
    k3_pay6 (F := Ideal) x b bt S (ix2 g d) = S (ix2 g d) + ∑ n : Fin 10000, k3_pay5 (F := Ideal) bt (ix2 n g) * k3_pay4 (F := Ideal) x b (ix2 n d) := by
  unfold k3_pay6
  rw [shapeCast_self, addf_apply]
  refine congrArg (S (ix2 g d) + ·) ?_
  refine (pool_matmul_apply _ _ g d).trans ?_
  refine Finset.sum_congr rfl fun n _ => ?_
  rw [transpose_ix2_apply]

/-- The sums scratch after a point, entry (g, d). -/
theorem sumsNext_apply (x : Vec Ideal S10000x128 .f32) (b : Vec Ideal S1x128 .f32) (bt : Vec Ideal S10000x1 .i32) (S : Vec Ideal S64x128 .f32)
    (g : Fin 64) (d : Fin 128) :
    sumsNext (F := Ideal) x b bt S (ix2 g d)
      = S (ix2 g d) + ∑ n : Fin 10000, k3_pay5 (F := Ideal) bt (ix2 n g) * k3_pay4 (F := Ideal) x b (ix2 n d) := by
  unfold sumsNext
  rw [View.canon_unit_zero hzP]
  simp only [View.ld_unit_zero (S := S10000x128) hzP, View.ld_unit_zero (S := S1x128) hzP, View.ld_unit_zero (S := S10000x1) hzP,
    View.ld_unit_zero (S := S64x128) hzP]
  exact pay6_apply x b bt S g d

end Cert.KernelIdeal.Hand

end
-- ==== Proof.KI.Val3Alg.lean ====
/- The arithmetic that joins the two spellings of the mean pool: a sum over 50000 rows cut into five runs of 10000,
   a graph id compared as a 32-bit word against a number below 64 or read as a signed integer, and the weights one and
   zero of a sum over the extended reals (0 · x = 0 and 1 · x = x for every x, the infinities included). -/
import Idealize.ShloMosaic.PureOps.Ideal
import Idealize.ShloMosaic.PureOps.Ideal.Laws
import Mathlib.Algebra.BigOperators.Fin
import Mathlib.Algebra.BigOperators.Intervals
import Mathlib.Data.EReal.Basic

noncomputable section

namespace Cert.KernelIdeal.Hand

open Idealize.ShloMosaic
open scoped BigOperators

/-- A sum over the first n · m numbers is the sum over m runs of n. -/
theorem sum_blocks {M : Type*} [AddCommMonoid M] (F : ℕ → M) (n m : ℕ) :
    ∑ p ∈ Finset.range (n * m), F p = ∑ t ∈ Finset.range m, ∑ k ∈ Finset.range n, F (n * t + k) := by
  induction m with
  | zero => simp
  | succ m ih => rw [Nat.mul_succ, Finset.sum_range_add, ih, Finset.sum_range_succ]

/-- The same with the rows and the places inside a run as bounded numbers. -/
theorem sum_fin_blocks {M : Type*} [AddCommMonoid M] (F : ℕ → M) (n m : ℕ) :
    ∑ p : Fin (n * m), F p.val = ∑ t ∈ Finset.range m, ∑ k : Fin n, F (n * t + k.val) := by
  rw [Fin.sum_univ_eq_sum_range F (n * m), sum_blocks]
  refine Finset.sum_congr rfl fun t _ => ?_
  rw [Fin.sum_univ_eq_sum_range (fun k => F (n * t + k)) n]

/-- A 32-bit word is the word of a number below 64 exactly when, read signed, it is that number. -/
theorem word_eq_iff (a : BitVec 32) (g : Fin 64) : a = BitVec.ofNat 32 g.val ↔ a.toInt = (g.val : Int) := by
  have hg : (BitVec.ofNat 32 g.val).toInt = (g.val : Int) := by
    revert g; decide
  constructor
  · intro h; rw [h, hg]
  · intro h; exact BitVec.eq_of_toInt_eq (h.trans hg.symm)

/-- The f32 word of one is the extended real 1. -/
theorem ofBits_one_f32 : Ideal.ofBits .f32 0x3F800000#32 = 1 := by
  simp [Ideal.ofBits, Ideal.ieee]
  rw [← EReal.coe_mul]
  norm_num

/-- A weight of one or zero on a term. -/
theorem weight_mul (p : Prop) [Decidable p] (x : EReal) : (if p then (1 : EReal) else 0) * x = if p then x else 0 := by
  split
  · exact one_mul x
  · exact zero_mul x

end Cert.KernelIdeal.Hand

end
-- ==== Proof.KI.Val3Step.lean ====
/- Region 3's accumulators and pooled result, entry by entry: the counts accumulator after a point is what it held plus
   the number of the block's rows of each graph id; both accumulators start from zero; the pooled result is the sums
   divided by the counts, at least one. -/
import proofs.«404703_j87608742904438_2_alg».proof.Proof.KI.R3Defs
import Mathlib.Algebra.BigOperators.Fin
import Mathlib.Data.EReal.Basic
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

/-- Two zero offsets, however spelt. -/
theorem st3_zoff : (![0, 0] : Fin 2 → Nat) = fun _ => 0 := funext fun a => by fin_cases a <;> rfl

/-- A vector of 64 entries viewed as a column reads, at row g, entry g. -/
theorem st3_cast_col {α : Type} (v : S64.Idx → α) (h : S64.ShapeCasts S64x1) (g : Fin 64) (u : Fin 1) :
    shapeCast S64x1 v h (ix2 g u) = v (ix1 g) :=
  shapeCast_apply v h _ _ (by
    have hu : u.val = 0 := by omega
    rw [Shape.rowMajor_val_two, Shape.rowMajor_val_one]
    show g.val = g.val * 1 + u.val
    rw [hu, Nat.mul_one, Nat.add_zero])

/-- A column of 64 entries laid along 128 columns reads, at (g, d), entry g of the column. -/
theorem st3_bcast_col {α : Type} (v : S64x1.Idx → α) (h : S64x1.Broadcasts S64x128) (g : Fin 64) (d : Fin 128) :
    broadcastTo S64x128 v h (ix2 g d) = v (ix2 g (0 : Fin 1)) := by
  refine broadcastTo_apply v h (ix2 g d) (ix2 g (0 : Fin 1)) fun ax => ?_
  match ax with
  | ⟨0, _⟩ => rfl
  | ⟨1, _⟩ => rfl

/-- The sum down the 10000 rows of a matrix of 64 columns reads, at g, the sum of column g. -/
theorem st3_colsum (src : FVec Ideal S10000x64 .f32) (h : S10000x64.Reduces [0] S64) (hφ : FKind.Formats .f32)
    (hacc : (0x00000000#32 : BitVec 32) = 0x00000000#32) (g : Fin 64) :
    multiReduction (F := Ideal) .add [0] S64 src 0x00000000#32 h hφ hacc (ix1 g) = ∑ n : Fin 10000, src (ix2 n g) := by
  refine (Ideal.multiReduction_add_single src 0x00000000#32 h hφ hacc (ix1 g)).trans ?_
  refine Finset.sum_congr rfl fun n _ => congrArg src (funext fun a => Fin.ext ?_)
  match a with
  | ⟨0, _⟩ => rfl
  | ⟨1, _⟩ => rfl

/-- Entry g of the counts payload: what the accumulator held there plus the number of the block's rows of graph id g. -/
theorem st3_pay7_apply (bt : Vec Ideal S10000x1 .i32) (C : Vec Ideal S64x1 .f32) (g : Fin 64) :
    k3_pay7 (F := Ideal) bt C (ix2 g (0 : Fin 1)) = C (ix2 g (0 : Fin 1)) + ∑ n : Fin 10000, k3_pay5 (F := Ideal) bt (ix2 n g) := by
  unfold k3_pay7
  rw [shapeCast_self, addf_apply, st3_cast_col]
  exact congrArg (C (ix2 g (0 : Fin 1)) + ·) (st3_colsum _ _ _ _ g)

/-- The counts accumulator after a point, entry g. -/
theorem cntsNext_apply (bt : Vec Ideal S10000x1 .i32) (C : Vec Ideal S64x1 .f32) (g : Fin 64) :
    cntsNext (F := Ideal) bt C (ix2 g (0 : Fin 1)) = C (ix2 g (0 : Fin 1)) + ∑ n : Fin 10000, k3_pay5 (F := Ideal) bt (ix2 n g) := by
  unfold cntsNext
  rw [View.canon_unit_zero st3_zoff]
  simp only [View.ld_unit_zero (S := S10000x1) st3_zoff, View.ld_unit_zero (S := S64x1) st3_zoff]
  exact st3_pay7_apply bt C g

/-- The accumulators as the first point resets them are zero everywhere. -/
theorem sums0_apply (g : Fin 64) (d : Fin 128) : sums0 (F := Ideal) (ix2 g d) = 0 := by
  unfold sums0
  rw [View.canon_unit_zero st3_zoff]
  unfold k3_pay2
  rw [shapeCast_self, broadcast_apply]
  exact Ideal.ofBits_zero_f32
theorem cnts0_apply (g : Fin 64) : cnts0 (F := Ideal) (ix2 g (0 : Fin 1)) = 0 := by
  unfold cnts0
  rw [View.canon_unit_zero st3_zoff]
  unfold k3_pay3
  rw [shapeCast_self, broadcast_apply]
  exact Ideal.ofBits_zero_f32

/-- Entry (g, d) of the quotient payload: the sum divided by the count of row g, at least one. -/
theorem st3_pay1_apply (S : Vec Ideal S64x128 .f32) (C : Vec Ideal S64x1 .f32) (g : Fin 64) (d : Fin 128) :
    k3_pay1 (F := Ideal) S C (ix2 g d) = Ideal.div (S (ix2 g d)) (max (C (ix2 g (0 : Fin 1))) 1) := by
  unfold k3_pay1
  rw [divf_apply, st3_bcast_col, maximumf_apply, broadcast_apply]
  exact congrArg (fun z => Ideal.div (S (ix2 g d)) (max (C (ix2 g (0 : Fin 1))) z)) Ideal.ofBits_one_f32

/-- The pooled result, entry (g, d). -/
theorem pooledOut_apply (S : Vec Ideal S64x128 .f32) (C : Vec Ideal S64x1 .f32) (g : Fin 64) (d : Fin 128) :
    pooledOut (F := Ideal) S C (ix2 g d) = Ideal.div (S (ix2 g d)) (max (C (ix2 g (0 : Fin 1))) 1) := by
  unfold pooledOut
  rw [View.canon_unit_zero st3_zoff]
  simp only [View.ld_unit_zero (S := S64x128) st3_zoff, View.ld_unit_zero (S := S64x1) st3_zoff]
  exact st3_pay1_apply S C g d

end Cert.KernelIdeal.Hand

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.KI.Val3P.lean ====
/- Region 3's second result as an array: the pooled means.
   With the graph ids and the rectified second layer read as functions of the row number, the sums scratch after point
   n holds, at (g, d), the sum over the rows of blocks 0 … n whose id is the word g of the rectified entry in column d,
   and the counts scratch the number of those rows: by induction on the point, each point adding its block's 10000 rows,
   from zeros. After point 4 these are sums over all 50000 rows. The output window is written back once, at the last
   point, its block the whole 64×128 array, so the array ends holding the quotient of the sums by the counts (at least
   one). The host's two segment sums read at an index are the same sums over the 50000 rows: a row counts for graph id g
   when its id, read signed, is g — for g below 64 exactly when the id is the 32-bit word of g — and the weights one and
   zero of the body's comparison matrix select the same rows (0 · x = 0 and 1 · x = x for every extended real x). -/
import proofs.«404703_j87608742904438_2_alg».proof.Proof.KI.Val3H
import proofs.«404703_j87608742904438_2_alg».proof.Proof.KI.Val3Pay
import proofs.«404703_j87608742904438_2_alg».proof.Proof.KI.Val3Alg
import proofs.«404703_j87608742904438_2_alg».proof.Proof.KI.Val3Step
import proofs.«404703_j87608742904438_2_alg».proof.Proof.LibRows
import Mathlib.Algebra.BigOperators.Fin
import Mathlib.Algebra.BigOperators.Intervals
import Mathlib.Data.EReal.Basic
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (V : (c : Dev nD) → (b : Ref sig .tc) → Buf (Elt Ideal) ((c : Thread nD τ).loc b))

/-- The graph id of row r as a function of the row number (zero past the last row). -/
def idN (c : Dev nD) (r : ℕ) : BitVec 32 :=
  if h : r < 50000 then (V c main_v66 : IVec S50000x1 32) (ix2 (⟨r, h⟩ : Fin 50000) (0 : Fin 1)) else 0

/-- Entry (r, d) of the rectified second layer as a function of the row number (zero past the last row). -/
def h2N (c : Dev nD) (r : ℕ) (d : Fin 128) : EReal :=
  if h : r < 50000 then relu2 (V c main_v64) (V c main_v65) (ix2 (⟨r, h⟩ : Fin 50000) d) else 0

/-- Row r's share of the sum of graph id g in column d. -/
def poolF (c : Dev nD) (g : Fin 64) (d : Fin 128) (r : ℕ) : EReal :=
  (if idN V c r = BitVec.ofNat 32 g.val then (1 : EReal) else 0) * h2N V c r d

/-- Row r's share of the count of graph id g. -/
def cntF (c : Dev nD) (g : Fin 64) (r : ℕ) : EReal :=
  if idN V c r = BitVec.ofNat 32 g.val then (1 : EReal) else 0

set_option maxHeartbeats 400000 in
/-- What point t adds to the sums scratch at (g, d): the shares of its block's 10000 rows. -/
theorem point_sum (c : Dev nD) (t : Fin cfg3.N) (g : Fin 64) (d : Fin 128) :
    ∑ n : Fin 10000, k3_pay5 (F := Ideal) (iblk3 V c 2 t) (ix2 n g) * k3_pay4 (F := Ideal) (iblk3 V c 0 t) (iblk3 V c 1 t) (ix2 n d)
      = ∑ n : Fin 10000, poolF V c g d (10000 * t.val + n.val) := by
  obtain ⟨e00, e01, e10, e11, e20, e21, e30, e31, e40, e41, ht⟩ := idx_facts3 t
  refine Finset.sum_congr rfl fun n _ => ?_
  have hp : 10000 * t.val + n.val < 50000 := by have := n.isLt; omega
  refine (congrArg₂ (· * ·) (pay5_apply (iblk3 V c 2 t) n g) (pay4_apply (iblk3 V c 0 t) (iblk3 V c 1 t) n d)).trans ?_
  unfold poolF idN h2N
  rw [dif_pos hp, dif_pos hp, relu2_apply, blk2_apply V c t n hp, blk0_apply V c t n d hp, blk1_apply V c t d]

set_option maxHeartbeats 400000 in
/-- What point t adds to the counts scratch at g. -/
theorem point_cnt (c : Dev nD) (t : Fin cfg3.N) (g : Fin 64) :
    ∑ n : Fin 10000, k3_pay5 (F := Ideal) (iblk3 V c 2 t) (ix2 n g) = ∑ n : Fin 10000, cntF V c g (10000 * t.val + n.val) := by
  obtain ⟨e00, e01, e10, e11, e20, e21, e30, e31, e40, e41, ht⟩ := idx_facts3 t
  refine Finset.sum_congr rfl fun n _ => ?_
  have hp : 10000 * t.val + n.val < 50000 := by have := n.isLt; omega
  refine (pay5_apply (iblk3 V c 2 t) n g).trans ?_
  unfold cntF idN
  rw [dif_pos hp, blk2_apply V c t n hp]

set_option maxHeartbeats 400000 in
/-- The sums scratch after point n, entry (g, d): the shares of the rows of blocks 0 … n. -/
theorem sumsAt_apply (c : Dev nD) (g : Fin 64) (d : Fin 128) : ∀ (n : ℕ) (h : n < cfg3.N),
    sumsAt V c n h (ix2 g d) = ∑ t ∈ Finset.range (n + 1), ∑ k : Fin 10000, poolF V c g d (10000 * t + k.val)
  | 0, h => by
    rw [sumsAt_zero, sumsNext_apply (iblk3 V c 0 ⟨0, h⟩) (iblk3 V c 1 ⟨0, h⟩) (iblk3 V c 2 ⟨0, h⟩) sums0 g d, sums0_apply, zero_add,
      point_sum V c ⟨0, h⟩ g d, Finset.sum_range_one]
  | n + 1, h => by
    rw [sumsAt_succ, sumsNext_apply (iblk3 V c 0 ⟨n + 1, h⟩) (iblk3 V c 1 ⟨n + 1, h⟩) (iblk3 V c 2 ⟨n + 1, h⟩) (sumsAt V c n (Nat.lt_of_succ_lt h)) g d,
      sumsAt_apply c g d n (Nat.lt_of_succ_lt h), point_sum V c ⟨n + 1, h⟩ g d, Finset.sum_range_succ _ (n + 1)]

set_option maxHeartbeats 400000 in
/-- The counts scratch after point n, entry g: the number of rows of blocks 0 … n whose id is g. -/
theorem cntsAt_apply (c : Dev nD) (g : Fin 64) : ∀ (n : ℕ) (h : n < cfg3.N),
    cntsAt V c n h (ix2 g (0 : Fin 1)) = ∑ t ∈ Finset.range (n + 1), ∑ k : Fin 10000, cntF V c g (10000 * t + k.val)
  | 0, h => by
    rw [cntsAt_zero, cntsNext_apply (iblk3 V c 2 ⟨0, h⟩) cnts0 g, cnts0_apply, zero_add, point_cnt V c ⟨0, h⟩ g, Finset.sum_range_one]
  | n + 1, h => by
    rw [cntsAt_succ, cntsNext_apply (iblk3 V c 2 ⟨n + 1, h⟩) (cntsAt V c n (Nat.lt_of_succ_lt h)) g,
      cntsAt_apply c g n (Nat.lt_of_succ_lt h), point_cnt V c ⟨n + 1, h⟩ g, Finset.sum_range_succ _ (n + 1)]

/-- After the last point the sums scratch holds, at (g, d), the shares of all 50000 rows. -/
theorem sumsAt_last (c : Dev nD) (g : Fin 64) (d : Fin 128) (h : 4 < cfg3.N) :
    sumsAt V c 4 h (ix2 g d) = ∑ p : Fin 50000, poolF V c g d p.val := by
  rw [sumsAt_apply V c g d 4 h]
  exact (sum_fin_blocks (poolF V c g d) 10000 5).symm

/-- After the last point the counts scratch holds, at g, the number of all rows whose id is g. -/
theorem cntsAt_last (c : Dev nD) (g : Fin 64) (h : 4 < cfg3.N) :
    cntsAt V c 4 h (ix2 g (0 : Fin 1)) = ∑ p : Fin 50000, cntF V c g p.val := by
  rw [cntsAt_apply V c g 4 h]
  exact (sum_fin_blocks (cntF V c g) 10000 5).symm

/-! ### The pooled result's one write-back -/

/-- An index of the pooled result is in point t's block iff each coordinate is in the block's range on its axis. -/
theorem mem_blk3p (t : Fin cfg3.N) (i : S64x128.Idx) :
    i ∈ ((cfg3.win 4).blk t).view.set ↔ ∀ a : Fin 2, win3_4.index t a * S64x128.size a ≤ (i a).val ∧ (i a).val < win3_4.index t a * S64x128.size a + S64x128.size a := by
  show i ∈ ((View.whole main_v67_1).slice (win3_4.rect t)).set ↔ _
  rw [View.set_slice_whole, Rect.mem_set_unit]
  exact Iff.rfl

set_option maxHeartbeats 400000 in
/-- The one point that writes the pooled result back is the last, and it writes the quotient of the two scratches as
    they stand after it, over the whole array. -/
theorem flushed3p_eq (c : Dev nD) (h4 : 4 < cfg3.N) (t : Fin cfg3.N) (hf : (cfg3.win 4).flush t = true) :
    (dat3 V c).flushed 4 t
      = ((cfg3.win 4).blk t).view.read (Elt Ideal) (pooledOut (sumsAt V c 4 h4) (cntsAt V c 4 h4)) := by
  obtain ⟨e00, e01, e10, e11, e20, e21, e30, e31, e40, e41, ht⟩ := idx_facts3 t
  have hv : t.val = 4 := by have := (flush3_4 t).mp hf; omega
  have et : t = ⟨4, h4⟩ := Fin.ext hv
  show (cfg3.win 4).cut (grid3.coords t) ((dat3 V c).after 4 t) = _
  rw [after3_4]
  funext j
  obtain ⟨p, q, rfl⟩ : ∃ (p : Fin 64) (q : Fin 128), j = ix2 p q := ⟨j 0, j 1, eq_ix2 j⟩
  show pooledOut (sumsAt V c t.val t.isLt) (cntsAt V c t.val t.isLt) (ix2 p q)
    = pooledOut (sumsAt V c 4 h4) (cntsAt V c 4 h4) (((cfg3.win 4).blk t).view.emb (ix2 p q))
  have hr : ((cfg3.win 4).blk t).view.emb (ix2 p q) = ix2 p q := by
    funext a; apply Fin.ext
    match a with
    | ⟨0, _⟩ => show win3_4.index t (0 : Fin 2) * 64 + 1 * p.val = p.val; omega
    | ⟨1, _⟩ => show win3_4.index t (1 : Fin 2) * 128 + 1 * q.val = q.val; omega
  rw [hr]
  subst et
  rfl

/-- The last point's block is the whole pooled result. -/
theorem cover3p (h4 : 4 < cfg3.N) (i : S64x128.Idx) :
    ∃ t : Fin cfg3.N, (cfg3.win 4).flush t = true ∧ i ∈ ((cfg3.win 4).blk t).view.set := by
  have hi0 : (i 0).val < 64 := (i 0).isLt
  have hi1 : (i 1).val < 128 := (i 1).isLt
  obtain ⟨e00, e01, e10, e11, e20, e21, e30, e31, e40, e41, ht⟩ := idx_facts3 ⟨4, h4⟩
  refine ⟨⟨4, h4⟩, (flush3_4 ⟨4, h4⟩).mpr rfl, ?_⟩
  rw [mem_blk3p]
  intro a
  match a with
  | ⟨0, _⟩ => show win3_4.index ⟨4, h4⟩ (0 : Fin 2) * 64 ≤ (i 0).val ∧ (i 0).val < win3_4.index ⟨4, h4⟩ (0 : Fin 2) * 64 + 64; omega
  | ⟨1, _⟩ => show win3_4.index ⟨4, h4⟩ (1 : Fin 2) * 128 ≤ (i 1).val ∧ (i 1).val < win3_4.index ⟨4, h4⟩ (1 : Fin 2) * 128 + 128; omega

/-- Region 3's second result array after the run: the quotient of the two scratches after the last point. -/
theorem final3p_blocks (c : Dev nD) (h4 : 4 < cfg3.N) :
    ((dat3 (F := Ideal) V c).arrAt 4 cfg3.N : FVec Ideal S64x128 .f32) = pooledOut (sumsAt V c 4 h4) (cntsAt V c 4 h4) :=
  (dat3 V c).arrAt_eq_of_cover 4 (pooledOut (sumsAt V c 4 h4) (cntsAt V c 4 h4)) (fun t hf => flushed3p_eq V c h4 t hf) (cover3p h4)

/-! ### The host's two segment sums at an index -/

set_option maxHeartbeats 400000 in
/-- The host's sums per graph id at (g, d): the shares of all 50000 rows. -/
theorem host_sums (c : Dev nD) (g : Fin 64) (d : Fin 128) :
    Host.scatterAdd (F := Ideal) (φ := .f32) Cert.ReferenceIdeal.scatter_S64x128_S50000x1_S50000x128_1_0_0_1
        (broadcastInDim S64x128 ![] Cert.ReferenceIdeal.Facts₀.bcast_S_S64x128 (constant (F := Ideal) S_ .f32 0x00000000#32))
        (V c main_v66 : IVec S50000x1 32) (relu2 (V c main_v64) (V c main_v65)) (ix2 g d)
      = ∑ p : Fin 50000, poolF V c g d p.val := by
  refine (Cert.LibRows.rowScatterAdd_apply (n := 64) (e := 50000) (c := 128)
    Cert.ReferenceIdeal.Facts₀.scatter_S64x128_S50000x1_S50000x128_1_0_0_1_wf
    (broadcastInDim S64x128 ![] Cert.ReferenceIdeal.Facts₀.bcast_S_S64x128 (constant (F := Ideal) S_ .f32 0x00000000#32))
    (V c main_v66 : IVec S50000x1 32) (relu2 (V c main_v64) (V c main_v65)) g d).trans ?_
  rw [broadcastInDim_scalar_apply, constant_apply, Ideal.ofBits_zero_f32, zero_add]
  refine Finset.sum_congr rfl fun p _ => ?_
  unfold poolF idN h2N
  rw [dif_pos p.isLt, dif_pos p.isLt, weight_mul]
  exact if_congr (word_eq_iff _ g).symm rfl rfl

set_option maxHeartbeats 400000 in
/-- The host's counts per graph id at g: the number of all rows whose id is g. -/
theorem host_cnts (c : Dev nD) (g : Fin 64) :
    Host.scatterAdd (F := Ideal) (φ := .f32) Cert.ReferenceIdeal.scatter_S64_S50000x1_S50000_n_0_0_1
        (broadcastInDim S64 ![] Cert.ReferenceIdeal.Facts₀.bcast_S_S64 (constant (F := Ideal) S_ .f32 0x00000000#32))
        (V c main_v66 : IVec S50000x1 32)
        (broadcastInDim S50000 ![] Cert.ReferenceIdeal.Facts₀.bcast_S_S50000 (constant (F := Ideal) S_ .f32 0x3F800000#32)) (ix1 g)
      = ∑ p : Fin 50000, cntF V c g p.val := by
  refine (Cert.LibRows.rowScatterAdd1_apply (n := 64) (e := 50000)
    Cert.ReferenceIdeal.Facts₀.scatter_S64_S50000x1_S50000_n_0_0_1_wf
    (broadcastInDim S64 ![] Cert.ReferenceIdeal.Facts₀.bcast_S_S64 (constant (F := Ideal) S_ .f32 0x00000000#32))
    (V c main_v66 : IVec S50000x1 32)
    (broadcastInDim S50000 ![] Cert.ReferenceIdeal.Facts₀.bcast_S_S50000 (constant (F := Ideal) S_ .f32 0x3F800000#32)) g).trans ?_
  rw [broadcastInDim_scalar_apply, constant_apply, Ideal.ofBits_zero_f32, zero_add]
  refine Finset.sum_congr rfl fun p _ => ?_
  unfold cntF idN
  rw [dif_pos p.isLt, broadcastInDim_scalar_apply, constant_apply, ofBits_one_f32]
  exact if_congr (word_eq_iff _ g).symm rfl rfl

/-- A vector of 64 entries laid as a column and then along 128 columns reads, at (g, d), its entry g. -/
theorem host_den_apply (X : FVec Ideal S64 .f32) (g : Fin 64) (d : Fin 128) :
    broadcastInDim S64x128 ![0, 1] Cert.ReferenceIdeal.Facts₀.bcast_S64x1_S64x128_0_1
      (broadcastInDim S64x1 ![0] Cert.ReferenceIdeal.Facts₀.bcast_S64_S64x1_0 X) (ix2 g d) = X (ix1 g) := by
  refine (broadcastInDim_apply ![0, 1] Cert.ReferenceIdeal.Facts₀.bcast_S64x1_S64x128_0_1 _ (ix2 g d) (ix2 g (0 : Fin 1)) (fun a => ?_)).trans
    (broadcastInDim_apply ![0] Cert.ReferenceIdeal.Facts₀.bcast_S64_S64x1_0 X (ix2 g (0 : Fin 1)) (ix1 g) (fun a => ?_))
  · match a with
    | ⟨0, _⟩ => show g.val = if (64 : ℕ) = 1 then 0 else g.val; rw [if_neg (by decide)]
    | ⟨1, _⟩ => show (0 : ℕ) = if (1 : ℕ) = 1 then 0 else d.val; rw [if_pos rfl]
  · match a with
    | ⟨0, _⟩ => show g.val = if (64 : ℕ) = 1 then 0 else g.val; rw [if_neg (by decide)]

set_option maxHeartbeats 400000 in
/-- Region 3's second result array after the run is the host's mean pool of the rectified second layer. -/
theorem final3p_relu2 (c : Dev nD) :
    ((dat3 (F := Ideal) V c).arrAt 4 cfg3.N : FVec Ideal S64x128 .f32)
      = Host.divf (F := Ideal) (φ := .f32)
          (Host.scatterAdd (F := Ideal) (φ := .f32) Cert.ReferenceIdeal.scatter_S64x128_S50000x1_S50000x128_1_0_0_1
            (broadcastInDim S64x128 ![] Cert.ReferenceIdeal.Facts₀.bcast_S_S64x128 (constant (F := Ideal) S_ .f32 0x00000000#32))
            (V c main_v66 : IVec S50000x1 32) (relu2 (V c main_v64) (V c main_v65)))
          (broadcastInDim S64x128 ![0, 1] Cert.ReferenceIdeal.Facts₀.bcast_S64x1_S64x128_0_1 (broadcastInDim S64x1 ![0] Cert.ReferenceIdeal.Facts₀.bcast_S64_S64x1_0
            (maximumf (F := Ideal) (φ := .f32)
              (Host.scatterAdd (F := Ideal) (φ := .f32) Cert.ReferenceIdeal.scatter_S64_S50000x1_S50000_n_0_0_1
                (broadcastInDim S64 ![] Cert.ReferenceIdeal.Facts₀.bcast_S_S64 (constant (F := Ideal) S_ .f32 0x00000000#32))
                (V c main_v66 : IVec S50000x1 32)
                (broadcastInDim S50000 ![] Cert.ReferenceIdeal.Facts₀.bcast_S_S50000 (constant (F := Ideal) S_ .f32 0x3F800000#32)))
              (broadcastInDim S64 ![] Cert.ReferenceIdeal.Facts₀.bcast_S_S64 (constant (F := Ideal) S_ .f32 0x3F800000#32))))) := by
  have h4 : 4 < cfg3.N := by decide
  rw [final3p_blocks V c h4]
  funext i
  obtain ⟨g, d, rfl⟩ : ∃ (g : Fin 64) (d : Fin 128), i = ix2 g d := ⟨i 0, i 1, eq_ix2 i⟩
  rw [pooledOut_apply, hostDivf_apply, host_den_apply, maximumf_apply, host_sums V c g d, host_cnts V c g,
    broadcastInDim_scalar_apply, constant_apply, ofBits_one_f32, sumsAt_last V c g d h4, cntsAt_last V c g h4]

end Cert.KernelIdeal.Hand

end
-- ==== Proof.KI.Val3.lean ====
/- Region 3's two results as arrays: the rectified sums of the second layer, and their means per graph id — the sums
   scratch after the last point is the sum over all 50000 rows of each row counted for its graph id, the counts scratch
   the number of rows of each graph id, and the quotient (counts at least one) is what the host's two segment sums give. -/
import proofs.«404703_j87608742904438_2_alg».proof.Proof.KI.R3
import proofs.«404703_j87608742904438_2_alg».proof.Proof.KI.Val3H
import proofs.«404703_j87608742904438_2_alg».proof.Proof.KI.Val3P
import proofs.«404703_j87608742904438_2_alg».proof.Proof.Gen.ReferenceIdeal
import proofs.«404703_j87608742904438_2_alg».proof.Proof.LibRows
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx
open scoped BigOperators

variable (V : (c : Dev nD) → (b : Ref sig .tc) → Buf (Elt Ideal) ((c : Thread nD τ).loc b))

/-- The rectified second layer, in the host's spelling. -/
def h2of (c : Dev nD) : FVec Ideal S50000x128 .f32 :=
  maximumf (F := Ideal) (φ := .f32) (addf (F := Ideal) (φ := .f32) (V c main_v64 : FVec Ideal S50000x128 .f32)
            (broadcastInDim S50000x128 ![0, 1] Cert.ReferenceIdeal.Facts₀.bcast_S1x128_S50000x128_0_1 (V c main_v65 : FVec Ideal S1x128 .f32)))
          (broadcastInDim S50000x128 ![] Cert.ReferenceIdeal.Facts₀.bcast_S_S50000x128 (constant (F := Ideal) S_ .f32 0x00000000#32))

/-- Region 3's first result array after the run. -/
theorem final3h (c : Dev nD) :
    ((dat3 (F := Ideal) V c).arrAt 3 cfg3.N : FVec Ideal S50000x128 .f32) = h2of V c :=
  final3h_relu2 V c

/-- Region 3's second result array after the run: the host's mean pool of the first result over the graph ids. -/
theorem final3p (c : Dev nD) :
    ((dat3 (F := Ideal) V c).arrAt 4 cfg3.N : FVec Ideal S64x128 .f32)
      = Host.divf (F := Ideal) (φ := .f32)
          (Host.scatterAdd (F := Ideal) (φ := .f32) Cert.ReferenceIdeal.scatter_S64x128_S50000x1_S50000x128_1_0_0_1
            (broadcastInDim S64x128 ![] Cert.ReferenceIdeal.Facts₀.bcast_S_S64x128 (constant (F := Ideal) S_ .f32 0x00000000#32))
            (V c main_v66 : IVec S50000x1 32) (h2of V c))
          (broadcastInDim S64x128 ![0, 1] Cert.ReferenceIdeal.Facts₀.bcast_S64x1_S64x128_0_1 (broadcastInDim S64x1 ![0] Cert.ReferenceIdeal.Facts₀.bcast_S64_S64x1_0
            (maximumf (F := Ideal) (φ := .f32)
              (Host.scatterAdd (F := Ideal) (φ := .f32) Cert.ReferenceIdeal.scatter_S64_S50000x1_S50000_n_0_0_1
                (broadcastInDim S64 ![] Cert.ReferenceIdeal.Facts₀.bcast_S_S64 (constant (F := Ideal) S_ .f32 0x00000000#32))
                (V c main_v66 : IVec S50000x1 32)
                (broadcastInDim S50000 ![] Cert.ReferenceIdeal.Facts₀.bcast_S_S50000 (constant (F := Ideal) S_ .f32 0x3F800000#32)))
              (broadcastInDim S64 ![] Cert.ReferenceIdeal.Facts₀.bcast_S_S64 (constant (F := Ideal) S_ .f32 0x3F800000#32))))) :=
  final3p_relu2 V c

end Cert.KernelIdeal.Hand

end
-- ==== Proof.KI.Bridge.lean ====
/- The kernel program's two results over the extended reals, as functions of its arguments. The valuations between the
   program's items are followed from the launch to the end: the stretches before region 0 leave the graph's index
   vectors and edge normalisation, which nothing later writes; region 0's array is the dense product of the features
   and the first weight; the next stretch aggregates it; region 1 adds the bias and rectifies; region 2 is the second
   dense product; the next stretch aggregates that; region 3's first array is the rectified second layer and its second
   the layer's mean per graph id. These are the shared host functions of the arguments, composed as the reference
   composes them. -/
import proofs.«404703_j87608742904438_2_alg».proof.Proof.KI.Run
import proofs.«404703_j87608742904438_2_alg».proof.Proof.KI.Host
import proofs.«404703_j87608742904438_2_alg».proof.Proof.KI.Val0
import proofs.«404703_j87608742904438_2_alg».proof.Proof.KI.Val1
import proofs.«404703_j87608742904438_2_alg».proof.Proof.KI.Val2
import proofs.«404703_j87608742904438_2_alg».proof.Proof.KI.Val3
import proofs.«404703_j87608742904438_2_alg».proof.Proof.Spec

set_option maxRecDepth 16384

noncomputable section

namespace Cert.KernelIdeal.Hand

open Idealize.ShloMosaic Idealize.ShloMosaic.TcCoe Idealize.SL.Sem
open Cert.KernelIdeal.Gen

variable (m : (ℓ : Loc nD τ sig) → Buf (Elt Ideal) ℓ) (ρ : Dev nD → PrngReg) (c : Dev nD)

/-! ## What no item after the first five stretches writes -/

/-- A buffer that neither region 0 nor the stretch after it writes holds at region 1's entry what it held at region 0's. -/
theorem W7_keep (b : Ref sig .tc) (h0 : ∀ w, Pipeline.arrRef spec0 w ≠ b) (h1 : b ∉ hostOps1_W) :
    W7 m ρ c (Proc.devRef .tc b) = W5 m ρ c (Proc.devRef .tc b) :=
  (StableHlo.after_of_writes_sub hostOps1 _ hostOps1_writes h1).trans (W6_of_ne m ρ c b h0)

/-- A buffer that nothing from region 0 to region 2 writes holds after region 2 what it held at region 0's entry. -/
theorem W9_keep (b : Ref sig .tc) (h0 : ∀ w, Pipeline.arrRef spec0 w ≠ b) (h1 : b ∉ hostOps1_W)
    (h2 : ∀ w, Pipeline.arrRef spec1 w ≠ b) (h3 : ∀ w, Pipeline.arrRef spec2 w ≠ b) :
    W9 m ρ c (Proc.devRef .tc b) = W5 m ρ c (Proc.devRef .tc b) :=
  (W9_of_ne m ρ c b h3).trans ((W8_of_ne m ρ c b h2).trans (W7_keep m ρ c b h0 h1))

/-! ## The two layers -/

/-- Region 0's array: the dense product of the features and the first weight. -/
theorem v35_eq : (W6 m ρ c main_v35 : FVec Ideal S50000x128 .f32)
    = Cert.Spec.dense (F := Ideal) (m ((c.tc : Thread nD τ).loc main_arg0)) (m ((c.tc : Thread nD τ).loc main_arg4)) := by
  refine (V6_v35 m ρ c).trans ((final0 (V5 m ρ) c).trans ?_)
  rw [V5_arg0, V5_arg4]
  rfl

/-- The stretch after region 0 aggregates it over the graph. -/
theorem v48_eq : (W7 m ρ c main_v48 : FVec Ideal S50000x128 .f32)
    = Cert.Spec.agg (F := Ideal) (Cert.Spec.dense (F := Ideal) (m ((c.tc : Thread nD τ).loc main_arg0)) (m ((c.tc : Thread nD τ).loc main_arg4)))
        (m ((c.tc : Thread nD τ).loc main_arg1)) (m ((c.tc : Thread nD τ).loc main_arg2)) := by
  refine (after1_v48 (W6 m ρ c)).trans ?_
  rw [v35_eq, W6_of_ne m ρ c main_v5 (by decide), W6_of_ne m ρ c main_v6 (by decide), W6_of_ne m ρ c main_v34 (by decide)]
  rw [show (W5 m ρ c main_v5 : IVec S1650000 32) = _ from V5_row m c, show (W5 m ρ c main_v6 : IVec S1650000 32) = _ from V5_col m c,
    show (W5 m ρ c main_v34 : FVec Ideal S1650000 .f32) = _ from V5_norm m c]
  rfl

/-- … and lays the first bias out as a row. -/
theorem v49_eq : (W7 m ρ c main_v49 : FVec Ideal S1x128 .f32) = Cert.Spec.biasRow (F := Ideal) (m ((c.tc : Thread nD τ).loc main_arg5)) := by
  refine (after1_v49 (W6 m ρ c)).trans ?_
  rw [W6_of_ne m ρ c main_arg5 (by decide)]
  exact congrArg (Cert.Spec.biasRow (F := Ideal)) (W5_launch m ρ c main_arg5 (by decide) (by decide) (by decide) (by decide) (by decide))

/-- Region 1's array: the first layer. -/
theorem v50_eq : (W8 m ρ c main_v50 : FVec Ideal S50000x128 .f32)
    = Cert.Spec.h1 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) := by
  refine (V8_v50 m ρ c).trans ((final1 (V7 m ρ) c).trans ?_)
  rw [show (V7 m ρ c main_v48 : FVec Ideal S50000x128 .f32) = _ from v48_eq m ρ c,
    show (V7 m ρ c main_v49 : FVec Ideal S1x128 .f32) = _ from v49_eq m ρ c]
  rfl

/-- Region 2's array: the dense product of the first layer and the second weight. -/
theorem v51_eq : (W9 m ρ c main_v51 : FVec Ideal S50000x128 .f32)
    = Cert.Spec.dense (F := Ideal) (Cert.Spec.h1 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5))) (m ((c.tc : Thread nD τ).loc main_arg6)) := by
  refine (V9_v51 m ρ c).trans ((final2 (V8 m ρ) c).trans ?_)
  rw [show (V8 m ρ c main_v50 : FVec Ideal S50000x128 .f32) = _ from v50_eq m ρ c, V8_arg6]
  rfl

/-- The stretch after region 2 aggregates it, -/
theorem v64_eq : (W10 m ρ c main_v64 : FVec Ideal S50000x128 .f32)
    = Cert.Spec.agg (F := Ideal) (Cert.Spec.dense (F := Ideal) (Cert.Spec.h1 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5))) (m ((c.tc : Thread nD τ).loc main_arg6)))
        (m ((c.tc : Thread nD τ).loc main_arg1)) (m ((c.tc : Thread nD τ).loc main_arg2)) := by
  refine (after3_v64 (W9 m ρ c)).trans ?_
  rw [v51_eq, W9_keep m ρ c main_v5 (by decide) (by decide) (by decide) (by decide),
    W9_keep m ρ c main_v6 (by decide) (by decide) (by decide) (by decide),
    W9_keep m ρ c main_v34 (by decide) (by decide) (by decide) (by decide)]
  rw [show (W5 m ρ c main_v5 : IVec S1650000 32) = _ from V5_row m c, show (W5 m ρ c main_v6 : IVec S1650000 32) = _ from V5_col m c,
    show (W5 m ρ c main_v34 : FVec Ideal S1650000 .f32) = _ from V5_norm m c]
  rfl

/-- lays the second bias out as a row -/
theorem v65_eq : (W10 m ρ c main_v65 : FVec Ideal S1x128 .f32) = Cert.Spec.biasRow (F := Ideal) (m ((c.tc : Thread nD τ).loc main_arg7)) := by
  refine (after3_v65 (W9 m ρ c)).trans ?_
  rw [W9_keep m ρ c main_arg7 (by decide) (by decide) (by decide) (by decide)]
  exact congrArg (Cert.Spec.biasRow (F := Ideal)) (W5_launch m ρ c main_arg7 (by decide) (by decide) (by decide) (by decide) (by decide))

/-- and the graph ids as a column. -/
theorem v66_eq : (W10 m ρ c main_v66 : IVec S50000x1 32) = Cert.Spec.idsCol (m ((c.tc : Thread nD τ).loc main_arg3)) := by
  refine (after3_v66 (W9 m ρ c)).trans ?_
  rw [W9_keep m ρ c main_arg3 (by decide) (by decide) (by decide) (by decide)]
  exact congrArg Cert.Spec.idsCol (W5_launch m ρ c main_arg3 (by decide) (by decide) (by decide) (by decide) (by decide))

/-- The rectified second layer, as region 3 states it, is the second layer. -/
theorem h2of_eq : h2of (V10 m ρ) c
    = Cert.Spec.h2 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7)) := by
  unfold h2of
  rw [show (V10 m ρ c main_v64 : FVec Ideal S50000x128 .f32) = _ from v64_eq m ρ c,
    show (V10 m ρ c main_v65 : FVec Ideal S1x128 .f32) = _ from v65_eq m ρ c]
  rfl

/-- THE FIRST RESULT: the second layer. -/
theorem out0_eq : (W11 m ρ c main_v67_0 : FVec Ideal S50000x128 .f32)
    = Cert.Spec.h2 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7)) :=
  (W11_out0 m ρ c).trans ((final3h (V10 m ρ) c).trans (h2of_eq m ρ c))

/-- THE SECOND RESULT: its mean per graph id. -/
theorem out1_eq : (W11 m ρ c main_v67_1 : FVec Ideal S64x128 .f32)
    = Cert.Spec.pool (F := Ideal) (Cert.Spec.h2 (F := Ideal) (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6)) (m ((c.tc : Thread nD τ).loc main_arg7)))
        (Cert.Spec.idsCol (m ((c.tc : Thread nD τ).loc main_arg3))) := by
  refine (W11_out1 m ρ c).trans ((final3p (V10 m ρ) c).trans ?_)
  rw [h2of_eq, show (V10 m ρ c main_v66 : IVec S50000x1 32) = _ from v66_eq m ρ c]
  rfl

end Cert.KernelIdeal.Hand

end
-- ==== Proof.KB.R0.lean ====
/- Region 0 of the program: the first dense product. At each of the five grid points the body reads a block of
   10000 rows of the feature matrix and the whole 128×128 weight, and stores their matrix product (into a zero
   accumulator) over the whole output block. Stated at a parameter `V`, the buffer contents when the region is entered. -/
import proofs.«404703_j87608742904438_2_alg».proof.Proof.Gen.Kernel.Launch
import proofs.«404703_j87608742904438_2_alg».proof.Proof.Gen.Kernel.Skeleton
import proofs.«404703_j87608742904438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether it was fetched there or the index map
    did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body touches in each 10000×128 buffer: all of it. -/
abbrev rA0 : Rect S10000x128 := Rect.unit (s := S10000x128) ![0, 0] S10000x128.size inb_S10000x128_S10000x128_0_0
abbrev rW0 : Rect S128x128 := Rect.unit (s := S128x128) ![0, 0] S128x128.size inb_S128x128_S128x128_0_0

/-- What the body leaves in the output block: the product of the row block and the weight. -/
def out0_2 (x0 : Vec F S10000x128 .f32) (x1 : Vec F S128x128 .f32) : Vec F S10000x128 .f32 :=
  View.canon [⟨rA0, k0_pay1 (View.ld x0 rA0) (View.ld x1 rW0)⟩]

theorem cover0_2 (p0 : Vec F S10000x128 .f32) (y : S10000x128.Idx) :
    ∃ pc ∈ ([⟨rA0, p0⟩] : List (View.Piece (Elt F) S10000x128 .f32)), y ∈ pc.1.set :=
  View.cover_of_tiled [⟨rA0, p0⟩] S10000x128.size (by rfl) y

set_option maxHeartbeats 1000000 in
/-- The body on whole staging buffers: the inputs come back as they were, the output holds `out0_2` of them. -/
theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.R1.lean ====
/- Region 1 of the program: bias and rectifier of the first layer. At each of the five grid points the body reads a block of the aggregated messages,
   10000 rows, and the 1×128 bias row, and stores the larger of zero and their sum (the bias broadcast along the rows;
   no accumulator) over the whole output block. Stated at a parameter `V`, the buffer contents when the region is entered. -/
import proofs.«404703_j87608742904438_2_alg».proof.Proof.Gen.Kernel.Launch
import proofs.«404703_j87608742904438_2_alg».proof.Proof.Gen.Kernel.Skeleton
import proofs.«404703_j87608742904438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether it was fetched there or the index map
    did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body touches in each 10000×128 buffer: all of it. -/
abbrev rA1 : Rect S10000x128 := Rect.unit (s := S10000x128) ![0, 0] S10000x128.size inb_S10000x128_S10000x128_0_0
abbrev rW1 : Rect S1x128 := Rect.unit (s := S1x128) ![0, 0] S1x128.size inb_S1x128_S1x128_0_0

/-- What the body leaves in the output block: the rectified sum of the row block and the bias row. -/
def out1_2 (x0 : Vec F S10000x128 .f32) (x1 : Vec F S1x128 .f32) : Vec F S10000x128 .f32 :=
  View.canon [⟨rA1, k1_pay1 (View.ld x0 rA1) (View.ld x1 rW1)⟩]

theorem cover1_2 (p0 : Vec F S10000x128 .f32) (y : S10000x128.Idx) :
    ∃ pc ∈ ([⟨rA1, p0⟩] : List (View.Piece (Elt F) S10000x128 .f32)), y ∈ pc.1.set :=
  View.cover_of_tiled [⟨rA1, p0⟩] S10000x128.size (by rfl) y

set_option maxHeartbeats 1000000 in
/-- The body on whole staging buffers: the inputs come back as they were, the output holds `out1_2` of them. -/
theorem sound_kernel1 (c : Dev nD) (E : Set ℕ) (i : grid1.Coords) (arg1 : Memref sig .tc .vmem S10000x128 .f32) (harg1 : arg1.IsWhole)
    (arg2 : Memref sig .tc .vmem S1x128 .f32) (harg2 : arg2.IsWhole) (arg3 : Memref sig .tc .vmem S10000x128 .f32) (harg3 : arg3.IsWhole)
    (x0 : Vec F S10000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.R2.lean ====
/- Region 2 of the program: the second dense product. At each of the five grid points the body reads a block of
   10000 rows of the hidden layer and the whole 128×128 weight, and stores their matrix product (into a zero
   accumulator) over the whole output block. Stated at a parameter `V`, the buffer contents when the region is entered. -/
import proofs.«404703_j87608742904438_2_alg».proof.Proof.Gen.Kernel.Launch
import proofs.«404703_j87608742904438_2_alg».proof.Proof.Gen.Kernel.Skeleton
import proofs.«404703_j87608742904438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether it was fetched there or the index map
    did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches in each 10000×128 buffer: all of it. -/
abbrev rA2 : Rect S10000x128 := Rect.unit (s := S10000x128) ![0, 0] S10000x128.size inb_S10000x128_S10000x128_0_0
abbrev rW2 : Rect S128x128 := Rect.unit (s := S128x128) ![0, 0] S128x128.size inb_S128x128_S128x128_0_0

/-- What the body leaves in the output block: the product of the row block and the weight. -/
def out2_2 (x0 : Vec F S10000x128 .f32) (x1 : Vec F S128x128 .f32) : Vec F S10000x128 .f32 :=
  View.canon [⟨rA2, k2_pay1 (View.ld x0 rA2) (View.ld x1 rW2)⟩]

theorem cover2_2 (p0 : Vec F S10000x128 .f32) (y : S10000x128.Idx) :
    ∃ pc ∈ ([⟨rA2, p0⟩] : List (View.Piece (Elt F) S10000x128 .f32)), y ∈ pc.1.set :=
  View.cover_of_tiled [⟨rA2, p0⟩] S10000x128.size (by rfl) y

set_option maxHeartbeats 1000000 in
/-- The body on whole staging buffers: the inputs come back as they were, the output holds `out2_2` of them. -/
theorem sound_kernel2 (c : Dev nD) (E : Set ℕ) (i : grid2.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole)
    (x0 : Vec F S10000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.R3Defs.lean ====
/- Region 3 of the program, the values: bias, rectifier and the mean pool of the second layer. At grid point t the body
   reads a block of 10000 rows of the aggregated messages, the bias row and the block's 10000 graph ids; it stores the
   rectified sums as the block of the first result, adds to a 64×128 scratch the sums of the block's rows per graph id
   (a one-hot matrix product) and to a 64×1 scratch the block's row counts per graph id, both scratches zeroed at the
   first point, and at the last point stores the quotient of the sums by the counts (at least one) as the second result.
   Here: what each buffer holds after a point, as pure functions of what the point reads. -/
import proofs.«404703_j87608742904438_2_alg».proof.Proof.Gen.Kernel.Launch
import proofs.«404703_j87608742904438_2_alg».proof.Proof.Gen.Kernel.Skeleton
import proofs.«404703_j87608742904438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of each buffer the body touches. -/
abbrev rA3 : Rect S10000x128 := Rect.unit (s := S10000x128) ![0, 0] S10000x128.size inb_S10000x128_S10000x128_0_0
abbrev rB3 : Rect S1x128 := Rect.unit (s := S1x128) ![0, 0] S1x128.size inb_S1x128_S1x128_0_0
abbrev rT3 : Rect S10000x1 := Rect.unit (s := S10000x1) ![0, 0] S10000x1.size inb_S10000x1_S10000x1_0_0
abbrev rS3 : Rect S64x128 := Rect.unit (s := S64x128) ![0, 0] S64x128.size inb_S64x128_S64x128_0_0
abbrev rC3 : Rect S64x1 := Rect.unit (s := S64x1) ![0, 0] S64x1.size inb_S64x1_S64x1_0_0

/-- The block of the first result: the rectified sum of the row block and the bias row. -/
def hOut3 (x : Vec F S10000x128 .f32) (b : Vec F S1x128 .f32) : Vec F S10000x128 .f32 :=
  View.canon [⟨rA3, k3_pay4 (View.ld x rA3) (View.ld b rB3)⟩]

/-- The sums scratch after a point, from what it held before. -/
def sumsNext (x : Vec F S10000x128 .f32) (b : Vec F S1x128 .f32) (bt : Vec F S10000x1 .i32) (S : Vec F S64x128 .f32) : Vec F S64x128 .f32 :=
  View.canon [⟨rS3, k3_pay6 (View.ld x rA3) (View.ld b rB3) (View.ld bt rT3) (View.ld S rS3)⟩]

/-- The counts scratch after a point, from what it held before. -/
def cntsNext (bt : Vec F S10000x1 .i32) (C : Vec F S64x1 .f32) : Vec F S64x1 .f32 :=
  View.canon [⟨rC3, k3_pay7 (View.ld bt rT3) (View.ld C rC3)⟩]

/-- The two scratches as the first point resets them: zeros. -/
def sums0 : Vec F S64x128 .f32 := View.canon [⟨rS3, k3_pay2 (F := F)⟩]
def cnts0 : Vec F S64x1 .f32 := View.canon [⟨rC3, k3_pay3 (F := F)⟩]

/-- The second result as the last point stores it: the sums divided by the counts, at least one. -/
def pooledOut (S : Vec F S64x128 .f32) (C : Vec F S64x1 .f32) : Vec F S64x128 .f32 :=
  View.canon [⟨rS3, k3_pay1 (View.ld S rS3) (View.ld C rC3)⟩]

/-- The sums scratch after point `n`: the fold of `sumsNext` over the blocks 0 … n, from zeros. -/
def sumsAt (c : Dev nD) : (n : ℕ) → n < cfg3.N → Vec F S64x128 .f32
  | 0, h => sumsNext (iblk3 V c 0 ⟨0, h⟩) (iblk3 V c 1 ⟨0, h⟩) (iblk3 V c 2 ⟨0, h⟩) sums0
  | n + 1, h => sumsNext (iblk3 V c 0 ⟨n + 1, h⟩) (iblk3 V c 1 ⟨n + 1, h⟩) (iblk3 V c 2 ⟨n + 1, h⟩) (sumsAt c n (Nat.lt_of_succ_lt h))

/-- The counts scratch after point `n`. -/
def cntsAt (c : Dev nD) : (n : ℕ) → n < cfg3.N → Vec F S64x1 .f32
  | 0, h => cntsNext (iblk3 V c 2 ⟨0, h⟩) cnts0
  | n + 1, h => cntsNext (iblk3 V c 2 ⟨n + 1, h⟩) (cntsAt c n (Nat.lt_of_succ_lt h))

theorem sumsAt_zero (c : Dev nD) (h : 0 < cfg3.N) :
    sumsAt V c 0 h = sumsNext (iblk3 V c 0 ⟨0, h⟩) (iblk3 V c 1 ⟨0, h⟩) (iblk3 V c 2 ⟨0, h⟩) sums0 := rfl
theorem sumsAt_succ (c : Dev nD) (n : ℕ) (h : n + 1 < cfg3.N) :
    sumsAt V c (n + 1) h = sumsNext (iblk3 V c 0 ⟨n + 1, h⟩) (iblk3 V c 1 ⟨n + 1, h⟩) (iblk3 V c 2 ⟨n + 1, h⟩) (sumsAt V c n (Nat.lt_of_succ_lt h)) := rfl
theorem cntsAt_zero (c : Dev nD) (h : 0 < cfg3.N) :
    cntsAt V c 0 h = cntsNext (iblk3 V c 2 ⟨0, h⟩) cnts0 := rfl
theorem cntsAt_succ (c : Dev nD) (n : ℕ) (h : n + 1 < cfg3.N) :
    cntsAt V c (n + 1) h = cntsNext (iblk3 V c 2 ⟨n + 1, h⟩) (cntsAt V c n (Nat.lt_of_succ_lt h)) := rfl

end Cert.Kernel.Hand

end
-- ==== Proof.KB.R3.lean ====
/- Region 3 of the program, the run: the body's triple at each of its three kinds of grid point (the first, which zeroes
   the two scratch accumulators; the middle ones; the last, which also stores the pooled means), the region's proof data
   with the accumulators tracked from point to point, and the body obligation. -/
import proofs.«404703_j87608742904438_2_alg».proof.Proof.KB.R3Defs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first branch condition: the grid coordinate is zero. -/
abbrev cond3_0 (i : grid3.Coords) : Prop := (Scalar.cmpi .ne (Scalar.extui (Scalar.cmpi .eq (BitVec.ofNat 32 (i 0).val) 0#32)) 0#32) = 1#1
/-- It holds exactly at the first point. -/
theorem hcond3_0 : ∀ t : Fin cfg3.N, cond3_0 (grid3.coords t) ↔ t.val = 0 :=
  (by decide +kernel : ∀ t : Fin grid3.N, cond3_0 (grid3.coords t) ↔ t.val = 0)
/-- The body's second branch condition: the grid coordinate is four. -/
abbrev cond3_1 (i : grid3.Coords) : Prop := k3_cond2 i = 1#1
/-- It holds exactly at the last point. -/
theorem hcond3_1 : ∀ t : Fin cfg3.N, cond3_1 (grid3.coords t) ↔ t.val = 4 :=
  (by decide +kernel : ∀ t : Fin grid3.N, cond3_1 (grid3.coords t) ↔ t.val = 4)

/-- Two zero offsets, however spelt. -/
theorem zoff3 : (![0, 0] : Fin 2 → Nat) = fun _ => 0 := funext fun a => by fin_cases a <;> rfl

/-- A load through the whole of a buffer reads its contents. -/
theorem ldA3 (X : Vec F S10000x128 .f32) : View.ld X rA3 = X := View.ld_unit_zero zoff3 _ X
theorem ldS3 (X : Vec F S64x128 .f32) : View.ld X rS3 = X := View.ld_unit_zero zoff3 _ X
theorem ldC3 (X : Vec F S64x1 .f32) : View.ld X rC3 = X := View.ld_unit_zero zoff3 _ X

/-- One store through the whole of a buffer leaves its payload. -/
theorem sumsNext_pay (x : Vec F S10000x128 .f32) (b : Vec F S1x128 .f32) (bt : Vec F S10000x1 .i32) (S : Vec F S64x128 .f32) :
    sumsNext x b bt S = k3_pay6 (View.ld x rA3) (View.ld b rB3) (View.ld bt rT3) (View.ld S rS3) :=
  View.canon_unit_zero zoff3 _ _
theorem cntsNext_pay (bt : Vec F S10000x1 .i32) (C : Vec F S64x1 .f32) :
    cntsNext bt C = k3_pay7 (View.ld bt rT3) (View.ld C rC3) :=
  View.canon_unit_zero zoff3 _ _
theorem sums0_pay : sums0 (F := F) = k3_pay2 (F := F) := View.canon_unit_zero zoff3 _ _
theorem cnts0_pay : cnts0 (F := F) = k3_pay3 (F := F) := View.canon_unit_zero zoff3 _ _

/-- The last store through the whole of a buffer covers it, whatever was stored before. -/
theorem cover3_A (p0 : Vec F S10000x128 .f32) (L : List (View.Piece (Elt F) S10000x128 .f32)) (y : S10000x128.Idx) :
    ∃ pc ∈ ((⟨rA3, p0⟩ :: L : List (View.Piece (Elt F) S10000x128 .f32))), y ∈ pc.1.set :=
  ⟨_, List.mem_cons.mpr (Or.inl rfl), View.mem_set_unit_zero (S := S10000x128) zoff3 inb_S10000x128_S10000x128_0_0 y⟩
theorem cover3_S (p0 : Vec F S64x128 .f32) (L : List (View.Piece (Elt F) S64x128 .f32)) (y : S64x128.Idx) :
    ∃ pc ∈ ((⟨rS3, p0⟩ :: L : List (View.Piece (Elt F) S64x128 .f32))), y ∈ pc.1.set :=
  ⟨_, List.mem_cons.mpr (Or.inl rfl), View.mem_set_unit_zero (S := S64x128) zoff3 inb_S64x128_S64x128_0_0 y⟩
theorem cover3_C (p0 : Vec F S64x1 .f32) (L : List (View.Piece (Elt F) S64x1 .f32)) (y : S64x1.Idx) :
    ∃ pc ∈ ((⟨rC3, p0⟩ :: L : List (View.Piece (Elt F) S64x1 .f32))), y ∈ pc.1.set :=
  ⟨_, List.mem_cons.mpr (Or.inl rfl), View.mem_set_unit_zero (S := S64x1) zoff3 inb_S64x1_S64x1_0_0 y⟩

set_option maxHeartbeats 1000000 in
/-- The first point: the accumulators, whatever they held, are zeroed and advanced from zeros; the first result's block is
    stored; the inputs and the second result's buffer come back as they were. -/
theorem sound_kernel3_A (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x1 .i32) (harg3 : arg3.IsWhole) (arg4 : Memref sig .tc .vmem S10000x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x1 .f32) (harg7 : arg7.IsWhole) (hc0 : cond3_0 i) (hc1 : ¬cond3_1 i)
    (x : Vec F S10000x128 .f32) (b : Vec F S1x128 .f32) (bt : Vec F S10000x1 .i32) (P : Vec F S64x128 .f32) (K : PUnit → sProp 𝕄) :
    iprop(owns (c : Thread nD τ) arg1 fullShare x ∗ owns (c : Thread nD τ) arg2 fullShare b ∗ owns (c : Thread nD τ) arg3 fullShare bt
        ∗ (∃ d, owns (c : Thread nD τ) arg4 fullShare d) ∗ owns (c : Thread nD τ) arg5 fullShare P
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare b ∗ owns (c : Thread nD τ) arg3 fullShare bt
            ∗ owns (c : Thread nD τ) arg4 fullShare (hOut3 x b) ∗ owns (c : Thread nD τ) arg5 fullShare P
            ∗ owns (c : Thread nD τ) arg6 fullShare (sumsNext x b bt sums0) ∗ owns (c : Thread nD τ) arg7 fullShare (cntsNext bt cnts0)) -∗ K ⟨⟩))
      ⊢ wp frame (wpE (defs₀ (F := F)) Variants.none c none) E (cc3__bias_relu_pool_kernel i arg1 harg1 arg2 harg2 arg3 harg3 arg4 harg4 arg5 harg5 arg6 harg6 arg7 harg7) K := by
  simp only [cc3__bias_relu_pool_kernel_eq_skeleton]; unfold cc3__bias_relu_pool_kernel_skel
  simp only [k3_part1_eq_skeleton]; unfold k3_part1_skel
  unfold owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
  subst hf1; subst hf2; subst hf3; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_A _ _)
  isplitl [H5]
  · iexists f5; isplitr; · ipureintro; rfl
    iexact H5
  isplitl [H6]
  · iexists _; isplitr
    swap; · iexact H6
    ipureintro
    refine (View.read_writes_eq_canon _ _ _ (cover3_S _ _)).trans ?_
    sl_unfold_words
    refine (View.canon_cons_unit_zero zoff3 _ _ _).trans ?_
    refine Eq.trans ?_ (sumsNext_pay _ _ _ _).symm
    exact congrArg (k3_pay6 _ _ _) ((View.readCov_unit_zero _ zoff3 _ _).trans ((ldS3 _).trans sums0_pay).symm)
  iexists _; isplitr
  swap; · iexact H7
  ipureintro
  refine (View.read_writes_eq_canon _ _ _ (cover3_C _ _)).trans ?_
  sl_unfold_words
  refine (View.canon_cons_unit_zero zoff3 _ _ _).trans ?_
  refine Eq.trans ?_ (cntsNext_pay _ _).symm
  exact congrArg (k3_pay7 _) ((View.readCov_unit_zero _ zoff3 _ _).trans ((ldC3 _).trans cnts0_pay).symm)

set_option maxHeartbeats 1000000 in
/-- A middle point: the accumulators are advanced from what they held; the first result's block is stored; the inputs and
    the second result's buffer come back as they were. -/
theorem sound_kernel3_B (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x1 .i32) (harg3 : arg3.IsWhole) (arg4 : Memref sig .tc .vmem S10000x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : ¬cond3_1 i)
    (x : Vec F S10000x128 .f32) (b : Vec F S1x128 .f32) (bt : Vec F S10000x1 .i32) (P : Vec F S64x128 .f32) (S : Vec F S64x128 .f32) (C : Vec F S64x1 .f32) (K : PUnit → sProp 𝕄) :
    iprop(owns (c : Thread nD τ) arg1 fullShare x ∗ owns (c : Thread nD τ) arg2 fullShare b ∗ owns (c : Thread nD τ) arg3 fullShare bt
        ∗ (∃ d, owns (c : Thread nD τ) arg4 fullShare d) ∗ owns (c : Thread nD τ) arg5 fullShare P
        ∗ owns (c : Thread nD τ) arg6 fullShare S ∗ owns (c : Thread nD τ) arg7 fullShare C
        ∗ (iprop(owns (c : Thread nD τ) arg1 fullShare x ∗ owns (c : Thread nD τ) arg2 fullShare b ∗ owns (c : Thread nD τ) arg3 fullShare bt
            ∗ owns (c : Thread nD τ) arg4 fullShare (hOut3 x b) ∗ owns (c : Thread nD τ) arg5 fullShare P
            ∗ owns (c : Thread nD τ) arg6 fullShare (sumsNext x b bt S) ∗ owns (c : Thread nD τ) arg7 fullShare (cntsNext bt C)) -∗ K ⟨⟩))
      ⊢ wp frame (wpE (defs₀ (F := F)) Variants.none c none) E (cc3__bias_relu_pool_kernel i arg1 harg1 arg2 harg2 arg3 harg3 arg4 harg4 arg5 harg5 arg6 harg6 arg7 harg7) K := by
  simp only [cc3__bias_relu_pool_kernel_eq_skeleton]; unfold cc3__bias_relu_pool_kernel_skel
  simp only [k3_part1_eq_skeleton]; unfold k3_part1_skel
  unfold owns
  iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
  subst hf1; subst hf2; subst hf3; subst hf5; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_A _ _)
  isplitl [H5]
  · iexists f5; isplitr; · ipureintro; rfl
    iexact H5
  isplitl [H6]
  · iexists _; isplitr
    swap; · iexact H6
    ipureintro
    exact View.read_writes_eq_canon _ _ _ (cover3_S _ _)
  iexists _; isplitr
  swap; · iexact H7
  ipureintro
  exact View.read_writes_eq_canon _ _ _ (cover3_C _ _)

set_option maxHeartbeats 1000000 in
/-- The last point: as a middle point, and the quotient of the advanced accumulators is stored over the second result's
    buffer, whatever it held. -/
theorem sound_kernel3_C (c : Dev nD) (E : Set ℕ) (i : grid3.Coords) (arg1 : Memref sig .tc .vmem S10000x128 .f32) (harg1 : arg1.IsWhole) (arg2 : Memref sig .tc .vmem S1x128 .f32) (harg2 : arg2.IsWhole) (arg3 : Memref sig .tc .vmem S10000x1 .i32) (harg3 : arg3.IsWhole) (arg4 : Memref sig .tc .vmem S10000x128 .f32) (harg4 : arg4.IsWhole) (arg5 : Memref sig .tc .vmem S64x128 .f32) (harg5 : arg5.IsWhole) (arg6 : Memref sig .tc .vmem S64x128 .f32) (harg6 : arg6.IsWhole) (arg7 : Memref sig .tc .vmem S64x1 .f32) (harg7 : arg7.IsWhole) (hc0 : ¬cond3_0 i) (hc1 : cond3_1 i)
    (x : Vec F S10000x128 .f32) (b : Vec F S1x128 .f32) (bt : Vec F S10000x1 .i32) (S : Vec F S64x128 .f32) (C : Vec F S64x1 .f32) (K : PUnit → sProp 𝕄) :
    iprop(owns (c : Thread nD τ) arg1 fullShare x ∗ owns (c : Thread nD τ) arg2 fullShare b ∗ owns (c : Thread nD τ) arg3 fullShare bt
        ∗ (∃ d, owns (c : Thread nD τ) arg4 fullShare d) ∗ (∃ d, owns (c : Thread nD τ) arg5 fullShare d)
        ∗ owns (c : Thread nD τ) arg6 fullShare S ∗ owns (c : Thread nD τ) arg7 fullShare C
        ∗ (iprop(owns (c : Thread nD τ) arg1 fullShare x ∗ owns (c : Thread nD τ) arg2 fullShare b ∗ owns (c : Thread nD τ) arg3 fullShare bt
            ∗ owns (c : Thread nD τ) arg4 fullShare (hOut3 x b) ∗ owns (c : Thread nD τ) arg5 fullShare (pooledOut (sumsNext x b bt S) (cntsNext bt C))
            ∗ owns (c : Thread nD τ) arg6 fullShare (sumsNext x b bt S) ∗ owns (c : Thread nD τ) arg7 fullShare (cntsNext bt C)) -∗ K ⟨⟩))
      ⊢ wp frame (wpE (defs₀ (F := F)) Variants.none c none) E (cc3__bias_relu_pool_kernel i arg1 harg1 arg2 harg2 arg3 harg3 arg4 harg4 arg5 harg5 arg6 harg6 arg7 harg7) K := by
  simp only [cc3__bias_relu_pool_kernel_eq_skeleton]; unfold cc3__bias_relu_pool_kernel_skel
  simp only [k3_part1_eq_skeleton]; unfold k3_part1_skel
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  subst hf1; subst hf2; subst hf3; subst hf6; subst hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover3_A _ _)
  isplitl [H5]
  · iexists _; isplitr
    swap; · iexact H5
    ipureintro
    refine (View.read_writes_eq_canon _ _ _ (cover3_S _ _)).trans ?_
    sl_unfold_words
    unfold pooledOut
    refine congrArg₂ (fun p q => View.canon [(⟨rS3, k3_pay1 p q⟩ : View.Piece (Elt F) S64x128 .f32)]) ?_ ?_
    · exact ((View.readCov_unit_zero _ zoff3 _ _).trans (sumsNext_pay _ _ _ _).symm).trans (ldS3 _).symm
    · exact ((View.readCov_unit_zero _ zoff3 _ _).trans (cntsNext_pay _ _).symm).trans (ldC3 _).symm
  isplitl [H6]
  · iexists _; isplitr
    swap; · iexact H6
    ipureintro
    sl_unfold_words
    exact View.read_writes_eq_canon _ _ _ (cover3_S _ _)
  iexists _; isplitr
  swap; · iexact H7
  ipureintro
  sl_unfold_words
  exact View.read_writes_eq_canon _ _ _ (cover3_C _ _)

/-- An input window's staging buffer holds its block at every point, whether it was fetched there or the index map
    did not move. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The two scratch accumulators, whole scoped buffers of the kernel's own. -/
abbrev scS3 : Memref sig .tc .vmem S64x128 .f32 := Memref.whole cc3_scratch0
abbrev scC3 : Memref sig .tc .vmem S64x1 .f32 := Memref.whole cc3_scratch1

/-- The staging buffers of the other three regions — scoped, idle while this region runs, each at some contents — beside `T`. -/
def idle3 (c : Dev nD) (T : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ T)

/-- The region invariant before point `n`: before the first the class's (every scoped buffer at anything); afterwards the
    sums and counts accumulators at what the point before left. -/
def Phi3 (c : Dev nD) : (n : ℕ) → n ≤ cfg3.N → sProp 𝕄
  | 0, _ => Pipeline.ΦA spec3 c
  | n + 1, hn => iprop(idle3 c iprop(owns (c : Thread nD τ) scS3 fullShare (sumsAt V c n hn) ∗ owns (c : Thread nD τ) scC3 fullShare (cntsAt V c n hn)) ∗ (∃ r, prngReg c r))

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => hOut3 (iblk3 V c 0 t) (iblk3 V c 1 t)
    | ⟨4, _⟩ => pooledOut (sumsAt V c t.val t.isLt) (cntsAt V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = hOut3 (iblk3 V c 0 t) (iblk3 V c 1 t) := by dsimp only [dat3]
theorem after3_4 (c : Dev nD) (t : Fin cfg3.N) :
    (dat3 V c).after 4 t = pooledOut (sumsAt V c t.val t.isLt) (cntsAt V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The inputs and the first result are live at every point; the second result is idle, and not written back, at every
    point but the last, where it is live. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel

/-- The class's invariant with the other regions' staging buffers listed and the two accumulators owned as memrefs. -/
theorem PhiA3_eq (c : Dev nD) :
    (Pipeline.ΦA spec3 c : sProp 𝕄)
      = iprop(idle3 c iprop((∃ d, owns (c : Thread nD τ) scS3 fullShare d) ∗ (∃ d, owns (c : Thread nD τ) scC3 fullShare d)) ∗ (∃ r, prngReg c r)) := by
  unfold Pipeline.ΦA idle3; rw [scopedRest3_eq]; simp only [scS3, scC3, owns_whole]; try rfl

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(idle3 c iprop(owns (c : Thread nD τ) scS3 fullShare (sumsAt V c n hn) ∗ owns (c : Thread nD τ) scC3 fullShare (cntsAt V c n hn)) ∗ (∃ r, prngReg c r)) := rfl

theorem Phi3_pos (c : Dev nD) (n : ℕ) (h : n ≤ cfg3.N) (hz : n ≠ 0) :
    Phi3 V c n h = iprop(idle3 c iprop(owns (c : Thread nD τ) scS3 fullShare (sumsAt V c (n - 1) (by omega)) ∗ owns (c : Thread nD τ) scC3 fullShare (cntsAt V c (n - 1) (by omega))) ∗ (∃ r, prngReg c r)) := by
  cases n with
  | zero => exact absurd rfl hz
  | succ n => rfl

theorem Phi3_castSucc (c : Dev nD) (t : Fin cfg3.N) :
    (dat3 V c).Φ t.castSucc = Phi3 V c t.val (Nat.le_of_lt t.isLt) := by
  dsimp only [dat3]; simp only [Fin.coe_castSucc]

/-- The accumulators after a point, from what they held before it. -/
theorem sumsAt_first (c : Dev nD) (t : Fin cfg3.N) (hz : t.val = 0) :
    sumsAt V c t.val t.isLt = sumsNext (iblk3 V c 0 t) (iblk3 V c 1 t) (iblk3 V c 2 t) sums0 := by
  obtain ⟨n, hn⟩ := t
  cases n with
  | zero => rfl
  | succ n => exact absurd hz (Nat.succ_ne_zero n)
theorem cntsAt_first (c : Dev nD) (t : Fin cfg3.N) (hz : t.val = 0) :
    cntsAt V c t.val t.isLt = cntsNext (iblk3 V c 2 t) cnts0 := by
  obtain ⟨n, hn⟩ := t
  cases n with
  | zero => rfl
  | succ n => exact absurd hz (Nat.succ_ne_zero n)
theorem sumsAt_pos (c : Dev nD) (t : Fin cfg3.N) (hz : t.val ≠ 0) :
    sumsAt V c t.val t.isLt = sumsNext (iblk3 V c 0 t) (iblk3 V c 1 t) (iblk3 V c 2 t) (sumsAt V c (t.val - 1) (Nat.lt_of_le_of_lt (Nat.sub_le _ _) t.isLt)) := by
  obtain ⟨n, hn⟩ := t
  cases n with
  | zero => exact absurd rfl hz
  | succ n => rfl
theorem cntsAt_pos (c : Dev nD) (t : Fin cfg3.N) (hz : t.val ≠ 0) :
    cntsAt V c t.val t.isLt = cntsNext (iblk3 V c 2 t) (cntsAt V c (t.val - 1) (Nat.lt_of_le_of_lt (Nat.sub_le _ _) t.isLt)) := by
  obtain ⟨n, hn⟩ := t
  cases n with
  | zero => exact absurd rfl hz
  | succ n => rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

theorem leaves3_0 (c : Dev nD) (t : Fin cfg3.N) :
    (dat3 V c).leavesExact 0 t = owns (c : Thread nD τ) (st3_0 t) fullShare (iblk3 V c 0 t) := by
  unfold Dat.leavesExact; rw [liveAt3_0 t, after3_0]
theorem leaves3_1 (c : Dev nD) (t : Fin cfg3.N) :
    (dat3 V c).leavesExact 1 t = owns (c : Thread nD τ) (st3_1 t) fullShare (iblk3 V c 1 t) := by
  unfold Dat.leavesExact; rw [liveAt3_1 t, after3_1]
theorem leaves3_2 (c : Dev nD) (t : Fin cfg3.N) :
    (dat3 V c).leavesExact 2 t = owns (c : Thread nD τ) (st3_2 t) fullShare (iblk3 V c 2 t) := by
  unfold Dat.leavesExact; rw [liveAt3_2 t, after3_2]
theorem leaves3_3 (c : Dev nD) (t : Fin cfg3.N) :
    (dat3 V c).leavesExact 3 t = owns (c : Thread nD τ) (st3_3 t) fullShare (hOut3 (iblk3 V c 0 t) (iblk3 V c 1 t)) := by
  unfold Dat.leavesExact; rw [liveAt3_3 t, after3_3]

set_option maxHeartbeats 4000000 in
/-- The body at any point: the inputs' buffers hold their blocks; the first point finds the accumulators at anything and
    zeroes them, the later ones find them at what the point before left; every point leaves them advanced; the second
    result's buffer is handed back untouched at every point but the last, which stores the quotient into it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [leaves3_0, leaves3_1, leaves3_2, leaves3_3]
  have hN : t.val < 5 := lt_of_lt_of_eq t.isLt (show cfg3.N = 5 from N_3)
  by_cases h0 : t.val = 0
  · have hc0 : cond3_0 (grid3.coords t) := (hcond3_0 t).mpr h0
    have hc1 : ¬cond3_1 (grid3.coords t) := fun h => by have := (hcond3_1 t).mp h; omega
    rw [Dat.leavesExact_idle (dat3 V c) 4 t (idleAt3_4 t hc1) (noFlush3_4 t hc1)]
    rw [sumsAt_first V c t h0, cntsAt_first V c t h0]
    rw [Phi3_castSucc V c t, Phi3_zero V c _ _ h0, PhiA3_eq]
    unfold idle3
    iintro ⟨⟨⟨I0, I1, I2, I3, I4, I5, I6, I7, I8, I9, I10, I11, I12, I13, I14, ⟨%dS, HS⟩, ⟨%dC, HC⟩⟩, Hg⟩, Ho, ⟨%d0, H0⟩, ⟨%d1, H1⟩, ⟨%d2, H2⟩, ⟨%d3, H3⟩, ⟨%d4, H4⟩⟩
    iapply (sound_kernel3_A c Set.univ (grid3.coords t) _ _ _ _ _ _ _ _ _ _ _ _ _ _ hc0 hc1 (iblk3 V c 0 t) (iblk3 V c 1 t) (iblk3 V c 2 t) ((dat3 V c).before 4 t d4) _)
    isplitl [H0]; · iexact H0
    isplitl [H1]; · iexact H1
    isplitl [H2]; · iexact H2
    isplitl [H3]; · iexists _; iexact H3
    isplitl [H4]; · iexact H4
    isplitl [HS]; · iexists _; iexact HS
    isplitl [HC]; · iexists _; iexact HC
    iintro ⟨H0, H1, H2, H3, H4, HS, HC⟩
    isplitl [I0 I1 I2 I3 I4 I5 I6 I7 I8 I9 I10 I11 I12 I13 I14 HS HC Hg]
    · isplitr [Hg]
      swap; · iexact Hg
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      isplitl [I11]; · iexact I11
      isplitl [I12]; · iexact I12
      isplitl [I13]; · iexact I13
      isplitl [I14]; · iexact I14
      isplitl [HS]; · iexact HS
      iexact HC
    isplitl [Ho]; · iexact Ho
    isplitl [H0]; · iexact H0
    isplitl [H1]; · iexact H1
    isplitl [H2]; · iexact H2
    isplitl [H3]; · iexact H3
    iexists _; iexact H4
  · by_cases h4 : t.val = 4
    · have hc0 : ¬cond3_0 (grid3.coords t) := fun h => h0 ((hcond3_0 t).mp h)
      have hc1 : cond3_1 (grid3.coords t) := (hcond3_1 t).mpr h4
      rw [show (dat3 V c).leavesExact 4 t = owns (c : Thread nD τ) (st3_4 t) fullShare ((dat3 V c).after 4 t) from by
        unfold Dat.leavesExact; rw [liveAt3_4 t hc1], after3_4]
      rw [sumsAt_pos V c t h0, cntsAt_pos V c t h0]
      rw [Phi3_castSucc V c t, Phi3_pos V c _ _ h0]
      unfold idle3
      iintro ⟨⟨⟨I0, I1, I2, I3, I4, I5, I6, I7, I8, I9, I10, I11, I12, I13, I14, HS, HC⟩, Hg⟩, Ho, ⟨%d0, H0⟩, ⟨%d1, H1⟩, ⟨%d2, H2⟩, ⟨%d3, H3⟩, ⟨%d4, H4⟩⟩
      iapply (sound_kernel3_C c Set.univ (grid3.coords t) _ _ _ _ _ _ _ _ _ _ _ _ _ _ hc0 hc1 (iblk3 V c 0 t) (iblk3 V c 1 t) (iblk3 V c 2 t) (sumsAt V c (t.val - 1) (Nat.lt_of_le_of_lt (Nat.sub_le _ _) t.isLt)) (cntsAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexists _; iexact H4
      isplitl [HS]; · iexact HS
      isplitl [HC]; · iexact HC
      iintro ⟨H0, H1, H2, H3, H4, HS, HC⟩
      isplitl [I0 I1 I2 I3 I4 I5 I6 I7 I8 I9 I10 I11 I12 I13 I14 HS HC Hg]
      · isplitr [Hg]
        swap; · iexact Hg
        isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [I11]; · iexact I11
        isplitl [I12]; · iexact I12
        isplitl [I13]; · iexact I13
        isplitl [I14]; · iexact I14
        isplitl [HS]; · iexact HS
        iexact HC
      isplitl [Ho]; · iexact Ho
      isplitl [H0]; · iexact H0
      isplitl [H1]; · iexact H1
      isplitl [H2]; · iexact H2
      isplitl [H3]; · iexact H3
      iexact H4
    · have hc0 : ¬cond3_0 (grid3.coords t) := fun h => h0 ((hcond3_0 t).mp h)
      have hc1 : ¬cond3_1 (grid3.coords t) := fun h => h4 ((hcond3_1 t).mp h)
      rw [Dat.leavesExact_idle (dat3 V c) 4 t (idleAt3_4 t hc1) (noFlush3_4 t hc1)]
      rw [sumsAt_pos V c t h0, cntsAt_pos V c t h0]
      rw [Phi3_castSucc V c t, Phi3_pos V c _ _ h0]
      unfold idle3
      iintro ⟨⟨⟨I0, I1, I2, I3, I4, I5, I6, I7, I8, I9, I10, I11, I12, I13, I14, HS, HC⟩, Hg⟩, Ho, ⟨%d0, H0⟩, ⟨%d1, H1⟩, ⟨%d2, H2⟩, ⟨%d3, H3⟩, ⟨%d4, H4⟩⟩
      iapply (sound_kernel3_B c Set.univ (grid3.coords t) _ _ _ _ _ _ _ _ _ _ _ _ _ _ hc0 hc1 (iblk3 V c 0 t) (iblk3 V c 1 t) (iblk3 V c 2 t) ((dat3 V c).before 4 t d4) (sumsAt V c (t.val - 1) (Nat.lt_of_le_of_lt (Nat.sub_le _ _) t.isLt)) (cntsAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [H4]; · iexact H4
      isplitl [HS]; · iexact HS
      isplitl [HC]; · iexact HC
      iintro ⟨H0, H1, H2, H3, H4, HS, HC⟩
      isplitl [I0 I1 I2 I3 I4 I5 I6 I7 I8 I9 I10 I11 I12 I13 I14 HS HC Hg]
      · isplitr [Hg]
        swap; · iexact Hg
        isplitl [I0]; · iexact I0
        isplitl [I1]; · iexact I1
        isplitl [I2]; · iexact I2
        isplitl [I3]; · iexact I3
        isplitl [I4]; · iexact I4
        isplitl [I5]; · iexact I5
        isplitl [I6]; · iexact I6
        isplitl [I7]; · iexact I7
        isplitl [I8]; · iexact I8
        isplitl [I9]; · iexact I9
        isplitl [I10]; · iexact I10
        isplitl [I11]; · iexact I11
        isplitl [I12]; · iexact I12
        isplitl [I13]; · iexact I13
        isplitl [I14]; · iexact I14
        isplitl [HS]; · iexact HS
        iexact HC
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem Phi3_in (c : Dev nD) : Pipeline.ΦA spec3 c ⊢ (dat3 V c).Φ 0 := by
  rw [show (dat3 V c).Φ 0 = Phi3 V c 0 (Nat.zero_le _) from rfl, Phi3_zero V c 0 _ rfl]
  try exact Idealize.SL.BI.Entails.refl _

/-- After the last point the invariant gives the class's back: the accumulators' contents are forgotten. -/
theorem Phi3_out (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 5 := N_3; omega), PhiA3_eq]
  unfold idle3
  iintro ⟨⟨I0, I1, I2, I3, I4, I5, I6, I7, I8, I9, I10, I11, I12, I13, I14, HS, HC⟩, Hg⟩
  isplitr [Hg]
  swap; · iexact Hg
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I12]; · iexact I12
  isplitl [I13]; · iexact I13
  isplitl [I14]; · iexact I14
  isplitl [HS]; · iexists _; iexact HS
  iexists _; iexact HC

end Cert.Kernel.Hand

end
-- ==== Proof.KB.Run.lean ====
/- The launch of the whole program. Its eleven items in order are five host stretches, the first dense product
   (region 0), a host stretch, the first bias-and-rectify (region 1), the second dense product (region 2, entered
   directly from region 1's exit), a host stretch, and the second bias-and-rectify with the mean pool (region 3).
   Between two items each core holds every unscoped buffer whole at a known valuation: the launch memory, then what each
   host stretch computes from the one before, then — across a region — the region's arrays at what its write-backs leave
   and every other buffer as it was. The run threads these valuations through the items and ends with every unscoped
   buffer read off the last one. -/
import proofs.«404703_j87608742904438_2_alg».proof.Proof.KB.R0
import proofs.«404703_j87608742904438_2_alg».proof.Proof.KB.R1
import proofs.«404703_j87608742904438_2_alg».proof.Proof.KB.R2
import proofs.«404703_j87608742904438_2_alg».proof.Proof.KB.R3
import proofs.«404703_j87608742904438_2_alg».proof.Proof.Gen.Kernel.Regions
import proofs.«404703_j87608742904438_2_alg».proof.Proof.Gen.Kernel.Launch

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between items -/
/-- Core `c`'s unscoped buffers at launch. -/
abbrev W0 (m : (ℓ : Loc nD τ sig) → Buf (Elt F) ℓ) (ρ : Dev nD → PrngReg) : Dev nD → Valuation τ sig (Elt F) := fun c => Gen.V0 m c
/-- Core `c`'s unscoped buffers after the first host stretch. -/
abbrev W1 (m : (ℓ : Loc nD τ sig) → Buf (Elt F) ℓ) (ρ : Dev nD → PrngReg) : Dev nD → Valuation τ sig (Elt F) := fun c => Gen.V1 m c
/-- Core `c`'s unscoped buffers after the second host stretch. -/
abbrev W2 (m : (ℓ : Loc nD τ sig) → Buf (Elt F) ℓ) (ρ : Dev nD → PrngReg) : Dev nD → Valuation τ sig (Elt F) := fun c => Gen.V2 m c
/-- Core `c`'s unscoped buffers after the third host stretch. -/
abbrev W3 (m : (ℓ : Loc nD τ sig) → Buf (Elt F) ℓ) (ρ : Dev nD → PrngReg) : Dev nD → Valuation τ sig (Elt F) := fun c => Gen.V3 m c
/-- Core `c`'s unscoped buffers after the fourth host stretch. -/
abbrev W4 (m : (ℓ : Loc nD τ sig) → Buf (Elt F) ℓ) (ρ : Dev nD → PrngReg) : Dev nD → Valuation τ sig (Elt F) := fun c => Gen.V4 m c
/-- Core `c`'s unscoped buffers after the fifth host stretch (region 0's entry). -/
abbrev W5 (m : (ℓ : Loc nD τ sig) → Buf (Elt F) ℓ) (ρ : Dev nD → PrngReg) : Dev nD → Valuation τ sig (Elt F) := fun c => Gen.V5 m c
/-- The same read at the TensorCore's references. -/
abbrev V5 (m : (ℓ : Loc nD τ sig) → Buf (Elt F) ℓ) (ρ : Dev nD → PrngReg) : (c : Dev nD) → (b : Ref sig .tc) → Buf (Elt F) ((c : Thread nD τ).loc b) := fun c b => W5 m ρ c b
/-- After region 0: its arrays at what the pipeline leaves (the inputs as entered, each output's write-backs folded),
    every other buffer as entered. -/
def W6 (m : (ℓ : Loc nD τ sig) → Buf (Elt F) ℓ) (ρ : Dev nD → PrngReg) (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references. -/
abbrev V6 (m : (ℓ : Loc nD τ sig) → Buf (Elt F) ℓ) (ρ : Dev nD → PrngReg) : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the host stretch `1` (region 1's entry). -/
abbrev W7 (m : (ℓ : Loc nD τ sig) → Buf (Elt F) ℓ) (ρ : Dev nD → PrngReg) : Dev nD → Valuation τ sig (Elt F) := fun c => StableHlo.after hostOps1 (W6 m ρ c)
/-- The same read at the TensorCore's references. -/
abbrev V7 (m : (ℓ : Loc nD τ sig) → Buf (Elt F) ℓ) (ρ : Dev nD → PrngReg) : (c : Dev nD) → (b : Ref sig .tc) → Buf (Elt F) ((c : Thread nD τ).loc b) := fun c b => W7 m ρ c b
/-- After region 1: its arrays at what the pipeline leaves (the inputs as entered, each output's write-backs folded),
    every other buffer as entered. -/
def W8 (m : (ℓ : Loc nD τ sig) → Buf (Elt F) ℓ) (ρ : Dev nD → PrngReg) (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references. -/
abbrev V8 (m : (ℓ : Loc nD τ sig) → Buf (Elt F) ℓ) (ρ : Dev nD → PrngReg) : (c : Dev nD) → (b : Ref sig .tc) → Buf (Elt F) ((c : Thread nD τ).loc b) := fun c b => W8 m ρ c b
/-- At region 1's exit each of its arrays holds what the pipeline leaves and every other buffer what it held at entry. -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- After region 2: its arrays at what the pipeline leaves (the inputs as entered, each output's write-backs folded),
    every other buffer as entered. -/
def W9 (m : (ℓ : Loc nD τ sig) → Buf (Elt F) ℓ) (ρ : Dev nD → PrngReg) (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
/-- The same read at the TensorCore's references. -/
abbrev V9 (m : (ℓ : Loc nD τ sig) → Buf (Elt F) ℓ) (ρ : Dev nD → PrngReg) : (c : Dev nD) → (b : Ref sig .tc) → Buf (Elt F) ((c : Thread nD τ).loc b) := fun c b => W9 m ρ c b
/-- At region 2's exit each of its arrays holds what the pipeline leaves and every other buffer what it held at entry. -/
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)
/-- After the host stretch `3` (region 3's entry). -/
abbrev W10 (m : (ℓ : Loc nD τ sig) → Buf (Elt F) ℓ) (ρ : Dev nD → PrngReg) : Dev nD → Valuation τ sig (Elt F) := fun c => StableHlo.after hostOps3 (W9 m ρ c)
/-- The same read at the TensorCore's references. -/
abbrev V10 (m : (ℓ : Loc nD τ sig) → Buf (Elt F) ℓ) (ρ : Dev nD → PrngReg) : (c : Dev nD) → (b : Ref sig .tc) → Buf (Elt F) ((c : Thread nD τ).loc b) := fun c b => W10 m ρ c b
/-- After region 3: its arrays at what the pipeline leaves (the inputs as entered, each output's write-backs folded),
    every other buffer as entered. -/
def W11 (m : (ℓ : Loc nD τ sig) → Buf (Elt F) ℓ) (ρ : Dev nD → PrngReg) (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
/-- The same read at the TensorCore's references. -/
abbrev V11 (m : (ℓ : Loc nD τ sig) → Buf (Elt F) ℓ) (ρ : Dev nD → PrngReg) : (c : Dev nD) → (b : Ref sig .tc) → Buf (Elt F) ((c : Thread nD τ).loc b) := fun c b => W11 m ρ c b
/-- At region 3's exit each of its arrays holds what the pipeline leaves and every other buffer what it held at entry. -/
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V8 m ρ) c
  | ⟨3, _⟩ => fun c => dat3 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at what the stretch computes from `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last valuation, the generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- REGION 0 over the thread state: entered from every unscoped buffer at `W5`, left at `W6`. Its arrays are split
    out of the unscoped buffers at entry and put back at the exit contents; the generator register goes into the region
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W7`, left at `W8`. Its arrays are split
    out of the unscoped buffers at entry and put back at the exit contents; the generator register goes into the region
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W8`, left at `W9`. Its arrays are split
    out of the unscoped buffers at entry and put back at the exit contents; the generator register goes into the region
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W10`, left at `W11`. Its arrays are split
    out of the unscoped buffers at entry and put back at the exit contents; the generator register goes into the region
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ A : sProp 𝕄, iprop((∃ r, prngReg c r) ∗ A
          ∗ Pipeline.scopedRest (Ix := Unit) (Name := ℕ) (U := UR sig nD τ) (Lvl := ℕ) (Val := Elt F) spec3 c)
        ⊢ (Pipeline.ΦA spec3 c : sProp 𝕄) := by
      intro A; unfold Pipeline.ΦA
      iintro ⟨Hp, -, Hr⟩
      isplitl [Hr]; · iexact Hr
      iexact Hp
    exact (h _).trans (Phi3_in (V10 m ρ) c)
  hout c := by
    have h : (Pipeline.ΦA spec3 c : sProp 𝕄) ⊢ iprop((∃ r, prngReg c r) ∗ BI.emp
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    rw [Pipeline.ownSems0_none]
    exact (Phi3_out (V10 m ρ) c).trans h
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eleven items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ),
    .host (hseg hostOps3 hostOps3_sub hostOps3_fresh (W9 m ρ)),
    .region (reg3 m ρ) ]

set_option backward.isDefEq.respectTransparency.types false in
/-- THE RUN: from any memory with zero counters, every weakly fair execution of the program on the TensorCores terminates,
    nothing faulting, and in every final state each core's unscoped buffers hold the last valuation. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

/-! ## The arguments end as launched

No host stretch writes an argument and no region has one as an output: at an argument's buffer the valuations walk back
to the launch memory, through an input window's array where a region reads the argument. -/

/-- A reference none of the five host stretches before region 0 writes holds its launch contents at region 0's entry. -/
theorem W5_launch (c : Dev nD) (r : Ref sig .tc) (h0 : r ∉ hostOps0_W) (h1 : r ∉ hostOps0_1_W) (h2 : r ∉ hostOps0_2_W)
    (h3 : r ∉ hostOps0_3_W) (h4 : r ∉ hostOps0_4_W) : W5 m ρ c (Proc.devRef .tc r) = m ((c : Thread nD τ).loc r) :=
  (Gen.V5_of m c r h4).trans <| (Gen.V4_of m c r h3).trans <| (Gen.V3_of m c r h2).trans <| (Gen.V2_of m c r h1).trans <|
    (Gen.V1_of m c r h0).trans rfl

/-- `main_arg0` reaches the end as launched. -/
theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := StableHlo.after_of_writes_sub hostOps3 _ hostOps3_writes (by decide)
    _ = W8 m ρ c (Proc.devRef .tc main_arg0) := (W9_of_ne m ρ c main_arg0 (by decide))
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := ((W6_arr m ρ c 0).trans (((dat0 (V5 m ρ) c).arrAt_in 0 rfl _).trans (A_eq0 (V5 m ρ) c 0)))
    _ = m ((c : Thread nD τ).loc main_arg0) := W5_launch m ρ c main_arg0 (by decide) (by decide) (by decide) (by decide) (by decide)
/-- `main_arg1` reaches the end as launched. -/
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := StableHlo.after_of_writes_sub hostOps3 _ hostOps3_writes (by decide)
    _ = W8 m ρ c (Proc.devRef .tc main_arg1) := (W9_of_ne m ρ c main_arg1 (by decide))
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := (W6_of_ne m ρ c main_arg1 (by decide))
    _ = m ((c : Thread nD τ).loc main_arg1) := W5_launch m ρ c main_arg1 (by decide) (by decide) (by decide) (by decide) (by decide)
/-- `main_arg2` reaches the end as launched. -/
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_writes_sub hostOps3 _ hostOps3_writes (by decide)
    _ = W8 m ρ c (Proc.devRef .tc main_arg2) := (W9_of_ne m ρ c main_arg2 (by decide))
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := (W6_of_ne m ρ c main_arg2 (by decide))
    _ = m ((c : Thread nD τ).loc main_arg2) := W5_launch m ρ c main_arg2 (by decide) (by decide) (by decide) (by decide) (by decide)
/-- `main_arg3` reaches the end as launched. -/
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := StableHlo.after_of_writes_sub hostOps3 _ hostOps3_writes (by decide)
    _ = W8 m ρ c (Proc.devRef .tc main_arg3) := (W9_of_ne m ρ c main_arg3 (by decide))
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := (W6_of_ne m ρ c main_arg3 (by decide))
    _ = m ((c : Thread nD τ).loc main_arg3) := W5_launch m ρ c main_arg3 (by decide) (by decide) (by decide) (by decide) (by decide)
/-- `main_arg4` reaches the end as launched. -/
theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := StableHlo.after_of_writes_sub hostOps3 _ hostOps3_writes (by decide)
    _ = W8 m ρ c (Proc.devRef .tc main_arg4) := (W9_of_ne m ρ c main_arg4 (by decide))
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := ((W6_arr m ρ c 1).trans (((dat0 (V5 m ρ) c).arrAt_in 1 rfl _).trans (A_eq0 (V5 m ρ) c 1)))
    _ = m ((c : Thread nD τ).loc main_arg4) := W5_launch m ρ c main_arg4 (by decide) (by decide) (by decide) (by decide) (by decide)
/-- `main_arg5` reaches the end as launched. -/
theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := StableHlo.after_of_writes_sub hostOps3 _ hostOps3_writes (by decide)
    _ = W8 m ρ c (Proc.devRef .tc main_arg5) := (W9_of_ne m ρ c main_arg5 (by decide))
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := (W6_of_ne m ρ c main_arg5 (by decide))
    _ = m ((c : Thread nD τ).loc main_arg5) := W5_launch m ρ c main_arg5 (by decide) (by decide) (by decide) (by decide) (by decide)
/-- `main_arg6` reaches the end as launched. -/
theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := StableHlo.after_of_writes_sub hostOps3 _ hostOps3_writes (by decide)
    _ = W8 m ρ c (Proc.devRef .tc main_arg6) := ((W9_arr m ρ c 1).trans (((dat2 (V8 m ρ) c).arrAt_in 1 rfl _).trans (A_eq2 (V8 m ρ) c 1)))
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := (W6_of_ne m ρ c main_arg6 (by decide))
    _ = m ((c : Thread nD τ).loc main_arg6) := W5_launch m ρ c main_arg6 (by decide) (by decide) (by decide) (by decide) (by decide)
/-- `main_arg7` reaches the end as launched. -/
theorem W11_main_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := StableHlo.after_of_writes_sub hostOps3 _ hostOps3_writes (by decide)
    _ = W8 m ρ c (Proc.devRef .tc main_arg7) := (W9_of_ne m ρ c main_arg7 (by decide))
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := (W6_of_ne m ρ c main_arg7 (by decide))
    _ = m ((c : Thread nD τ).loc main_arg7) := W5_launch m ρ c main_arg7 (by decide) (by decide) (by decide) (by decide) (by decide)

/-! ## The two results, and what each region finds in the arrays an earlier region wrote -/

/-- The second layer's activations: region 3's fourth array at what its write-backs leave. -/
theorem W11_out0 (c : Dev nD) : W11 m ρ c (Proc.devRef .tc main_v67_0) = (dat3 (V10 m ρ) c).arrAt 3 cfg3.N := W11_arr m ρ c 3
/-- The pooled means: region 3's fifth array at what its write-backs leave. -/
theorem W11_out1 (c : Dev nD) : W11 m ρ c (Proc.devRef .tc main_v67_1) = (dat3 (V10 m ρ) c).arrAt 4 cfg3.N := W11_arr m ρ c 4

/-- After region 0 the first product sits in `main_v35`. -/
theorem V6_v35 (c : Dev nD) : V6 m ρ c main_v35 = (dat0 (V5 m ρ) c).arrAt 2 cfg0.N := W6_arr m ρ c 2
/-- The host stretch after region 0 leaves it there. -/
theorem V7_v35 (c : Dev nD) : V7 m ρ c main_v35 = (dat0 (V5 m ρ) c).arrAt 2 cfg0.N :=
  (StableHlo.after_of_writes_sub hostOps1 _ hostOps1_writes (by decide)).trans (W6_arr m ρ c 2)
/-- Region 2 finds region 1's output in its first array, -/
theorem V8_v50 (c : Dev nD) : V8 m ρ c main_v50 = (dat1 (V7 m ρ) c).arrAt 2 cfg1.N := W8_arr m ρ c 2
/-- and the second weight as launched in its second. -/
theorem V8_arg6 (c : Dev nD) : V8 m ρ c main_arg6 = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = m ((c : Thread nD τ).loc main_arg6) := W5_launch m ρ c main_arg6 (by decide) (by decide) (by decide) (by decide) (by decide)
/-- After region 2 the second product sits in `main_v51`. -/
theorem V9_v51 (c : Dev nD) : V9 m ρ c main_v51 = (dat2 (V8 m ρ) c).arrAt 2 cfg2.N := W9_arr m ρ c 2
/-- Region 0 finds the features and the first weight as launched. -/
theorem V5_arg0 (c : Dev nD) : V5 m ρ c main_arg0 = m ((c : Thread nD τ).loc main_arg0) :=
  W5_launch m ρ c main_arg0 (by decide) (by decide) (by decide) (by decide) (by decide)
theorem V5_arg4 (c : Dev nD) : V5 m ρ c main_arg4 = m ((c : Thread nD τ).loc main_arg4) :=
  W5_launch m ρ c main_arg4 (by decide) (by decide) (by decide) (by decide) (by decide)

end Cert.Kernel.Hand

end
-- ==== Proof.KB.Frame.lean ====
/- The two statements the certificate cites about the program's run, both read off the last valuation of the run:
   every argument array ends holding its launch contents, and the two result arrays end holding what region 3's
   write-backs leave in them. -/
import proofs.«404703_j87608742904438_2_alg».proof.Proof.KB.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

/-- THE FRAME: from any memory with zero counters, every weakly fair execution of the program terminates, nothing
    faulting, and every final state has the eight argument arrays as launched. -/
theorem frame_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

/-- THE VALUES: the same run ends with the two result arrays at the last valuation's contents, beside the arguments as launched. -/
theorem value_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v67_0) = W11 m ρ c (Proc.devRef .tc main_v67_0)
      ∧ r.2.mem ((c.tc : Thread nD τ).loc main_v67_1) = W11 m ρ c (Proc.devRef .tc main_v67_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v67_0 (by decide)), h c _ (mem_uc main_v67_1 (by decide)),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c)⟩) (run_all m ρ)

end Cert.Kernel.Hand

end
-- ==== Proof.lean ====
/- The certificate. The kernel program is host StableHLO around four kernel regions; its frame (at either instance) and
   its results come from one launch of the whole program over the regions' records, which ends with every buffer at a
   named content: the arguments as launched, the two results at the last region's two output arrays. Over the extended
   reals those arrays are the second graph-convolution layer and its mean pool per graph id — each region's output is the
   host operation it replaces (a dense product; bias with rectifier; the segment sums of the pool as one-hot products
   accumulated over the row blocks), and the host stretches between them are the reference's own operations — which is
   what the reference's run computes. No rewrite was made by the idealization, so the preservation claim is empty. -/
import proofs.«404703_j87608742904438_2_alg».proof.Defs
import proofs.«404703_j87608742904438_2_alg».proof.Proof.Gen.Kernel
import proofs.«404703_j87608742904438_2_alg».proof.Proof.Gen.KernelIdeal
import proofs.«404703_j87608742904438_2_alg».proof.Proof.Gen.ReferenceIdeal
import proofs.«404703_j87608742904438_2_alg».proof.Proof.Gen.ReferenceIdeal.Run
import proofs.«404703_j87608742904438_2_alg».proof.Proof.Gen.Pre_finite_inputs
import proofs.«404703_j87608742904438_2_alg».proof.Proof.Spec
import proofs.«404703_j87608742904438_2_alg».proof.Proof.KI.Frame
import proofs.«404703_j87608742904438_2_alg».proof.Proof.KI.Bridge
import proofs.«404703_j87608742904438_2_alg».proof.Proof.KB.Frame
import Idealize.ShloMosaic.Adequacy
import Idealize.ShloMosaic.Init

noncomputable section

namespace Cert.Proof

open Idealize.ShloMosaic Idealize.ShloMosaic.TcCoe Idealize.SL.Sem

/-- The kernel program's frame at the word-level instance: the launch over its four regions, each argument read back. -/
theorem frame_k : Cert.frame_Kernel := fun m ρ _ => Cert.Kernel.Hand.frame_all (F := Bits) m ρ

/-- The same at the ideal instance. -/
theorem frame_ki : Cert.frame_KernelIdeal := fun m ρ _ => Cert.KernelIdeal.Hand.frame_all (F := Ideal) m ρ

/-- The reference is host code: its generated run has the frame's post among its conjuncts. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's half of the value claim: its two results are the shared functions of the kernel's arguments. -/
theorem ref_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v101)
          = Cert.Spec.h2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.ReferenceIdeal.nD Cert.ReferenceIdeal.τ).loc Cert.ReferenceIdeal.main_v113)
          = Cert.Spec.pool (F := Ideal) (Cert.Spec.h2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
              (Cert.Spec.idsCol (m ((c.tc : Thread Cert.KernelIdeal.nD Cert.KernelIdeal.τ).loc Cert.KernelIdeal.main_arg3)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono (fun _ h c => by
    obtain ⟨h0, h1, h2, h3, h4, h5, h6, h7⟩ := hagree c
    refine ⟨(h c).1.trans ?_, (h c).2.1.trans ?_, (h c).2.2⟩
    · rw [Cert.Spec.ref_h2, h0, h1, h2, h4, h5, h6, h7]
    · rw [Cert.Spec.ref_pool, Cert.Spec.ref_h2, h0, h1, h2, h3, h4, h5, h6, h7])
    (Cert.ReferenceIdeal.Value.run (F := Ideal) m' g')

/-- Both programs end with the second layer and its mean pool per graph id, as the shared functions of arguments that agree:
    the kernel program by its launch and the regions' values, the reference by its run. -/
theorem algebraic : Cert.algebraic_KernelIdeal_ReferenceIdeal := by
  intro m ρ m' ρ' _ hagree
  refine ⟨fun c => Cert.Spec.h2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.pool (F := Ideal) (Cert.Spec.h2 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (Cert.Spec.idsCol (m ((c.tc : Thread Cert.KernelIdeal.nD Cert.KernelIdeal.τ).loc Cert.KernelIdeal.main_arg3))),
    ?_, ref_run m m' ρ' hagree⟩
  refine (θ_run Cert.KernelIdeal.defs _ _).mono (fun r h c => ?_) (Cert.KernelIdeal.Hand.value_all (F := Ideal) m ρ)
  obtain ⟨h0, h1, hargs⟩ := h c
  exact ⟨h0.trans (Cert.KernelIdeal.Hand.out0_eq m ρ c), h1.trans (Cert.KernelIdeal.Hand.out1_eq m ρ c), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
